-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8192 : Shape := ⟨3, ![4, 2048, 8192]⟩
abbrev S4x688x2048 : Shape := ⟨3, ![4, 688, 2048]⟩
abbrev S4x2048 : Shape := ⟨2, ![4, 2048]⟩
abbrev S4x688x688 : Shape := ⟨3, ![4, 688, 688]⟩
abbrev S4x688 : Shape := ⟨2, ![4, 688]⟩
abbrev S_ : Shape := ⟨0, ![]⟩

class Facts : Prop where
  bcast_S_S4x2048x8192 : S_.BroadcastsInDim S4x2048x8192 (![] : Fin 0 → Fin S4x2048x8192.rank)
  reducesTo_S4x2048x8192_S_d0_1_2 : S4x2048x8192.ReducesTo [0, 1, 2] S_
  h_S_ : 0 < S_.numel
  bcast_S_S4x688x2048 : S_.BroadcastsInDim S4x688x2048 (![] : Fin 0 → Fin S4x688x2048.rank)
  reducesTo_S4x688x2048_S_d0_1_2 : S4x688x2048.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S4x688x688 : S_.BroadcastsInDim S4x688x688 (![] : Fin 0 → Fin S4x688x688.rank)
  reducesTo_S4x688x688_S_d0_1_2 : S4x688x688.ReducesTo [0, 1, 2] S_

variable [Facts]

def fn_part2 {F : FTy → Type} [FloatOps F] (main_arg7 : IVec S4x2048 32) (main_v33 : IVec S_ 1) : IVec S_ 1 :=
  let main_c_12 : IVec S_ 32 := constantI S_ 32 0#32
  let main_v34 : IVec S4x2048 32 := broadcastInDim S4x2048 ![] bcast_S_S4x2048 main_c_12
  let main_v35 : IVec S4x2048 1 := cmpi .sge main_arg7 main_v34
  let main_c_13 : IVec S_ 1 := constantI S_ 1 1#1
  let main_v36 : IVec S_ 1 := (fun x v => Host.reduce IntOp.andi x v reducesTo_S4x2048_S_d0_1 h_S_) main_v35 main_c_13
  let main_v37 : IVec S_ 1 := andi main_v33 main_v36
  let main_c_14 : IVec S_ 32 := constantI S_ 32 8192#32
  let main_v38 : IVec S4x2048 32 := broadcastInDim S4x2048 ![] bcast_S_S4x2048 main_c_14
  let main_v39 : IVec S4x2048 1 := cmpi .slt main_arg7 main_v38
  let main_c_15 : IVec S_ 1 := constantI S_ 1 1#1
  let main_v40 : IVec S_ 1 := (fun x v => Host.reduce IntOp.andi x v reducesTo_S4x2048_S_d0_1 h_S_) main_v39 main_c_15
  let main_v41 : IVec S_ 1 := andi main_v37 main_v40
  main_v41

def fn_part1 {F : FTy → Type} [FloatOps F] (main_arg4 : FVec F S4x688x688 .f32) (main_arg5 : FVec F S4x688x688 .f32) (main_arg6 : FVec F S4x688x688 .f32) (main_arg7 : IVec S4x2048 32) (main_v13 : IVec S_ 1) (main_v16 : IVec S4x688x688 1) : IVec S_ 1 :=
  let main_c_5 : IVec S_ 1 := constantI S_ 1 1#1
  let main_v17 : IVec S_ 1 := (fun x v => Host.reduce IntOp.andi x v reducesTo_S4x688x688_S_d0_1_2 h_S_) main_v16 main_c_5
  let main_v18 : IVec S_ 1 := andi main_v13 main_v17
  let main_v19 : FVec F S4x688x688 .f32 := Host.absf main_arg4
  let main_cst_6 : FVec F S_ .f32 := constant S_ .f32 0x7F800000#32
  let main_v20 : FVec F S4x688x688 .f32 := broadcastInDim S4x688x688 ![] bcast_S_S4x688x688 main_cst_6
  let main_v21 : IVec S4x688x688 1 := cmpf .olt main_v19 main_v20
  let main_c_7 : IVec S_ 1 := constantI S_ 1 1#1
  let main_v22 : IVec S_ 1 := (fun x v => Host.reduce IntOp.andi x v reducesTo_S4x688x688_S_d0_1_2 h_S_) main_v21 main_c_7
  let main_v23 : IVec S_ 1 := andi main_v18 main_v22
  let main_v24 : FVec F S4x688x688 .f32 := Host.absf main_arg5
  let main_cst_8 : FVec F S_ .f32 := constant S_ .f32 0x7F800000#32
  let main_v25 : FVec F S4x688x688 .f32 := broadcastInDim S4x688x688 ![] bcast_S_S4x688x688 main_cst_8
  let main_v26 : IVec S4x688x688 1 := cmpf .olt main_v24 main_v25
  let main_c_9 : IVec S_ 1 := constantI S_ 1 1#1
  let main_v27 : IVec S_ 1 := (fun x v => Host.reduce IntOp.andi x v reducesTo_S4x688x688_S_d0_1_2 h_S_) main_v26 main_c_9
  let main_v28 : IVec S_ 1 := andi main_v23 main_v27
  let main_v29 : FVec F S4x688x688 .f32 := Host.absf main_arg6
  let main_cst_10 : FVec F S_ .f32 := constant S_ .f32 0x7F800000#32
  let main_v30 : FVec F S4x688x688 .f32 := broadcastInDim S4x688x688 ![] bcast_S_S4x688x688 main_cst_10
  let main_v31 : IVec S4x688x688 1 := cmpf .olt main_v29 main_v30
  let main_c_11 : IVec S_ 1 := constantI S_ 1 1#1
  let main_v32 : IVec S_ 1 := (fun x v => Host.reduce IntOp.andi x v reducesTo_S4x688x688_S_d0_1_2 h_S_) main_v31 main_c_11
  let main_v33 : IVec S_ 1 := andi main_v28 main_v32
  fn_part2 (F := F) main_arg7 main_v33

def fn {F : FTy → Type} [FloatOps F] (main_arg0 : FVec F S4x2048x8192 .f32) (main_arg1 : FVec F S4x688x2048 .f32) (main_arg2 : FVec F S4x2048 .f32) (main_arg3 : FVec F S4x688x688 .f32) (main_arg4 : FVec F S4x688x688 .f32) (main_arg5 : FVec F S4x688x688 .f32) (main_arg6 : FVec F S4x688x688 .f32) (main_arg7 : IVec S4x2048 32) (main_arg8 : IVec S4x688 32) (main_arg9 : IVec S4x2048 1) (main_arg10 : IVec S4x2048 1) : IVec S_ 1 :=
  let main_v0 : FVec F S4x2048x8192 .f32 := Host.absf main_arg0
  let main_cst : FVec F S_ .f32 := constant S_ .f32 0x7F800000#32
  let main_v1 : FVec F S4x2048x8192 .f32 := broadcastInDim S4x2048x8192 ![] bcast_S_S4x2048x8192 main_cst
  let main_v2 : IVec S4x2048x8192 1 := cmpf .olt main_v0 main_v1
  let main_c : IVec S_ 1 := constantI S_ 1 1#1
  let main_v3 : IVec S_ 1 := (fun x v => Host.reduce IntOp.andi x v reducesTo_S4x2048x8192_S_d0_1_2 h_S_) main_v2 main_c
  let main_v4 : FVec F S4x688x2048 .f32 := Host.absf main_arg1
  let main_cst_0 : FVec F S_ .f32 := constant S_ .f32 0x7F800000#32
  let main_v5 : FVec F S4x688x2048 .f32 := broadcastInDim S4x688x2048 ![] bcast_S_S4x688x2048 main_cst_0
  let main_v6 : IVec S4x688x2048 1 := cmpf .olt main_v4 main_v5
  let main_c_1 : IVec S_ 1 := constantI S_ 1 1#1
  let main_v7 : IVec S_ 1 := (fun x v => Host.reduce IntOp.andi x v reducesTo_S4x688x2048_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S4x688x688 .f32 := Host.absf main_arg3
  let main_cst_4 : FVec F S_ .f32 := constant S_ .f32 0x7F800000#32
  let main_v15 : FVec F S4x688x688 .f32 := broadcastInDim S4x688x688 ![] bcast_S_S4x688x688 main_cst_4
  let main_v16 : IVec S4x688x688 1 := cmpf .olt main_v14 main_v15
  fn_part1 (F := F) main_arg4 main_arg5 main_arg6 main_arg7 main_v13 main_v16
-- ==== Kernel.lean ====
abbrev S4x2048x8192 : Shape := ⟨3, ![4, 2048, 8192]⟩
abbrev S4x688x2048 : Shape := ⟨3, ![4, 688, 2048]⟩
abbrev S4x2048 : Shape := ⟨2, ![4, 2048]⟩
abbrev S4x688x688 : Shape := ⟨3, ![4, 688, 688]⟩
abbrev S4x688 : Shape := ⟨2, ![4, 688]⟩
abbrev S4x2048x1 : Shape := ⟨3, ![4, 2048, 1]⟩
abbrev S4x1x1 : Shape := ⟨3, ![4, 1, 1]⟩
abbrev S1x128x8192 : Shape := ⟨3, ![1, 128, 8192]⟩
abbrev S1x128x1 : Shape := ⟨3, ![1, 128, 1]⟩
abbrev S1x1x1 : Shape := ⟨3, ![1, 1, 1]⟩
abbrev S1x128 : Shape := ⟨2, ![1, 128]⟩
abbrev S1x1x128 : Shape := ⟨3, ![1, 1, 128]⟩
abbrev S1 : Shape := ⟨1, ![1]⟩
abbrev S_ : Shape := ⟨0, ![]⟩
abbrev S4x1x2048 : Shape := ⟨3, ![4, 1, 2048]⟩
abbrev S4x688x1 : Shape := ⟨3, ![4, 688, 1]⟩
abbrev S4x688x1x1 : Shape := ⟨4, ![4, 688, 1, 1]⟩
abbrev S1x1x1x1 : Shape := ⟨4, ![1, 1, 1, 1]⟩
abbrev S688x688 : Shape := ⟨2, ![688, 688]⟩
abbrev S1x688x688 : Shape := ⟨3, ![1, 688, 688]⟩

abbrev nBuf : Space → Nat
  | .hbm => 323
  | .vmem => 8
  | .smem => 0
  | _ => 0

abbrev hbmTy0_0 (i : Nat) : BufTy := match i % 128 with
  | 0 => ⟨S4x2048x8192, .f32⟩
  | 1 => ⟨S4x688x2048, .f32⟩
  | 2 => ⟨S4x2048, .f32⟩
  | 3 => ⟨S4x688x688, .f32⟩
  | 4 => ⟨S4x688x688, .f32⟩
  | 5 => ⟨S4x688x688, .f32⟩
  | 6 => ⟨S4x688x688, .f32⟩
  | 7 => ⟨S4x2048, .i32⟩
  | 8 => ⟨S4x688, .i32⟩
  | 9 => ⟨S4x2048, .i1⟩
  | 10 => ⟨S4x2048, .i1⟩
  | 11 => ⟨S4x2048x1, .i32⟩
  | 12 => ⟨S4x1x1, .f32⟩
  | 13 => ⟨S4x1x1, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S4x1x2048, .i1⟩
  | 22 => ⟨S_, .f32⟩
  | 23 => ⟨S_, .f32⟩
  | 24 => ⟨S4x688x2048, .i1⟩
  | 25 => ⟨S4x688x2048, .f32⟩
  | 26 => ⟨S4x688x2048, .f32⟩
  | 27 => ⟨S_, .f32⟩
  | 28 => ⟨S4x688, .f32⟩
  | 29 => ⟨S_, .f32⟩
  | 30 => ⟨S4x688, .f32⟩
  | 31 => ⟨S4x688, .f32⟩
  | 32 => ⟨S4x688x1, .f32⟩
  | 33 => ⟨S4x688x2048, .f32⟩
  | 34 => ⟨S4x688x2048, .f32⟩
  | 35 => ⟨S4x688x2048, .f32⟩
  | 36 => ⟨S_, .f32⟩
  | 37 => ⟨S4x688, .f32⟩
  | 38 => ⟨S4x688x1, .f32⟩
  | 39 => ⟨S4x688x1, .f32⟩
  | 40 => ⟨S4x688x2048, .f32⟩
  | 41 => ⟨S4x688x2048, .f32⟩
  | 42 => ⟨S_, .i32⟩
  | 43 => ⟨S4x688, .i32⟩
  | 44 => ⟨S4x688, .i1⟩
  | 45 => ⟨S_, .i32⟩
  | 46 => ⟨S4x688, .i32⟩
  | 47 => ⟨S4x688, .i1⟩
  | 48 => ⟨S4x688, .i1⟩
  | 49 => ⟨S_, .i32⟩
  | 50 => ⟨S_, .i32⟩
  | 51 => ⟨S4x688, .i32⟩
  | 52 => ⟨S4x688, .i32⟩
  | 53 => ⟨S4x688x1, .i32⟩
  | 54 => ⟨S_, .i32⟩
  | 55 => ⟨S4x688x1, .i32⟩
  | 56 => ⟨S4x688x1, .i1⟩
  | 57 => ⟨S_, .i32⟩
  | 58 => ⟨S4x688x1, .i32⟩
  | 59 => ⟨S4x688x1, .i32⟩
  | 60 => ⟨S4x688x1, .i32⟩
  | 61 => ⟨S4x688x1x1, .i32⟩
  | 62 => ⟨S1, .i32⟩
  | 63 => ⟨S_, .i32⟩
  | 64 => ⟨S4x688x1x1, .i32⟩
  | 65 => ⟨S4x688x1x1, .i1⟩
  | 66 => ⟨S1x1x1x1, .i32⟩
  | 67 => ⟨S4x688x1x1, .i32⟩
  | 68 => ⟨S4x688x1x1, .i1⟩
  | 69 => ⟨S4x688x1x1, .i1⟩
  | 70 => ⟨S_, .i1⟩
  | 71 => ⟨S4x688x1, .i1⟩
  | 72 => ⟨S4x688x1, .f32⟩
  | 73 => ⟨S_, .f32⟩
  | 74 => ⟨S4x688x1, .f32⟩
  | 75 => ⟨S4x688x1, .f32⟩
  | 76 => ⟨S4x688, .f32⟩
  | 77 => ⟨S_, .f32⟩
  | 78 => ⟨S_, .f32⟩
  | 79 => ⟨S4x688, .f32⟩
  | 80 => ⟨S4x688, .f32⟩
  | 81 => ⟨S4x688, .f32⟩
  | 82 => ⟨S4x688, .f32⟩
  | 83 => ⟨S4x688, .f32⟩
  | 84 => ⟨S_, .f32⟩
  | 85 => ⟨S_, .f32⟩
  | 86 => ⟨S_, .f32⟩
  | 87 => ⟨S_, .f32⟩
  | 88 => ⟨S4x2048, .f32⟩
  | 89 => ⟨S_, .f32⟩
  | 90 => ⟨S4x2048, .f32⟩
  | 91 => ⟨S4x2048, .f32⟩
  | 92 => ⟨S4x2048, .f32⟩
  | 93 => ⟨S4x2048, .f32⟩
  | 94 => ⟨S4x2048, .i1⟩
  | 95 => ⟨S4x2048, .f32⟩
  | 96 => ⟨S4x2048, .f32⟩
  | 97 => ⟨S4x2048, .f32⟩
  | 98 => ⟨S4x2048, .f32⟩
  | 99 => ⟨S4x2048, .f32⟩
  | 100 => ⟨S4x2048, .f32⟩
  | 101 => ⟨S4x2048, .f32⟩
  | 102 => ⟨S4x2048, .f32⟩
  | 103 => ⟨S4x2048, .f32⟩
  | 104 => ⟨S4x2048, .f32⟩
  | 105 => ⟨S4x2048, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S4x688x688, .f32⟩
  | 115 => ⟨S4x688x688, .f32⟩
  | 116 => ⟨S688x688, .i32⟩
  | 117 => ⟨S688x688, .i32⟩
  | 118 => ⟨S_, .i32⟩
  | 119 => ⟨S688x688, .i32⟩
  | 120 => ⟨S688x688, .i32⟩
  | 121 => ⟨S688x688, .i1⟩
  | 122 => ⟨S1x688x688, .i1⟩
  | 123 => ⟨S1x688x688, .i1⟩
  | 124 => ⟨S_, .f32⟩
  | 125 => ⟨S4x688x688, .f32⟩
  | 126 => ⟨S4x688x688, .i1⟩
  | 127 => ⟨S4x688x688, .i1⟩
  | _ => ⟨S4x2048x8192, .f32⟩

abbrev hbmTy0_1 (i : Nat) : BufTy := match i % 128 with
  | 0 => ⟨S4x688x688, .i1⟩
  | 1 => ⟨S4x688x688, .i1⟩
  | 2 => ⟨S4x688x688, .i1⟩
  | 3 => ⟨S4x688x688, .i1⟩
  | 4 => ⟨S_, .f32⟩
  | 5 => ⟨S_, .f32⟩
  | 6 => ⟨S4x688x688, .f32⟩
  | 7 => ⟨S4x688x688, .f32⟩
  | 8 => ⟨S_, .f32⟩
  | 9 => ⟨S4x688, .f32⟩
  | 10 => ⟨S_, .f32⟩
  | 11 => ⟨S_, .f32⟩
  | 12 => ⟨S4x688x688, .i1⟩
  | 13 => ⟨S4x688x688, .f32⟩
  | 14 => ⟨S4x688x688, .f32⟩
  | 15 => ⟨S_, .f32⟩
  | 16 => ⟨S4x688, .f32⟩
  | 17 => ⟨S4x688x1, .f32⟩
  | 18 => ⟨S4x688x688, .f32⟩
  | 19 => ⟨S4x688x688, .f32⟩
  | 20 => ⟨S4x688x688, .f32⟩
  | 21 => ⟨S_, .f32⟩
  | 22 => ⟨S_, .f32⟩
  | 23 => ⟨S4x688x688, .f32⟩
  | 24 => ⟨S4x688x688, .f32⟩
  | 25 => ⟨S_, .f32⟩
  | 26 => ⟨S4x688, .f32⟩
  | 27 => ⟨S_, .f32⟩
  | 28 => ⟨S_, .f32⟩
  | 29 => ⟨S4x688x688, .f32⟩
  | 30 => ⟨S4x688x688, .f32⟩
  | 31 => ⟨S_, .f32⟩
  | 32 => ⟨S4x688, .f32⟩
  | 33 => ⟨S_, .i1⟩
  | 34 => ⟨S4x688, .i1⟩
  | 35 => ⟨S_, .f32⟩
  | 36 => ⟨S4x688, .f32⟩
  | 37 => ⟨S4x688, .i1⟩
  | 38 => ⟨S4x688, .i1⟩
  | 39 => ⟨S_, .f32⟩
  | 40 => ⟨S4x688, .f32⟩
  | 41 => ⟨S4x688, .i1⟩
  | 42 => ⟨S_, .f32⟩
  | 43 => ⟨S_, .f32⟩
  | 44 => ⟨S4x688, .f32⟩
  | 45 => ⟨S4x688, .f32⟩
  | 46 => ⟨S_, .f32⟩
  | 47 => ⟨S4x688, .f32⟩
  | 48 => ⟨S4x688, .i1⟩
  | 49 => ⟨S_, .f32⟩
  | 50 => ⟨S_, .f32⟩
  | 51 => ⟨S4x688, .f32⟩
  | 52 => ⟨S4x688, .f32⟩
  | 53 => ⟨S4x688, .f32⟩
  | 54 => ⟨S4x688, .f32⟩
  | 55 => ⟨S4x688, .f32⟩
  | 56 => ⟨S_, .f32⟩
  | 57 => ⟨S4x688, .f32⟩
  | 58 => ⟨S4x688, .i1⟩
  | 59 => ⟨S_, .f32⟩
  | 60 => ⟨S_, .f32⟩
  | 61 => ⟨S4x688, .f32⟩
  | 62 => ⟨S4x688, .f32⟩
  | 63 => ⟨S4x688, .f32⟩
  | 64 => ⟨S4x688, .f32⟩
  | 65 => ⟨S4x688, .f32⟩
  | 66 => ⟨S4x688, .f32⟩
  | 67 => ⟨S_, .f32⟩
  | 68 => ⟨S_, .f32⟩
  | 69 => ⟨S_, .f32⟩
  | 70 => ⟨S4x688, .f32⟩
  | 71 => ⟨S4x688, .f32⟩
  | 72 => ⟨S_, .f32⟩
  | 73 => ⟨S4x688, .f32⟩
  | 74 => ⟨S4x688, .f32⟩
  | 75 => ⟨S_, .f32⟩
  | 76 => ⟨S_, .f32⟩
  | 77 => ⟨S4x688, .f32⟩
  | 78 => ⟨S4x688, .f32⟩
  | 79 => ⟨S_, .f32⟩
  | 80 => ⟨S_, .f32⟩
  | 81 => ⟨S_, .f32⟩
  | 82 => ⟨S_, .f32⟩
  | 83 => ⟨S_, .f32⟩
  | 84 => ⟨S4x688x688, .f32⟩
  | 85 => ⟨S4x688x688, .f32⟩
  | 86 => ⟨S688x688, .i32⟩
  | 87 => ⟨S688x688, .i32⟩
  | 88 => ⟨S_, .i32⟩
  | 89 => ⟨S688x688, .i32⟩
  | 90 => ⟨S688x688, .i32⟩
  | 91 => ⟨S688x688, .i1⟩
  | 92 => ⟨S1x688x688, .i1⟩
  | 93 => ⟨S1x688x688, .i1⟩
  | 94 => ⟨S_, .f32⟩
  | 95 => ⟨S4x688x688, .f32⟩
  | 96 => ⟨S4x688x688, .i1⟩
  | 97 => ⟨S4x688x688, .i1⟩
  | 98 => ⟨S4x688x688, .i1⟩
  | 99 => ⟨S4x688x688, .i1⟩
  | 100 => ⟨S4x688x688, .i1⟩
  | 101 => ⟨S4x688x688, .i1⟩
  | 102 => ⟨S_, .f32⟩
  | 103 => ⟨S_, .f32⟩
  | 104 => ⟨S4x688x688, .f32⟩
  | 105 => ⟨S4x688x688, .f32⟩
  | 106 => ⟨S_, .f32⟩
  | 107 => ⟨S4x688, .f32⟩
  | 108 => ⟨S_, .f32⟩
  | 109 => ⟨S_, .f32⟩
  | 110 => ⟨S4x688x688, .i1⟩
  | 111 => ⟨S4x688x688, .f32⟩
  | 112 => ⟨S4x688x688, .f32⟩
  | 113 => ⟨S_, .f32⟩
  | 114 => ⟨S4x688, .f32⟩
  | 115 => ⟨S4x688x1, .f32⟩
  | 116 => ⟨S4x688x688, .f32⟩
  | 117 => ⟨S4x688x688, .f32⟩
  | 118 => ⟨S4x688x688, .f32⟩
  | 119 => ⟨S_, .f32⟩
  | 120 => ⟨S_, .f32⟩
  | 121 => ⟨S4x688x688, .f32⟩
  | 122 => ⟨S4x688x688, .f32⟩
  | 123 => ⟨S_, .f32⟩
  | 124 => ⟨S4x688, .f32⟩
  | 125 => ⟨S_, .f32⟩
  | 126 => ⟨S_, .f32⟩
  | 127 => ⟨S4x688x688, .f32⟩
  | _ => ⟨S4x2048x8192, .f32⟩

abbrev hbmTy0_2 (i : Nat) : BufTy := match i % 128 with
  | 0 => ⟨S4x688x688, .f32⟩
  | 1 => ⟨S_, .f32⟩
  | 2 => ⟨S4x688, .f32⟩
  | 3 => ⟨S_, .i1⟩
  | 4 => ⟨S4x688, .i1⟩
  | 5 => ⟨S_, .f32⟩
  | 6 => ⟨S4x688, .f32⟩
  | 7 => ⟨S4x688, .i1⟩
  | 8 => ⟨S4x688, .i1⟩
  | 9 => ⟨S_, .f32⟩
  | 10 => ⟨S4x688, .f32⟩
  | 11 => ⟨S4x688, .i1⟩
  | 12 => ⟨S_, .f32⟩
  | 13 => ⟨S_, .f32⟩
  | 14 => ⟨S4x688, .f32⟩
  | 15 => ⟨S4x688, .f32⟩
  | 16 => ⟨S_, .f32⟩
  | 17 => ⟨S4x688, .f32⟩
  | 18 => ⟨S4x688, .i1⟩
  | 19 => ⟨S_, .f32⟩
  | 20 => ⟨S_, .f32⟩
  | 21 => ⟨S4x688, .f32⟩
  | 22 => ⟨S4x688, .f32⟩
  | 23 => ⟨S4x688, .f32⟩
  | 24 => ⟨S4x688, .f32⟩
  | 25 => ⟨S4x688, .f32⟩
  | 26 => ⟨S_, .f32⟩
  | 27 => ⟨S4x688, .f32⟩
  | 28 => ⟨S4x688, .i1⟩
  | 29 => ⟨S_, .f32⟩
  | 30 => ⟨S_, .f32⟩
  | 31 => ⟨S4x688, .f32⟩
  | 32 => ⟨S4x688, .f32⟩
  | 33 => ⟨S4x688, .f32⟩
  | 34 => ⟨S4x688, .f32⟩
  | 35 => ⟨S4x688, .f32⟩
  | 36 => ⟨S4x688, .f32⟩
  | 37 => ⟨S_, .f32⟩
  | 38 => ⟨S_, .f32⟩
  | 39 => ⟨S_, .f32⟩
  | 40 => ⟨S4x688, .f32⟩
  | 41 => ⟨S4x688, .f32⟩
  | 42 => ⟨S_, .f32⟩
  | 43 => ⟨S4x688, .f32⟩
  | 44 => ⟨S4x688, .f32⟩
  | 45 => ⟨S_, .f32⟩
  | 46 => ⟨S_, .f32⟩
  | 47 => ⟨S4x688, .f32⟩
  | 48 => ⟨S4x688, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S4x2048x8192, .f32⟩

abbrev hbmTy (i : Nat) : BufTy := match i / 128 with
  | 0 => hbmTy0_0 i
  | 1 => hbmTy0_1 i
  | 2 => hbmTy0_2 i
  | _ => ⟨S4x2048x8192, .f32⟩

abbrev bufTy : (tb : Table) → Fin (tcTables nBuf tb) → BufTy
  | .hbm, ⟨i, _⟩ => hbmTy i
  | .local _ .vmem, ⟨0, _⟩ => ⟨S1x128x8192, .f32⟩
  | .local _ .vmem, ⟨1, _⟩ => ⟨S1x128x8192, .f32⟩
  | .local _ .vmem, ⟨2, _⟩ => ⟨S1x128x1, .i32⟩
  | .local _ .vmem, ⟨3, _⟩ => ⟨S1x128x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v7 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v8 : Ref sig .tc := ⟨.hbm, 41, rfl⟩
abbrev main_c : Ref sig .tc := ⟨.hbm, 42, rfl⟩
abbrev main_v9 : Ref sig .tc := ⟨.hbm, 43, rfl⟩
abbrev main_v10 : Ref sig .tc := ⟨.hbm, 44, rfl⟩
abbrev main_c_3 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_c_4 : Ref sig .tc := ⟨.hbm, 49, rfl⟩
abbrev main_call2_v0 : Ref sig .tc := ⟨.hbm, 50, rfl⟩
abbrev main_call2_v1 : Ref sig .tc := ⟨.hbm, 51, rfl⟩
abbrev main_v14 : Ref sig .tc := ⟨.hbm, 52, rfl⟩
abbrev main_v15 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v16 : Ref sig .tc := ⟨.hbm, 75, rfl⟩
abbrev main_v17 : Ref sig .tc := ⟨.hbm, 76, rfl⟩
abbrev main_cst_5 : Ref sig .tc := ⟨.hbm, 77, rfl⟩
abbrev main_call4_v0 : Ref sig .tc := ⟨.hbm, 78, rfl⟩
abbrev main_call4_v1 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_6 : Ref sig .tc := ⟨.hbm, 84, rfl⟩
abbrev main_v22 : Ref sig .tc := ⟨.hbm, 85, rfl⟩
abbrev main_cst_7 : Ref sig .tc := ⟨.hbm, 86, rfl⟩
abbrev main_v23 : Ref sig .tc := ⟨.hbm, 87, rfl⟩
abbrev main_v24 : Ref sig .tc := ⟨.hbm, 88, rfl⟩
abbrev main_cst_8 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_cst_9 : Ref sig .tc := ⟨.hbm, 106, rfl⟩
abbrev main_v41 : Ref sig .tc := ⟨.hbm, 107, rfl⟩
abbrev main_cst_10 : Ref sig .tc := ⟨.hbm, 108, rfl⟩
abbrev main_v42 : Ref sig .tc := ⟨.hbm, 109, rfl⟩
abbrev main_cst_11 : Ref sig .tc := ⟨.hbm, 110, rfl⟩
abbrev main_v43 : Ref sig .tc := ⟨.hbm, 111, rfl⟩
abbrev main_v44 : Ref sig .tc := ⟨.hbm, 112, rfl⟩
abbrev main_cst_12 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_c_13 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_cst_14 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_cst_15 : Ref sig .tc := ⟨.hbm, 132, rfl⟩
abbrev main_call5_v0 : Ref sig .tc := ⟨.hbm, 133, rfl⟩
abbrev main_call5_v1 : Ref sig .tc := ⟨.hbm, 134, rfl⟩
abbrev main_v61 : Ref sig .tc := ⟨.hbm, 135, rfl⟩
abbrev main_cst_16 : Ref sig .tc := ⟨.hbm, 136, rfl⟩
abbrev main_v62 : Ref sig .tc := ⟨.hbm, 137, rfl⟩
abbrev main_cst_17 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_v63 : Ref sig .tc := ⟨.hbm, 142, rfl⟩
abbrev main_cst_18 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_cst_19 : Ref sig .tc := ⟨.hbm, 149, rfl⟩
abbrev main_call7_v0 : Ref sig .tc := ⟨.hbm, 150, rfl⟩
abbrev main_call7_v1 : Ref sig .tc := ⟨.hbm, 151, rfl⟩
abbrev main_v69 : Ref sig .tc := ⟨.hbm, 152, rfl⟩
abbrev main_cst_20 : Ref sig .tc := ⟨.hbm, 153, rfl⟩
abbrev main_v70 : Ref sig .tc := ⟨.hbm, 154, rfl⟩
abbrev main_cst_21 : Ref sig .tc := ⟨.hbm, 155, rfl⟩
abbrev main_call8_v0 : Ref sig .tc := ⟨.hbm, 156, rfl⟩
abbrev main_call8_v1 : Ref sig .tc := ⟨.hbm, 157, rfl⟩
abbrev main_v71 : Ref sig .tc := ⟨.hbm, 158, rfl⟩
abbrev main_cst_22 : Ref sig .tc := ⟨.hbm, 159, rfl⟩
abbrev main_v72 : Ref sig .tc := ⟨.hbm, 160, rfl⟩
abbrev main_c_23 : Ref sig .tc := ⟨.hbm, 161, rfl⟩
abbrev main_v73 : Ref sig .tc := ⟨.hbm, 162, rfl⟩
abbrev main_cst_24 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_cst_25 : Ref sig .tc := ⟨.hbm, 167, rfl⟩
abbrev main_v77 : Ref sig .tc := ⟨.hbm, 168, rfl⟩
abbrev main_v78 : Ref sig .tc := ⟨.hbm, 169, rfl⟩
abbrev main_cst_26 : Ref sig .tc := ⟨.hbm, 170, rfl⟩
abbrev main_call9_v0 : Ref sig .tc := ⟨.hbm, 171, rfl⟩
abbrev main_call9_v1 : Ref sig .tc := ⟨.hbm, 172, rfl⟩
abbrev main_v79 : Ref sig .tc := ⟨.hbm, 173, rfl⟩
abbrev main_cst_27 : Ref sig .tc := ⟨.hbm, 174, rfl⟩
abbrev main_v80 : Ref sig .tc := ⟨.hbm, 175, rfl⟩
abbrev main_v81 : Ref sig .tc := ⟨.hbm, 176, rfl⟩
abbrev main_cst_28 : Ref sig .tc := ⟨.hbm, 177, rfl⟩
abbrev main_call10_v0 : Ref sig .tc := ⟨.hbm, 178, rfl⟩
abbrev main_call10_v1 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_cst_29 : Ref sig .tc := ⟨.hbm, 184, rfl⟩
abbrev main_v86 : Ref sig .tc := ⟨.hbm, 185, rfl⟩
abbrev main_v87 : Ref sig .tc := ⟨.hbm, 186, rfl⟩
abbrev main_cst_30 : Ref sig .tc := ⟨.hbm, 187, rfl⟩
abbrev main_call11_v0 : Ref sig .tc := ⟨.hbm, 188, rfl⟩
abbrev main_call11_v1 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_cst_31 : Ref sig .tc := ⟨.hbm, 195, rfl⟩
abbrev main_cst_32 : Ref sig .tc := ⟨.hbm, 196, rfl⟩
abbrev main_call12_v0 : Ref sig .tc := ⟨.hbm, 197, rfl⟩
abbrev main_call12_v1 : Ref sig .tc := ⟨.hbm, 198, rfl⟩
abbrev main_call12_v2 : Ref sig .tc := ⟨.hbm, 199, rfl⟩
abbrev main_call12_v3 : Ref sig .tc := ⟨.hbm, 200, rfl⟩
abbrev main_call12_v4 : Ref sig .tc := ⟨.hbm, 201, rfl⟩
abbrev main_v93 : Ref sig .tc := ⟨.hbm, 202, rfl⟩
abbrev main_cst_33 : Ref sig .tc := ⟨.hbm, 203, rfl⟩
abbrev main_call13_v0 : Ref sig .tc := ⟨.hbm, 204, rfl⟩
abbrev main_call13_v1 : Ref sig .tc := ⟨.hbm, 205, rfl⟩
abbrev main_v94 : Ref sig .tc := ⟨.hbm, 206, rfl⟩
abbrev main_cst_34 : Ref sig .tc := ⟨.hbm, 207, rfl⟩
abbrev main_v95 : Ref sig .tc := ⟨.hbm, 208, rfl⟩
abbrev main_cst_35 : Ref sig .tc := ⟨.hbm, 209, rfl⟩
abbrev main_v96 : Ref sig .tc := ⟨.hbm, 210, rfl⟩
abbrev main_cst_36 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_c_37 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_cst_38 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_cst_39 : Ref sig .tc := ⟨.hbm, 230, rfl⟩
abbrev main_call14_v0 : Ref sig .tc := ⟨.hbm, 231, rfl⟩
abbrev main_call14_v1 : Ref sig .tc := ⟨.hbm, 232, rfl⟩
abbrev main_v113 : Ref sig .tc := ⟨.hbm, 233, rfl⟩
abbrev main_cst_40 : Ref sig .tc := ⟨.hbm, 234, rfl⟩
abbrev main_v114 : Ref sig .tc := ⟨.hbm, 235, rfl⟩
abbrev main_cst_41 : Ref sig .tc := ⟨.hbm, 236, rfl⟩
abbrev main_call15_v0 : Ref sig .tc := ⟨.hbm, 237, rfl⟩
abbrev main_call15_v1 : Ref sig .tc := ⟨.hbm, 238, rfl⟩
abbrev main_call15_v2 : Ref sig .tc := ⟨.hbm, 239, rfl⟩
abbrev main_v115 : Ref sig .tc := ⟨.hbm, 240, rfl⟩
abbrev main_cst_42 : Ref sig .tc := ⟨.hbm, 241, rfl⟩
abbrev main_v116 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_cst_43 : Ref sig .tc := ⟨.hbm, 247, rfl⟩
abbrev main_call16_v0 : Ref sig .tc := ⟨.hbm, 248, rfl⟩
abbrev main_call16_v1 : Ref sig .tc := ⟨.hbm, 249, rfl⟩
abbrev main_v121 : Ref sig .tc := ⟨.hbm, 250, rfl⟩
abbrev main_cst_44 : Ref sig .tc := ⟨.hbm, 251, rfl⟩
abbrev main_v122 : Ref sig .tc := ⟨.hbm, 252, rfl⟩
abbrev main_cst_45 : Ref sig .tc := ⟨.hbm, 253, rfl⟩
abbrev main_call17_v0 : Ref sig .tc := ⟨.hbm, 254, rfl⟩
abbrev main_call17_v1 : Ref sig .tc := ⟨.hbm, 255, rfl⟩
abbrev main_v123 : Ref sig .tc := ⟨.hbm, 256, rfl⟩
abbrev main_cst_46 : Ref sig .tc := ⟨.hbm, 257, rfl⟩
abbrev main_v124 : Ref sig .tc := ⟨.hbm, 258, rfl⟩
abbrev main_c_47 : Ref sig .tc := ⟨.hbm, 259, rfl⟩
abbrev main_v125 : Ref sig .tc := ⟨.hbm, 260, rfl⟩
abbrev main_cst_48 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_cst_49 : Ref sig .tc := ⟨.hbm, 265, rfl⟩
abbrev main_v129 : Ref sig .tc := ⟨.hbm, 266, rfl⟩
abbrev main_v130 : Ref sig .tc := ⟨.hbm, 267, rfl⟩
abbrev main_cst_50 : Ref sig .tc := ⟨.hbm, 268, rfl⟩
abbrev main_call18_v0 : Ref sig .tc := ⟨.hbm, 269, rfl⟩
abbrev main_call18_v1 : Ref sig .tc := ⟨.hbm, 270, rfl⟩
abbrev main_v131 : Ref sig .tc := ⟨.hbm, 271, rfl⟩
abbrev main_cst_51 : Ref sig .tc := ⟨.hbm, 272, rfl⟩
abbrev main_v132 : Ref sig .tc := ⟨.hbm, 273, rfl⟩
abbrev main_v133 : Ref sig .tc := ⟨.hbm, 274, rfl⟩
abbrev main_cst_52 : Ref sig .tc := ⟨.hbm, 275, rfl⟩
abbrev main_call19_v0 : Ref sig .tc := ⟨.hbm, 276, rfl⟩
abbrev main_call19_v1 : Ref sig .tc := ⟨.hbm, 277, rfl⟩
abbrev main_v134 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_cst_53 : Ref sig .tc := ⟨.hbm, 282, rfl⟩
abbrev main_v138 : Ref sig .tc := ⟨.hbm, 283, rfl⟩
abbrev main_v139 : Ref sig .tc := ⟨.hbm, 284, rfl⟩
abbrev main_cst_54 : Ref sig .tc := ⟨.hbm, 285, rfl⟩
abbrev main_call20_v0 : Ref sig .tc := ⟨.hbm, 286, rfl⟩
abbrev main_call20_v1 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_cst_55 : Ref sig .tc := ⟨.hbm, 293, rfl⟩
abbrev main_cst_56 : Ref sig .tc := ⟨.hbm, 294, rfl⟩
abbrev main_call21_v0 : Ref sig .tc := ⟨.hbm, 295, rfl⟩
abbrev main_call21_v1 : Ref sig .tc := ⟨.hbm, 296, rfl⟩
abbrev main_call21_v2 : Ref sig .tc := ⟨.hbm, 297, rfl⟩
abbrev main_call21_v3 : Ref sig .tc := ⟨.hbm, 298, rfl⟩
abbrev main_call21_v4 : Ref sig .tc := ⟨.hbm, 299, rfl⟩
abbrev main_v145 : Ref sig .tc := ⟨.hbm, 300, rfl⟩
abbrev main_cst_57 : Ref sig .tc := ⟨.hbm, 301, rfl⟩
abbrev main_call22_v0 : Ref sig .tc := ⟨.hbm, 302, rfl⟩
abbrev main_call22_v1 : Ref sig .tc := ⟨.hbm, 303, rfl⟩
abbrev main_v146 : Ref sig .tc := ⟨.hbm, 304, rfl⟩
abbrev main_cst_58 : Ref sig .tc := ⟨.hbm, 305, rfl⟩
abbrev main_v147 : Ref sig .tc := ⟨.hbm, 306, rfl⟩
abbrev main_cst_59 : Ref sig .tc := ⟨.hbm, 307, rfl⟩
abbrev main_v148 : Ref sig .tc := ⟨.hbm, 308, rfl⟩
abbrev main_cst_60 : Ref sig .tc := ⟨.hbm, 309, rfl⟩
abbrev main_v149 : Ref sig .tc := ⟨.hbm, 310, rfl⟩
abbrev main_cst_61 : Ref sig .tc := ⟨.hbm, 311, rfl⟩
abbrev main_v150 : Ref sig .tc := ⟨.hbm, 312, rfl⟩
abbrev main_v151 : Ref sig .tc := ⟨.hbm, 313, rfl⟩
abbrev main_cst_62 : Ref sig .tc := ⟨.hbm, 314, rfl⟩
abbrev main_v152 : Ref sig .tc := ⟨.hbm, 315, rfl⟩
abbrev main_v153 : Ref sig .tc := ⟨.hbm, 316, rfl⟩
abbrev main_cst_63 : Ref sig .tc := ⟨.hbm, 317, rfl⟩
abbrev main_v154 : Ref sig .tc := ⟨.hbm, 318, rfl⟩
abbrev main_v155 : Ref sig .tc := ⟨.hbm, 319, rfl⟩
abbrev main_cst_64 : Ref sig .tc := ⟨.hbm, 320, rfl⟩
abbrev main_v156 : Ref sig .tc := ⟨.hbm, 321, rfl⟩
abbrev main_v157 : Ref sig .tc := ⟨.hbm, 322, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S4x2048_S4x2048x1_0_1 : S4x2048.BroadcastsInDim S4x2048x1 (![0, 1] : Fin 2 → Fin S4x2048x1.rank)
  inb_S1x1x1_S1x1x1_0_0_0 : ∀ a, (![0, 0, 0] : Fin 3 → Nat) a + S1x1x1.size a ≤ S1x1x1.size a
  h_S1x1x1 : 0 < S1x1x1.numel
  inb_S1x128x8192_S1x128x8192_0_0_0 : ∀ a, (![0, 0, 0] : Fin 3 → Nat) a + S1x128x8192.size a ≤ S1x128x8192.size a
  h_S1x128x8192 : 0 < S1x128x8192.numel
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  reduces_S1x128x8192_S1x128 : S1x128x8192.Reduces [2] S1x128
  shapeCasts_S1x128_S1x128x1 : S1x128.ShapeCasts S1x128x1
  broadcasts_S1x128x1_S1x128x8192 : S1x128x1.Broadcasts S1x128x8192
  iota_S1x128x8192_d2_w32 : S1x128x8192.Iotas .tc 32 [2]
  shapeCasts_S1x128x1_S1x128 : S1x128x1.ShapeCasts S1x128
  natLt_1_32 : 1 < 32
  shapeCasts_S1x128_S1x1x128 : S1x128.ShapeCasts S1x1x128
  reduces_S1x1x128_S1 : S1x1x128.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  reducesTo_S4x1x1_S_d0_1_2 : S4x1x1.ReducesTo [0, 1, 2] S_
  h_S_ : 0 < S_.numel
  bcast_S4x2048_S4x1x2048_0_2 : S4x2048.BroadcastsInDim S4x1x2048 (![0, 2] : Fin 2 → Fin S4x1x2048.rank)
  bcast_S4x1x2048_S4x688x2048_0_1_2 : S4x1x2048.BroadcastsInDim S4x688x2048 (![0, 1, 2] : Fin 3 → Fin S4x688x2048.rank)
  bcast_S_S4x688x2048 : S_.BroadcastsInDim S4x688x2048 (![] : Fin 0 → Fin S4x688x2048.rank)
  reducesTo_S4x688x2048_S4x688_d2 : S4x688x2048.ReducesTo [2] S4x688
  bcast_S_S4x688 : S_.BroadcastsInDim S4x688 (![] : Fin 0 → Fin S4x688.rank)
  bcast_S4x688_S4x688x1_0_1 : S4x688.BroadcastsInDim S4x688x1 (![0, 1] : Fin 2 → Fin S4x688x1.rank)
  bcast_S4x688x1_S4x688x2048_0_1_2 : S4x688x1.BroadcastsInDim S4x688x2048 (![0, 1, 2] : Fin 3 → Fin S4x688x2048.rank)
  bcast_S_S4x688x1 : S_.BroadcastsInDim S4x688x1 (![] : Fin 0 → Fin S4x688x1.rank)
  shapeCasts_S4x688x1_S4x688x1x1 : S4x688x1.ShapeCasts S4x688x1x1
  bcast_S_S4x688x1x1 : S_.BroadcastsInDim S4x688x1x1 (![] : Fin 0 → Fin S4x688x1x1.rank)
  bcast_S1_S1x1x1x1_3 : S1.BroadcastsInDim S1x1x1x1 (![3] : Fin 1 → Fin S1x1x1x1.rank)
  bcast_S1x1x1x1_S4x688x1x1_0_1_2_3 : S1x1x1x1.BroadcastsInDim S4x688x1x1 (![0, 1, 2, 3] : Fin 4 → Fin S4x688x1x1.rank)
  reducesTo_S4x688x1x1_S4x688x1_d3 : S4x688x1x1.ReducesTo [3] S4x688x1
  shapeCasts_S4x688x1_S4x688 : S4x688x1.ShapeCasts S4x688
  reducesTo_S4x688_S_d0_1 : S4x688.ReducesTo [0, 1] S_
  bcast_S_S4x2048 : S_.BroadcastsInDim S4x2048 (![] : Fin 0 → Fin S4x2048.rank)
  reducesTo_S4x2048_S_d0_1 : S4x2048.ReducesTo [0, 1] S_
  bcast_S_S4x688x688 : S_.BroadcastsInDim S4x688x688 (![] : Fin 0 → Fin S4x688x688.rank)
  bcast_S_S688x688 : S_.BroadcastsInDim S688x688 (![] : Fin 0 → Fin S688x688.rank)
  bcast_S688x688_S1x688x688_1_2 : S688x688.BroadcastsInDim S1x688x688 (![1, 2] : Fin 2 → Fin S1x688x688.rank)
  bcast_S1x688x688_S4x688x688_0_1_2 : S1x688x688.BroadcastsInDim S4x688x688 (![0, 1, 2] : Fin 3 → Fin S4x688x688.rank)
  reducesTo_S4x688x688_S4x688_d2 : S4x688x688.ReducesTo [2] S4x688
  bcast_S4x688x1_S4x688x688_0_1_2 : S4x688x1.BroadcastsInDim S4x688x688 (![0, 1, 2] : Fin 3 → Fin S4x688x688.rank)
  gather_S4x688x2048_S4x688x1x1_S4x688x1_n_2_01_01_2_3_111_wf : GatherDims.WF S4x688x2048 S4x688x1x1 S4x688x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S4x2048x8192.size a
  hwx0_0 : ∀ i : grid0.Coords, EltTy.bits .f32 = 32 ∨ (Rect.block (s := S4x2048x8192) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S4x2048x1.size a
  hwx0_1 : ∀ i : grid0.Coords, EltTy.bits .i32 = 32 ∨ (Rect.block (s := S4x2048x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)

variable [Facts₀]

def gather_S4x688x2048_S4x688x1x1_S4x688x1_n_2_01_01_2_3_111 : GatherDims S4x688x2048 S4x688x1x1 S4x688x1 where
  offsetDims := []
  collapsedSliceDims := [2]
  operandBatchingDims := [0, 1]
  startIndicesBatchingDims := [0, 1]
  startIndexMap := [2]
  indexVectorDim := 3
  sliceSizes := ![1, 1, 1]
  wf := gather_S4x688x2048_S4x688x1x1_S4x688x1_n_2_01_01_2_3_111_wf

abbrev win0_0 : Pipeline.Window sig grid0 :=
  Pipeline.Window.ofSpec (Memref.whole main_arg0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x8192 : Shape := ⟨3, ![4, 2048, 8192]⟩
abbrev S4x688x2048 : Shape := ⟨3, ![4, 688, 2048]⟩
abbrev S4x2048 : Shape := ⟨2, ![4, 2048]⟩
abbrev S4x688x688 : Shape := ⟨3, ![4, 688, 688]⟩
abbrev S4x688 : Shape := ⟨2, ![4, 688]⟩
abbrev S4 : Shape := ⟨1, ![4]⟩
abbrev S_ : Shape := ⟨0, ![]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩
abbrev S1x1x4 : Shape := ⟨3, ![1, 1, 4]⟩
abbrev S4x2048x4 : Shape := ⟨3, ![4, 2048, 4]⟩
abbrev S4x1x2048 : Shape := ⟨3, ![4, 1, 2048]⟩
abbrev S4x688x1 : Shape := ⟨3, ![4, 688, 1]⟩
abbrev S4x688x1x1 : Shape := ⟨4, ![4, 688, 1, 1]⟩
abbrev S688x688 : Shape := ⟨2, ![688, 688]⟩
abbrev S1x688x688 : Shape := ⟨3, ![1, 688, 688]⟩

abbrev nBuf : Space → Nat
  | .hbm => 371
  | .vmem => 0
  | .smem => 0
  | _ => 0

abbrev hbmTy0_0 (i : Nat) : BufTy := match i % 128 with
  | 0 => ⟨S4x2048x8192, .f32⟩
  | 1 => ⟨S4x688x2048, .f32⟩
  | 2 => ⟨S4x2048, .f32⟩
  | 3 => ⟨S4x688x688, .f32⟩
  | 4 => ⟨S4x688x688, .f32⟩
  | 5 => ⟨S4x688x688, .f32⟩
  | 6 => ⟨S4x688x688, .f32⟩
  | 7 => ⟨S4x2048, .i32⟩
  | 8 => ⟨S4x688, .i32⟩
  | 9 => ⟨S4x2048, .i1⟩
  | 10 => ⟨S4x2048, .i1⟩
  | 11 => ⟨S4, .i32⟩
  | 12 => ⟨S_, .f32⟩
  | 13 => ⟨S4x2048, .f32⟩
  | 14 => ⟨S_, .f32⟩
  | 15 => ⟨S4x2048, .f32⟩
  | 16 => ⟨S4x2048, .f32⟩
  | 17 => ⟨S4x2048x1, .f32⟩
  | 18 => ⟨S4x2048x8192, .f32⟩
  | 19 => ⟨S4x2048x8192, .f32⟩
  | 20 => ⟨S4x2048x8192, .f32⟩
  | 21 => ⟨S_, .f32⟩
  | 22 => ⟨S4x2048, .f32⟩
  | 23 => ⟨S4x2048x1, .f32⟩
  | 24 => ⟨S4x2048x1, .f32⟩
  | 25 => ⟨S4x2048x8192, .f32⟩
  | 26 => ⟨S4x2048x8192, .f32⟩
  | 27 => ⟨S4x2048x1, .i32⟩
  | 28 => ⟨S_, .i32⟩
  | 29 => ⟨S4x2048x1, .i32⟩
  | 30 => ⟨S4x2048x1, .i1⟩
  | 31 => ⟨S_, .i32⟩
  | 32 => ⟨S4x2048x1, .i32⟩
  | 33 => ⟨S4x2048x1, .i32⟩
  | 34 => ⟨S4x2048x1, .i32⟩
  | 35 => ⟨S4x2048x1x1, .i32⟩
  | 36 => ⟨S1, .i32⟩
  | 37 => ⟨S_, .i32⟩
  | 38 => ⟨S4x2048x1x1, .i32⟩
  | 39 => ⟨S4x2048x1x1, .i1⟩
  | 40 => ⟨S1x1x1x1, .i32⟩
  | 41 => ⟨S4x2048x1x1, .i32⟩
  | 42 => ⟨S4x2048x1x1, .i1⟩
  | 43 => ⟨S4x2048x1x1, .i1⟩
  | 44 => ⟨S_, .i1⟩
  | 45 => ⟨S4x2048x1, .i1⟩
  | 46 => ⟨S4x2048x1, .f32⟩
  | 47 => ⟨S_, .f32⟩
  | 48 => ⟨S4x2048x1, .f32⟩
  | 49 => ⟨S4x2048x1, .f32⟩
  | 50 => ⟨S4x2048, .f32⟩
  | 51 => ⟨S4x2048, .f32⟩
  | 52 => ⟨S4x2048x1, .i32⟩
  | 53 => ⟨S1x1x4, .i32⟩
  | 54 => ⟨S4x2048x4, .i32⟩
  | 55 => ⟨S4x2048x4, .i32⟩
  | 56 => ⟨S4x2048x4, .i1⟩
  | 57 => ⟨S_, .i1⟩
  | 58 => ⟨S4x2048, .i1⟩
  | 59 => ⟨S4x2048, .i1⟩
  | 60 => ⟨S4x2048, .f32⟩
  | 61 => ⟨S4x2048, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S4x1x2048, .i1⟩
  | 70 => ⟨S_, .f32⟩
  | 71 => ⟨S_, .f32⟩
  | 72 => ⟨S4x688x2048, .i1⟩
  | 73 => ⟨S4x688x2048, .f32⟩
  | 74 => ⟨S4x688x2048, .f32⟩
  | 75 => ⟨S_, .f32⟩
  | 76 => ⟨S4x688, .f32⟩
  | 77 => ⟨S_, .f32⟩
  | 78 => ⟨S4x688, .f32⟩
  | 79 => ⟨S4x688, .f32⟩
  | 80 => ⟨S4x688x1, .f32⟩
  | 81 => ⟨S4x688x2048, .f32⟩
  | 82 => ⟨S4x688x2048, .f32⟩
  | 83 => ⟨S4x688x2048, .f32⟩
  | 84 => ⟨S_, .f32⟩
  | 85 => ⟨S4x688, .f32⟩
  | 86 => ⟨S4x688x1, .f32⟩
  | 87 => ⟨S4x688x1, .f32⟩
  | 88 => ⟨S4x688x2048, .f32⟩
  | 89 => ⟨S4x688x2048, .f32⟩
  | 90 => ⟨S_, .i32⟩
  | 91 => ⟨S4x688, .i32⟩
  | 92 => ⟨S4x688, .i1⟩
  | 93 => ⟨S_, .i32⟩
  | 94 => ⟨S4x688, .i32⟩
  | 95 => ⟨S4x688, .i1⟩
  | 96 => ⟨S4x688, .i1⟩
  | 97 => ⟨S_, .i32⟩
  | 98 => ⟨S_, .i32⟩
  | 99 => ⟨S4x688, .i32⟩
  | 100 => ⟨S4x688, .i32⟩
  | 101 => ⟨S4x688x1, .i32⟩
  | 102 => ⟨S_, .i32⟩
  | 103 => ⟨S4x688x1, .i32⟩
  | 104 => ⟨S4x688x1, .i1⟩
  | 105 => ⟨S_, .i32⟩
  | 106 => ⟨S4x688x1, .i32⟩
  | 107 => ⟨S4x688x1, .i32⟩
  | 108 => ⟨S4x688x1, .i32⟩
  | 109 => ⟨S4x688x1x1, .i32⟩
  | 110 => ⟨S1, .i32⟩
  | 111 => ⟨S_, .i32⟩
  | 112 => ⟨S4x688x1x1, .i32⟩
  | 113 => ⟨S4x688x1x1, .i1⟩
  | 114 => ⟨S1x1x1x1, .i32⟩
  | 115 => ⟨S4x688x1x1, .i32⟩
  | 116 => ⟨S4x688x1x1, .i1⟩
  | 117 => ⟨S4x688x1x1, .i1⟩
  | 118 => ⟨S_, .i1⟩
  | 119 => ⟨S4x688x1, .i1⟩
  | 120 => ⟨S4x688x1, .f32⟩
  | 121 => ⟨S_, .f32⟩
  | 122 => ⟨S4x688x1, .f32⟩
  | 123 => ⟨S4x688x1, .f32⟩
  | 124 => ⟨S4x688, .f32⟩
  | 125 => ⟨S_, .f32⟩
  | 126 => ⟨S_, .f32⟩
  | 127 => ⟨S4x688, .f32⟩
  | _ => ⟨S4x2048x8192, .f32⟩

abbrev hbmTy0_1 (i : Nat) : BufTy := match i % 128 with
  | 0 => ⟨S4x688, .f32⟩
  | 1 => ⟨S4x688, .f32⟩
  | 2 => ⟨S4x688, .f32⟩
  | 3 => ⟨S4x688, .f32⟩
  | 4 => ⟨S_, .f32⟩
  | 5 => ⟨S_, .f32⟩
  | 6 => ⟨S_, .f32⟩
  | 7 => ⟨S_, .f32⟩
  | 8 => ⟨S4x2048, .f32⟩
  | 9 => ⟨S_, .f32⟩
  | 10 => ⟨S4x2048, .f32⟩
  | 11 => ⟨S4x2048, .f32⟩
  | 12 => ⟨S4x2048, .f32⟩
  | 13 => ⟨S4x2048, .f32⟩
  | 14 => ⟨S4x2048, .i1⟩
  | 15 => ⟨S4x2048, .f32⟩
  | 16 => ⟨S4x2048, .f32⟩
  | 17 => ⟨S4x2048, .f32⟩
  | 18 => ⟨S4x2048, .f32⟩
  | 19 => ⟨S4x2048, .f32⟩
  | 20 => ⟨S4x2048, .f32⟩
  | 21 => ⟨S4x2048, .f32⟩
  | 22 => ⟨S4x2048, .f32⟩
  | 23 => ⟨S4x2048, .f32⟩
  | 24 => ⟨S4x2048, .f32⟩
  | 25 => ⟨S4x2048, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S4x688x688, .f32⟩
  | 35 => ⟨S4x688x688, .f32⟩
  | 36 => ⟨S688x688, .i32⟩
  | 37 => ⟨S688x688, .i32⟩
  | 38 => ⟨S_, .i32⟩
  | 39 => ⟨S688x688, .i32⟩
  | 40 => ⟨S688x688, .i32⟩
  | 41 => ⟨S688x688, .i1⟩
  | 42 => ⟨S1x688x688, .i1⟩
  | 43 => ⟨S1x688x688, .i1⟩
  | 44 => ⟨S_, .f32⟩
  | 45 => ⟨S4x688x688, .f32⟩
  | 46 => ⟨S4x688x688, .i1⟩
  | 47 => ⟨S4x688x688, .i1⟩
  | 48 => ⟨S4x688x688, .i1⟩
  | 49 => ⟨S4x688x688, .i1⟩
  | 50 => ⟨S4x688x688, .i1⟩
  | 51 => ⟨S4x688x688, .i1⟩
  | 52 => ⟨S_, .f32⟩
  | 53 => ⟨S_, .f32⟩
  | 54 => ⟨S4x688x688, .f32⟩
  | 55 => ⟨S4x688x688, .f32⟩
  | 56 => ⟨S_, .f32⟩
  | 57 => ⟨S4x688, .f32⟩
  | 58 => ⟨S_, .f32⟩
  | 59 => ⟨S_, .f32⟩
  | 60 => ⟨S4x688x688, .i1⟩
  | 61 => ⟨S4x688x688, .f32⟩
  | 62 => ⟨S4x688x688, .f32⟩
  | 63 => ⟨S_, .f32⟩
  | 64 => ⟨S4x688, .f32⟩
  | 65 => ⟨S4x688x1, .f32⟩
  | 66 => ⟨S4x688x688, .f32⟩
  | 67 => ⟨S4x688x688, .f32⟩
  | 68 => ⟨S4x688x688, .f32⟩
  | 69 => ⟨S_, .f32⟩
  | 70 => ⟨S_, .f32⟩
  | 71 => ⟨S4x688x688, .f32⟩
  | 72 => ⟨S4x688x688, .f32⟩
  | 73 => ⟨S_, .f32⟩
  | 74 => ⟨S4x688, .f32⟩
  | 75 => ⟨S_, .f32⟩
  | 76 => ⟨S_, .f32⟩
  | 77 => ⟨S4x688x688, .f32⟩
  | 78 => ⟨S4x688x688, .f32⟩
  | 79 => ⟨S_, .f32⟩
  | 80 => ⟨S4x688, .f32⟩
  | 81 => ⟨S_, .i1⟩
  | 82 => ⟨S4x688, .i1⟩
  | 83 => ⟨S_, .f32⟩
  | 84 => ⟨S4x688, .f32⟩
  | 85 => ⟨S4x688, .i1⟩
  | 86 => ⟨S4x688, .i1⟩
  | 87 => ⟨S_, .f32⟩
  | 88 => ⟨S4x688, .f32⟩
  | 89 => ⟨S4x688, .i1⟩
  | 90 => ⟨S_, .f32⟩
  | 91 => ⟨S_, .f32⟩
  | 92 => ⟨S4x688, .f32⟩
  | 93 => ⟨S4x688, .f32⟩
  | 94 => ⟨S_, .f32⟩
  | 95 => ⟨S4x688, .f32⟩
  | 96 => ⟨S4x688, .i1⟩
  | 97 => ⟨S_, .f32⟩
  | 98 => ⟨S_, .f32⟩
  | 99 => ⟨S4x688, .f32⟩
  | 100 => ⟨S4x688, .f32⟩
  | 101 => ⟨S4x688, .f32⟩
  | 102 => ⟨S4x688, .f32⟩
  | 103 => ⟨S4x688, .f32⟩
  | 104 => ⟨S_, .f32⟩
  | 105 => ⟨S4x688, .f32⟩
  | 106 => ⟨S4x688, .i1⟩
  | 107 => ⟨S_, .f32⟩
  | 108 => ⟨S_, .f32⟩
  | 109 => ⟨S4x688, .f32⟩
  | 110 => ⟨S4x688, .f32⟩
  | 111 => ⟨S4x688, .f32⟩
  | 112 => ⟨S4x688, .f32⟩
  | 113 => ⟨S4x688, .f32⟩
  | 114 => ⟨S4x688, .f32⟩
  | 115 => ⟨S_, .f32⟩
  | 116 => ⟨S_, .f32⟩
  | 117 => ⟨S_, .f32⟩
  | 118 => ⟨S4x688, .f32⟩
  | 119 => ⟨S4x688, .f32⟩
  | 120 => ⟨S_, .f32⟩
  | 121 => ⟨S4x688, .f32⟩
  | 122 => ⟨S4x688, .f32⟩
  | 123 => ⟨S_, .f32⟩
  | 124 => ⟨S_, .f32⟩
  | 125 => ⟨S4x688, .f32⟩
  | 126 => ⟨S4x688, .f32⟩
  | 127 => ⟨S_, .f32⟩
  | _ => ⟨S4x2048x8192, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S4x688x688, .f32⟩
  | 5 => ⟨S4x688x688, .f32⟩
  | 6 => ⟨S688x688, .i32⟩
  | 7 => ⟨S688x688, .i32⟩
  | 8 => ⟨S_, .i32⟩
  | 9 => ⟨S688x688, .i32⟩
  | 10 => ⟨S688x688, .i32⟩
  | 11 => ⟨S688x688, .i1⟩
  | 12 => ⟨S1x688x688, .i1⟩
  | 13 => ⟨S1x688x688, .i1⟩
  | 14 => ⟨S_, .f32⟩
  | 15 => ⟨S4x688x688, .f32⟩
  | 16 => ⟨S4x688x688, .i1⟩
  | 17 => ⟨S4x688x688, .i1⟩
  | 18 => ⟨S4x688x688, .i1⟩
  | 19 => ⟨S4x688x688, .i1⟩
  | 20 => ⟨S4x688x688, .i1⟩
  | 21 => ⟨S4x688x688, .i1⟩
  | 22 => ⟨S_, .f32⟩
  | 23 => ⟨S_, .f32⟩
  | 24 => ⟨S4x688x688, .f32⟩
  | 25 => ⟨S4x688x688, .f32⟩
  | 26 => ⟨S_, .f32⟩
  | 27 => ⟨S4x688, .f32⟩
  | 28 => ⟨S_, .f32⟩
  | 29 => ⟨S_, .f32⟩
  | 30 => ⟨S4x688x688, .i1⟩
  | 31 => ⟨S4x688x688, .f32⟩
  | 32 => ⟨S4x688x688, .f32⟩
  | 33 => ⟨S_, .f32⟩
  | 34 => ⟨S4x688, .f32⟩
  | 35 => ⟨S4x688x1, .f32⟩
  | 36 => ⟨S4x688x688, .f32⟩
  | 37 => ⟨S4x688x688, .f32⟩
  | 38 => ⟨S4x688x688, .f32⟩
  | 39 => ⟨S_, .f32⟩
  | 40 => ⟨S_, .f32⟩
  | 41 => ⟨S4x688x688, .f32⟩
  | 42 => ⟨S4x688x688, .f32⟩
  | 43 => ⟨S_, .f32⟩
  | 44 => ⟨S4x688, .f32⟩
  | 45 => ⟨S_, .f32⟩
  | 46 => ⟨S_, .f32⟩
  | 47 => ⟨S4x688x688, .f32⟩
  | 48 => ⟨S4x688x688, .f32⟩
  | 49 => ⟨S_, .f32⟩
  | 50 => ⟨S4x688, .f32⟩
  | 51 => ⟨S_, .i1⟩
  | 52 => ⟨S4x688, .i1⟩
  | 53 => ⟨S_, .f32⟩
  | 54 => ⟨S4x688, .f32⟩
  | 55 => ⟨S4x688, .i1⟩
  | 56 => ⟨S4x688, .i1⟩
  | 57 => ⟨S_, .f32⟩
  | 58 => ⟨S4x688, .f32⟩
  | 59 => ⟨S4x688, .i1⟩
  | 60 => ⟨S_, .f32⟩
  | 61 => ⟨S_, .f32⟩
  | 62 => ⟨S4x688, .f32⟩
  | 63 => ⟨S4x688, .f32⟩
  | 64 => ⟨S_, .f32⟩
  | 65 => ⟨S4x688, .f32⟩
  | 66 => ⟨S4x688, .i1⟩
  | 67 => ⟨S_, .f32⟩
  | 68 => ⟨S_, .f32⟩
  | 69 => ⟨S4x688, .f32⟩
  | 70 => ⟨S4x688, .f32⟩
  | 71 => ⟨S4x688, .f32⟩
  | 72 => ⟨S4x688, .f32⟩
  | 73 => ⟨S4x688, .f32⟩
  | 74 => ⟨S_, .f32⟩
  | 75 => ⟨S4x688, .f32⟩
  | 76 => ⟨S4x688, .i1⟩
  | 77 => ⟨S_, .f32⟩
  | 78 => ⟨S_, .f32⟩
  | 79 => ⟨S4x688, .f32⟩
  | 80 => ⟨S4x688, .f32⟩
  | 81 => ⟨S4x688, .f32⟩
  | 82 => ⟨S4x688, .f32⟩
  | 83 => ⟨S4x688, .f32⟩
  | 84 => ⟨S4x688, .f32⟩
  | 85 => ⟨S_, .f32⟩
  | 86 => ⟨S_, .f32⟩
  | 87 => ⟨S_, .f32⟩
  | 88 => ⟨S4x688, .f32⟩
  | 89 => ⟨S4x688, .f32⟩
  | 90 => ⟨S_, .f32⟩
  | 91 => ⟨S4x688, .f32⟩
  | 92 => ⟨S4x688, .f32⟩
  | 93 => ⟨S_, .f32⟩
  | 94 => ⟨S_, .f32⟩
  | 95 => ⟨S4x688, .f32⟩
  | 96 => ⟨S4x688, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | _ => ⟨S4x2048x8192, .f32⟩

abbrev hbmTy (i : Nat) : BufTy := match i / 128 with
  | 0 => hbmTy0_0 i
  | 1 => hbmTy0_1 i
  | 2 => hbmTy0_2 i
  | _ => ⟨S4x2048x8192, .f32⟩

abbrev bufTy : (tb : Table) → Fin (tcTables nBuf tb) → BufTy
  | .hbm, ⟨i, _⟩ => hbmTy i
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_c_0 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_cst_2 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v19 : Ref sig .tc := ⟨.hbm, 74, rfl⟩
abbrev main_call3_cst : Ref sig .tc := ⟨.hbm, 75, rfl⟩
abbrev main_call3_v0 : Ref sig .tc := ⟨.hbm, 76, rfl⟩
abbrev main_call3_cst_0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_cst_1 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_v20 : Ref sig .tc := ⟨.hbm, 89, rfl⟩
abbrev main_c_4 : Ref sig .tc := ⟨.hbm, 90, rfl⟩
abbrev main_v21 : Ref sig .tc := ⟨.hbm, 91, rfl⟩
abbrev main_v22 : Ref sig .tc := ⟨.hbm, 92, rfl⟩
abbrev main_c_5 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_c_6 : Ref sig .tc := ⟨.hbm, 97, rfl⟩
abbrev main_call4_v0 : Ref sig .tc := ⟨.hbm, 98, rfl⟩
abbrev main_call4_v1 : Ref sig .tc := ⟨.hbm, 99, rfl⟩
abbrev main_v26 : Ref sig .tc := ⟨.hbm, 100, rfl⟩
abbrev main_v27 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_cst : Ref sig .tc := ⟨.hbm, 121, rfl⟩
abbrev main_call5_v14 : Ref sig .tc := ⟨.hbm, 122, rfl⟩
abbrev main_v28 : Ref sig .tc := ⟨.hbm, 123, rfl⟩
abbrev main_v29 : Ref sig .tc := ⟨.hbm, 124, rfl⟩
abbrev main_cst_7 : Ref sig .tc := ⟨.hbm, 125, rfl⟩
abbrev main_call6_v0 : Ref sig .tc := ⟨.hbm, 126, rfl⟩
abbrev main_call6_v1 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_cst_8 : Ref sig .tc := ⟨.hbm, 132, rfl⟩
abbrev main_v34 : Ref sig .tc := ⟨.hbm, 133, rfl⟩
abbrev main_cst_9 : Ref sig .tc := ⟨.hbm, 134, rfl⟩
abbrev main_v35 : Ref sig .tc := ⟨.hbm, 135, rfl⟩
abbrev main_v36 : Ref sig .tc := ⟨.hbm, 136, rfl⟩
abbrev main_cst_10 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_cst_11 : Ref sig .tc := ⟨.hbm, 154, rfl⟩
abbrev main_v53 : Ref sig .tc := ⟨.hbm, 155, rfl⟩
abbrev main_cst_12 : Ref sig .tc := ⟨.hbm, 156, rfl⟩
abbrev main_v54 : Ref sig .tc := ⟨.hbm, 157, rfl⟩
abbrev main_cst_13 : Ref sig .tc := ⟨.hbm, 158, rfl⟩
abbrev main_v55 : Ref sig .tc := ⟨.hbm, 159, rfl⟩
abbrev main_v56 : Ref sig .tc := ⟨.hbm, 160, rfl⟩
abbrev main_cst_14 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_c_15 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_cst_16 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_cst_17 : Ref sig .tc := ⟨.hbm, 180, rfl⟩
abbrev main_call7_v0 : Ref sig .tc := ⟨.hbm, 181, rfl⟩
abbrev main_call7_v1 : Ref sig .tc := ⟨.hbm, 182, rfl⟩
abbrev main_v73 : Ref sig .tc := ⟨.hbm, 183, rfl⟩
abbrev main_cst_18 : Ref sig .tc := ⟨.hbm, 184, rfl⟩
abbrev main_v74 : Ref sig .tc := ⟨.hbm, 185, rfl⟩
abbrev main_cst_19 : Ref sig .tc := ⟨.hbm, 186, rfl⟩
abbrev main_call8_v0 : Ref sig .tc := ⟨.hbm, 187, rfl⟩
abbrev main_call8_v1 : Ref sig .tc := ⟨.hbm, 188, rfl⟩
abbrev main_call8_v2 : Ref sig .tc := ⟨.hbm, 189, rfl⟩
abbrev main_v75 : Ref sig .tc := ⟨.hbm, 190, rfl⟩
abbrev main_cst_20 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_cst_21 : Ref sig .tc := ⟨.hbm, 197, rfl⟩
abbrev main_call9_v0 : Ref sig .tc := ⟨.hbm, 198, rfl⟩
abbrev main_call9_v1 : Ref sig .tc := ⟨.hbm, 199, rfl⟩
abbrev main_v81 : Ref sig .tc := ⟨.hbm, 200, rfl⟩
abbrev main_cst_22 : Ref sig .tc := ⟨.hbm, 201, rfl⟩
abbrev main_v82 : Ref sig .tc := ⟨.hbm, 202, rfl⟩
abbrev main_cst_23 : Ref sig .tc := ⟨.hbm, 203, rfl⟩
abbrev main_call10_v0 : Ref sig .tc := ⟨.hbm, 204, rfl⟩
abbrev main_call10_v1 : Ref sig .tc := ⟨.hbm, 205, rfl⟩
abbrev main_v83 : Ref sig .tc := ⟨.hbm, 206, rfl⟩
abbrev main_cst_24 : Ref sig .tc := ⟨.hbm, 207, rfl⟩
abbrev main_v84 : Ref sig .tc := ⟨.hbm, 208, rfl⟩
abbrev main_c_25 : Ref sig .tc := ⟨.hbm, 209, rfl⟩
abbrev main_v85 : Ref sig .tc := ⟨.hbm, 210, rfl⟩
abbrev main_cst_26 : Ref sig .tc := ⟨.hbm, 211, rfl⟩
abbrev main_v86 : Ref sig .tc := ⟨.hbm, 212, rfl⟩
abbrev main_v87 : Ref sig .tc := ⟨.hbm, 213, rfl⟩
abbrev main_v88 : Ref sig .tc := ⟨.hbm, 214, rfl⟩
abbrev main_cst_27 : Ref sig .tc := ⟨.hbm, 215, rfl⟩
abbrev main_v89 : Ref sig .tc := ⟨.hbm, 216, rfl⟩
abbrev main_v90 : Ref sig .tc := ⟨.hbm, 217, rfl⟩
abbrev main_cst_28 : Ref sig .tc := ⟨.hbm, 218, rfl⟩
abbrev main_call11_v0 : Ref sig .tc := ⟨.hbm, 219, rfl⟩
abbrev main_call11_v1 : Ref sig .tc := ⟨.hbm, 220, rfl⟩
abbrev main_v91 : Ref sig .tc := ⟨.hbm, 221, rfl⟩
abbrev main_cst_29 : Ref sig .tc := ⟨.hbm, 222, rfl⟩
abbrev main_v92 : Ref sig .tc := ⟨.hbm, 223, rfl⟩
abbrev main_v93 : Ref sig .tc := ⟨.hbm, 224, rfl⟩
abbrev main_cst_30 : Ref sig .tc := ⟨.hbm, 225, rfl⟩
abbrev main_call12_v0 : Ref sig .tc := ⟨.hbm, 226, rfl⟩
abbrev main_call12_v1 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_cst_31 : Ref sig .tc := ⟨.hbm, 232, rfl⟩
abbrev main_v98 : Ref sig .tc := ⟨.hbm, 233, rfl⟩
abbrev main_v99 : Ref sig .tc := ⟨.hbm, 234, rfl⟩
abbrev main_cst_32 : Ref sig .tc := ⟨.hbm, 235, rfl⟩
abbrev main_call13_v0 : Ref sig .tc := ⟨.hbm, 236, rfl⟩
abbrev main_call13_v1 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_cst_33 : Ref sig .tc := ⟨.hbm, 243, rfl⟩
abbrev main_cst_34 : Ref sig .tc := ⟨.hbm, 244, rfl⟩
abbrev main_call14_v0 : Ref sig .tc := ⟨.hbm, 245, rfl⟩
abbrev main_call14_v1 : Ref sig .tc := ⟨.hbm, 246, rfl⟩
abbrev main_call14_v2 : Ref sig .tc := ⟨.hbm, 247, rfl⟩
abbrev main_call14_v3 : Ref sig .tc := ⟨.hbm, 248, rfl⟩
abbrev main_call14_v4 : Ref sig .tc := ⟨.hbm, 249, rfl⟩
abbrev main_v105 : Ref sig .tc := ⟨.hbm, 250, rfl⟩
abbrev main_cst_35 : Ref sig .tc := ⟨.hbm, 251, rfl⟩
abbrev main_call15_v0 : Ref sig .tc := ⟨.hbm, 252, rfl⟩
abbrev main_call15_v1 : Ref sig .tc := ⟨.hbm, 253, rfl⟩
abbrev main_v106 : Ref sig .tc := ⟨.hbm, 254, rfl⟩
abbrev main_cst_36 : Ref sig .tc := ⟨.hbm, 255, rfl⟩
abbrev main_v107 : Ref sig .tc := ⟨.hbm, 256, rfl⟩
abbrev main_cst_37 : Ref sig .tc := ⟨.hbm, 257, rfl⟩
abbrev main_v108 : Ref sig .tc := ⟨.hbm, 258, rfl⟩
abbrev main_cst_38 : Ref sig .tc := ⟨.hbm, 259, rfl⟩
abbrev main_v109 : Ref sig .tc := ⟨.hbm, 260, rfl⟩
abbrev main_v110 : Ref sig .tc := ⟨.hbm, 261, rfl⟩
abbrev main_v111 : Ref sig .tc := ⟨.hbm, 262, rfl⟩
abbrev main_v112 : Ref sig .tc := ⟨.hbm, 263, rfl⟩
abbrev main_c_39 : Ref sig .tc := ⟨.hbm, 264, rfl⟩
abbrev main_v113 : Ref sig .tc := ⟨.hbm, 265, rfl⟩
abbrev main_v114 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_cst_40 : Ref sig .tc := ⟨.hbm, 270, rfl⟩
abbrev main_v118 : Ref sig .tc := ⟨.hbm, 271, rfl⟩
abbrev main_v119 : Ref sig .tc := ⟨.hbm, 272, rfl⟩
abbrev main_v120 : Ref sig .tc := ⟨.hbm, 273, rfl⟩
abbrev main_v121 : Ref sig .tc := ⟨.hbm, 274, rfl⟩
abbrev main_v122 : Ref sig .tc := ⟨.hbm, 275, rfl⟩
abbrev main_v123 : Ref sig .tc := ⟨.hbm, 276, rfl⟩
abbrev main_v124 : Ref sig .tc := ⟨.hbm, 277, rfl⟩
abbrev main_cst_41 : Ref sig .tc := ⟨.hbm, 278, rfl⟩
abbrev main_call16_v0 : Ref sig .tc := ⟨.hbm, 279, rfl⟩
abbrev main_call16_v1 : Ref sig .tc := ⟨.hbm, 280, rfl⟩
abbrev main_v125 : Ref sig .tc := ⟨.hbm, 281, rfl⟩
abbrev main_cst_42 : Ref sig .tc := ⟨.hbm, 282, rfl⟩
abbrev main_v126 : Ref sig .tc := ⟨.hbm, 283, rfl⟩
abbrev main_cst_43 : Ref sig .tc := ⟨.hbm, 284, rfl⟩
abbrev main_call17_v0 : Ref sig .tc := ⟨.hbm, 285, rfl⟩
abbrev main_call17_v1 : Ref sig .tc := ⟨.hbm, 286, rfl⟩
abbrev main_call17_v2 : Ref sig .tc := ⟨.hbm, 287, rfl⟩
abbrev main_v127 : Ref sig .tc := ⟨.hbm, 288, rfl⟩
abbrev main_cst_44 : Ref sig .tc := ⟨.hbm, 289, rfl⟩
abbrev main_v128 : Ref sig .tc := ⟨.hbm, 290, rfl⟩
abbrev main_v129 : Ref sig .tc := ⟨.hbm, 291, rfl⟩
abbrev main_v130 : Ref sig .tc := ⟨.hbm, 292, rfl⟩
abbrev main_v131 : Ref sig .tc := ⟨.hbm, 293, rfl⟩
abbrev main_v132 : Ref sig .tc := ⟨.hbm, 294, rfl⟩
abbrev main_cst_45 : Ref sig .tc := ⟨.hbm, 295, rfl⟩
abbrev main_call18_v0 : Ref sig .tc := ⟨.hbm, 296, rfl⟩
abbrev main_call18_v1 : Ref sig .tc := ⟨.hbm, 297, rfl⟩
abbrev main_v133 : Ref sig .tc := ⟨.hbm, 298, rfl⟩
abbrev main_cst_46 : Ref sig .tc := ⟨.hbm, 299, rfl⟩
abbrev main_v134 : Ref sig .tc := ⟨.hbm, 300, rfl⟩
abbrev main_cst_47 : Ref sig .tc := ⟨.hbm, 301, rfl⟩
abbrev main_call19_v0 : Ref sig .tc := ⟨.hbm, 302, rfl⟩
abbrev main_call19_v1 : Ref sig .tc := ⟨.hbm, 303, rfl⟩
abbrev main_v135 : Ref sig .tc := ⟨.hbm, 304, rfl⟩
abbrev main_cst_48 : Ref sig .tc := ⟨.hbm, 305, rfl⟩
abbrev main_v136 : Ref sig .tc := ⟨.hbm, 306, rfl⟩
abbrev main_c_49 : Ref sig .tc := ⟨.hbm, 307, rfl⟩
abbrev main_v137 : Ref sig .tc := ⟨.hbm, 308, rfl⟩
abbrev main_cst_50 : Ref sig .tc := ⟨.hbm, 309, rfl⟩
abbrev main_v138 : Ref sig .tc := ⟨.hbm, 310, rfl⟩
abbrev main_v139 : Ref sig .tc := ⟨.hbm, 311, rfl⟩
abbrev main_v140 : Ref sig .tc := ⟨.hbm, 312, rfl⟩
abbrev main_cst_51 : Ref sig .tc := ⟨.hbm, 313, rfl⟩
abbrev main_v141 : Ref sig .tc := ⟨.hbm, 314, rfl⟩
abbrev main_v142 : Ref sig .tc := ⟨.hbm, 315, rfl⟩
abbrev main_cst_52 : Ref sig .tc := ⟨.hbm, 316, rfl⟩
abbrev main_call20_v0 : Ref sig .tc := ⟨.hbm, 317, rfl⟩
abbrev main_call20_v1 : Ref sig .tc := ⟨.hbm, 318, rfl⟩
abbrev main_v143 : Ref sig .tc := ⟨.hbm, 319, rfl⟩
abbrev main_cst_53 : Ref sig .tc := ⟨.hbm, 320, rfl⟩
abbrev main_v144 : Ref sig .tc := ⟨.hbm, 321, rfl⟩
abbrev main_v145 : Ref sig .tc := ⟨.hbm, 322, rfl⟩
abbrev main_cst_54 : Ref sig .tc := ⟨.hbm, 323, rfl⟩
abbrev main_call21_v0 : Ref sig .tc := ⟨.hbm, 324, rfl⟩
abbrev main_call21_v1 : Ref sig .tc := ⟨.hbm, 325, rfl⟩
abbrev main_v146 : Ref sig .tc := ⟨.hbm, 326, rfl⟩
abbrev main_v147 : Ref sig .tc := ⟨.hbm, 327, rfl⟩
abbrev main_v148 : Ref sig .tc := ⟨.hbm, 328, rfl⟩
abbrev main_v149 : Ref sig .tc := ⟨.hbm, 329, rfl⟩
abbrev main_cst_55 : Ref sig .tc := ⟨.hbm, 330, rfl⟩
abbrev main_v150 : Ref sig .tc := ⟨.hbm, 331, rfl⟩
abbrev main_v151 : Ref sig .tc := ⟨.hbm, 332, rfl⟩
abbrev main_cst_56 : Ref sig .tc := ⟨.hbm, 333, rfl⟩
abbrev main_call22_v0 : Ref sig .tc := ⟨.hbm, 334, rfl⟩
abbrev main_call22_v1 : Ref sig .tc := ⟨.hbm, 335, rfl⟩
abbrev main_v152 : Ref sig .tc := ⟨.hbm, 336, rfl⟩
abbrev main_v153 : Ref sig .tc := ⟨.hbm, 337, rfl⟩
abbrev main_v154 : Ref sig .tc := ⟨.hbm, 338, rfl⟩
abbrev main_v155 : Ref sig .tc := ⟨.hbm, 339, rfl⟩
abbrev main_v156 : Ref sig .tc := ⟨.hbm, 340, rfl⟩
abbrev main_cst_57 : Ref sig .tc := ⟨.hbm, 341, rfl⟩
abbrev main_cst_58 : Ref sig .tc := ⟨.hbm, 342, rfl⟩
abbrev main_call23_v0 : Ref sig .tc := ⟨.hbm, 343, rfl⟩
abbrev main_call23_v1 : Ref sig .tc := ⟨.hbm, 344, rfl⟩
abbrev main_call23_v2 : Ref sig .tc := ⟨.hbm, 345, rfl⟩
abbrev main_call23_v3 : Ref sig .tc := ⟨.hbm, 346, rfl⟩
abbrev main_call23_v4 : Ref sig .tc := ⟨.hbm, 347, rfl⟩
abbrev main_v157 : Ref sig .tc := ⟨.hbm, 348, rfl⟩
abbrev main_cst_59 : Ref sig .tc := ⟨.hbm, 349, rfl⟩
abbrev main_call24_v0 : Ref sig .tc := ⟨.hbm, 350, rfl⟩
abbrev main_call24_v1 : Ref sig .tc := ⟨.hbm, 351, rfl⟩
abbrev main_v158 : Ref sig .tc := ⟨.hbm, 352, rfl⟩
abbrev main_cst_60 : Ref sig .tc := ⟨.hbm, 353, rfl⟩
abbrev main_v159 : Ref sig .tc := ⟨.hbm, 354, rfl⟩
abbrev main_cst_61 : Ref sig .tc := ⟨.hbm, 355, rfl⟩
abbrev main_v160 : Ref sig .tc := ⟨.hbm, 356, rfl⟩
abbrev main_cst_62 : Ref sig .tc := ⟨.hbm, 357, rfl⟩
abbrev main_v161 : Ref sig .tc := ⟨.hbm, 358, rfl⟩
abbrev main_cst_63 : Ref sig .tc := ⟨.hbm, 359, rfl⟩
abbrev main_v162 : Ref sig .tc := ⟨.hbm, 360, rfl⟩
abbrev main_v163 : Ref sig .tc := ⟨.hbm, 361, rfl⟩
abbrev main_cst_64 : Ref sig .tc := ⟨.hbm, 362, rfl⟩
abbrev main_v164 : Ref sig .tc := ⟨.hbm, 363, rfl⟩
abbrev main_v165 : Ref sig .tc := ⟨.hbm, 364, rfl⟩
abbrev main_cst_65 : Ref sig .tc := ⟨.hbm, 365, rfl⟩
abbrev main_v166 : Ref sig .tc := ⟨.hbm, 366, rfl⟩
abbrev main_v167 : Ref sig .tc := ⟨.hbm, 367, rfl⟩
abbrev main_cst_66 : Ref sig .tc := ⟨.hbm, 368, rfl⟩
abbrev main_v168 : Ref sig .tc := ⟨.hbm, 369, rfl⟩
abbrev main_v169 : Ref sig .tc := ⟨.hbm, 370, rfl⟩

abbrev nD : Nat := 1
abbrev τ : Topo := Topo.v7x

variable {F : FTy → Type} [FloatOps F]

class Facts₀ : Prop where
  reducesTo_S4x2048x8192_S4x2048_d2 : S4x2048x8192.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x8192_0_1_2 : S4x2048x1.BroadcastsInDim S4x2048x8192 (![0, 1, 2] : Fin 3 → Fin S4x2048x8192.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  bcast_S4_S1x1x4_2 : S4.BroadcastsInDim S1x1x4 (![2] : Fin 1 → Fin S1x1x4.rank)
  bcast_S4x2048x1_S4x2048x4_0_1_2 : S4x2048x1.BroadcastsInDim S4x2048x4 (![0, 1, 2] : Fin 3 → Fin S4x2048x4.rank)
  bcast_S1x1x4_S4x2048x4_0_1_2 : S1x1x4.BroadcastsInDim S4x2048x4 (![0, 1, 2] : Fin 3 → Fin S4x2048x4.rank)
  reducesTo_S4x2048x4_S4x2048_d2 : S4x2048x4.ReducesTo [2] S4x2048
  reducesTo_S4x2048_S_d0_1 : S4x2048.ReducesTo [0, 1] S_
  bcast_S4x2048_S4x1x2048_0_2 : S4x2048.BroadcastsInDim S4x1x2048 (![0, 2] : Fin 2 → Fin S4x1x2048.rank)
  bcast_S4x1x2048_S4x688x2048_0_1_2 : S4x1x2048.BroadcastsInDim S4x688x2048 (![0, 1, 2] : Fin 3 → Fin S4x688x2048.rank)
  bcast_S_S4x688x2048 : S_.BroadcastsInDim S4x688x2048 (![] : Fin 0 → Fin S4x688x2048.rank)
  reducesTo_S4x688x2048_S4x688_d2 : S4x688x2048.ReducesTo [2] S4x688
  bcast_S_S4x688 : S_.BroadcastsInDim S4x688 (![] : Fin 0 → Fin S4x688.rank)
  bcast_S4x688_S4x688x1_0_1 : S4x688.BroadcastsInDim S4x688x1 (![0, 1] : Fin 2 → Fin S4x688x1.rank)
  bcast_S4x688x1_S4x688x2048_0_1_2 : S4x688x1.BroadcastsInDim S4x688x2048 (![0, 1, 2] : Fin 3 → Fin S4x688x2048.rank)
  bcast_S_S4x688x1 : S_.BroadcastsInDim S4x688x1 (![] : Fin 0 → Fin S4x688x1.rank)
  shapeCasts_S4x688x1_S4x688x1x1 : S4x688x1.ShapeCasts S4x688x1x1
  bcast_S_S4x688x1x1 : S_.BroadcastsInDim S4x688x1x1 (![] : Fin 0 → Fin S4x688x1x1.rank)
  bcast_S1x1x1x1_S4x688x1x1_0_1_2_3 : S1x1x1x1.BroadcastsInDim S4x688x1x1 (![0, 1, 2, 3] : Fin 4 → Fin S4x688x1x1.rank)
  reducesTo_S4x688x1x1_S4x688x1_d3 : S4x688x1x1.ReducesTo [3] S4x688x1
  shapeCasts_S4x688x1_S4x688 : S4x688x1.ShapeCasts S4x688
  reducesTo_S4x688_S_d0_1 : S4x688.ReducesTo [0, 1] S_
  bcast_S_S4x688x688 : S_.BroadcastsInDim S4x688x688 (![] : Fin 0 → Fin S4x688x688.rank)
  bcast_S_S688x688 : S_.BroadcastsInDim S688x688 (![] : Fin 0 → Fin S688x688.rank)
  bcast_S688x688_S1x688x688_1_2 : S688x688.BroadcastsInDim S1x688x688 (![1, 2] : Fin 2 → Fin S1x688x688.rank)
  bcast_S1x688x688_S4x688x688_0_1_2 : S1x688x688.BroadcastsInDim S4x688x688 (![0, 1, 2] : Fin 3 → Fin S4x688x688.rank)
  reducesTo_S4x688x688_S4x688_d2 : S4x688x688.ReducesTo [2] S4x688
  bcast_S4x688x1_S4x688x688_0_1_2 : S4x688x1.BroadcastsInDim S4x688x688 (![0, 1, 2] : Fin 3 → Fin S4x688x688.rank)
  gather_S4x2048x8192_S4x2048x1x1_S4x2048x1_n_2_01_01_2_3_111_wf : GatherDims.WF S4x2048x8192 S4x2048x1x1 S4x2048x1 [] [2] [0, 1] [2] [0, 1] 3 ![1, 1, 1]
  gather_S4x688x2048_S4x688x1x1_S4x688x1_n_2_01_01_2_3_111_wf : GatherDims.WF S4x688x2048 S4x688x1x1 S4x688x1 [] [2] [0, 1] [2] [0, 1] 3 ![1, 1, 1]

variable [Facts₀]

def gather_S4x2048x8192_S4x2048x1x1_S4x2048x1_n_2_01_01_2_3_111 : GatherDims S4x2048x8192 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x8192_S4x2048x1x1_S4x2048x1_n_2_01_01_2_3_111_wf
def gather_S4x688x2048_S4x688x1x1_S4x688x1_n_2_01_01_2_3_111 : GatherDims S4x688x2048 S4x688x1x1 S4x688x1 where
  offsetDims := []
  collapsedSliceDims := [2]
  operandBatchingDims := [0, 1]
  startIndicesBatchingDims := [0, 1]
  startIndexMap := [2]
  indexVectorDim := 3
  sliceSizes := ![1, 1, 1]
  wf := gather_S4x688x2048_S4x688x1x1_S4x688x1_n_2_01_01_2_3_111_wf

class Facts : Prop extends Facts₀ where

variable [Facts]
-- ==== Proof.K.Kit.lean ====
/- The frame of the kernel program, part one: the vocabulary the later parts are stated over.
   The program is one broadcast (the token ids given a trailing unit axis), then ONE pipelined region
   over a 4 x 16 grid of points t = 16 b + l, then 309 further array operations in 46 stretches.
   The region stages four arrays: the logits (block 1 x 128 x 8192 at (b, l, 0)), the broadcast token
   ids (block 1 x 128 x 1 at (b, l, 0)), and two 4 x 1 x 1 outputs (block 1 x 1 x 1 at (b, 0, 0)) that
   are summed over l: set to zero where l = 0, added to at every l, written back where l = 15. -/
import proofs.«411483_j80101140070992_1_alg».proof.Proof.Gen.Kernel.Launch
import proofs.«411483_j80101140070992_1_alg».proof.Proof.Gen.Kernel.Skeleton
import proofs.«411483_j80101140070992_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The 46 stretches of operations after the region, in order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45]

/-- The buffer contents of core `c` when the region is entered: the launch contents after the one broadcast. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-! ## The blocks of the staged arrays -/

/-- The block of staged array `w` at point `t`, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, whether or not it was fetched there (an unfetched
    block is one whose position did not move), for any proof data with the entry contents as arrays and the
    blocks left in place by the body. The logits: -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the token ids. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- The body's conditional asks whether the second grid coordinate l is zero (as the 32-bit comparison chain
    the body computes it by). -/
abbrev cond0_0 (i : grid0.Coords) : Prop := (Scalar.cmpi .ne (Scalar.extui (Scalar.cmpi .eq (BitVec.ofNat 32 (i 1).val) 0#32)) 0#32) = 1#1
/-- At point t = 16 b + l that is t ≡ 0 (mod 16): checked at each of the 64 points. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of each output, through which its contents are stated (which one does not matter). -/
abbrev VO0_2 : View sig .tc .vmem S1x1x1 .f32 := (Memref.whole cc0_stg2_0 : Memref sig .tc .vmem S1x1x1 .f32).view
abbrev VO0_3 : View sig .tc .vmem S1x1x1 .f32 := (Memref.whole cc0_stg3_0 : Memref sig .tc .vmem S1x1x1 .f32).view
/-- The staging memref each staged array is on at point `t`, and that it is a whole buffer. -/
abbrev ms0_0 (t : Fin cfg0.N) : Memref sig .tc .vmem S1x128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.Kernel.Hand

end
-- ==== Proof.K.RunA.lean ====
/- The frame of the kernel program, part two: the body run at a point with l = 0.
   There the body first stores zero into both outputs and then adds the tile's two sums to them, so each
   output ends with two stores, the later covering the earlier. -/
import proofs.«411483_j80101140070992_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as lists of pieces (last first), where the
    condition holds, WITH the proof that on whole staging memrefs — the inputs' at contents `x0`, `x1`, the outputs'
    at anything — the body runs to a continuation holding the inputs' as they were and each output's buffer with its
    pieces written. -/
noncomputable def kernelRun0_A (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__cls_kernel i arg2 harg2 arg3 harg3 arg4 harg4 arg5 harg5) K } := by
  refine ⟨?_, ?_, fun E K => ?run⟩
  case run =>
    simp only [cc0__cls_kernel_eq_skeleton]; unfold cc0__cls_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.RunB.lean ====
/- The frame of the kernel program, part three: the body run at a point with l ≠ 0.
   There the body only adds the tile's two sums to what the outputs hold, which is what the point before left:
   each output ends with one store, over contents `xo2`, `xo3` it has read. -/
import proofs.«411483_j80101140070992_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as lists of pieces (last first), where the
    condition fails, WITH the proof that on whole staging memrefs — the inputs' at contents `x0`, `x1`, the outputs'
    at their running contents `xo2`, `xo3` — the body runs to a continuation holding the inputs' as they were and each
    output's buffer with its pieces written. -/
noncomputable def kernelRun0_B (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__cls_kernel i arg2 harg2 arg3 harg3 arg4 harg4 arg5 harg5) K } := by
  refine ⟨?_, ?_, fun E K => ?run⟩
  case run =>
    simp only [cc0__cls_kernel_eq_skeleton]; unfold cc0__cls_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.TailDefs.lean ====
/- The frame of the kernel program, part four (a): which arrays the operations after the region must leave alone.
   The region stages four arrays and the program has eleven arguments; an operation that writes exactly one array,
   and that array none of these, changes none of them. -/
import proofs.«411483_j80101140070992_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What an operation of the tail writes -/

/-- The arrays the tail must leave alone: the eleven arguments and the three further arrays the region stages. -/
abbrev keptRefs : List (Ref sig .tc) :=
  [main_arg0, main_arg1, main_arg2, main_arg3, main_arg4, main_arg5, main_arg6, main_arg7, main_arg8, main_arg9, main_arg10,
    main_v0, main_v1_0, main_v1_1]

/-- An operation writes exactly one array, and that array is none of `keptRefs`. -/
def WritesOutside (op : HloOp τ sig (Elt F)) : Prop :=
  ∃ y : Ref sig .tc, op.writes = {Proc.devRef (τ := τ) .tc y} ∧ y ∉ keptRefs

theorem WritesOutside.intro (op : HloOp τ sig (Elt F)) (y : Ref sig .tc) (h₁ : op.writes = {Proc.devRef (τ := τ) .tc y})
    (h₂ : y ∉ keptRefs) : WritesOutside op := ⟨y, h₁, h₂⟩

/-- Such an operation writes no array of `keptRefs`: references are told apart before they are device buffers. -/
theorem WritesOutside.not_mem {op : HloOp τ sig (Elt F)} (h : WritesOutside op) {b : Ref sig .tc} (hb : b ∈ keptRefs) :
    Proc.devRef (τ := τ) .tc b ∉ op.writes := by
  obtain ⟨y, hy, hn⟩ := h
  rw [hy, Finset.mem_singleton]
  intro e
  exact hn (Proc.devRef_injective _ e ▸ hb)

/-- The four staged arrays are among `keptRefs`. -/
theorem arr_mem_kept : ∀ w : Fin 4, Pipeline.arrRef spec0 w ∈ keptRefs := by decide

end Cert.Kernel.Hand

end
-- ==== Proof.K.TailTable.lean ====
/- The frame of the kernel program, part four (b): stretch by stretch, the 46 stretches of operations after the
   region: no operation allocates, and each writes exactly one array, its own result, none of `keptRefs`. -/
import proofs.«411483_j80101140070992_1_alg».proof.Proof.K.TailDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stretch by stretch -/

theorem hostOps1_ok : (hostOps1 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_1_ok : (hostOps1_1 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_2_ok : (hostOps1_2 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_3_ok : (hostOps1_3 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_4_ok : (hostOps1_4 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_5_ok : (hostOps1_5 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_6_ok : (hostOps1_6 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_7_ok : (hostOps1_7 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_8_ok : (hostOps1_8 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_9_ok : (hostOps1_9 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_10_ok : (hostOps1_10 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_11_ok : (hostOps1_11 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_12_ok : (hostOps1_12 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_13_ok : (hostOps1_13 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_14_ok : (hostOps1_14 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_15_ok : (hostOps1_15 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_16_ok : (hostOps1_16 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_17_ok : (hostOps1_17 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_18_ok : (hostOps1_18 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_19_ok : (hostOps1_19 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_20_ok : (hostOps1_20 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_21_ok : (hostOps1_21 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_22_ok : (hostOps1_22 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_23_ok : (hostOps1_23 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_24_ok : (hostOps1_24 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_25_ok : (hostOps1_25 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_26_ok : (hostOps1_26 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_27_ok : (hostOps1_27 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_28_ok : (hostOps1_28 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_29_ok : (hostOps1_29 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_30_ok : (hostOps1_30 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_31_ok : (hostOps1_31 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_32_ok : (hostOps1_32 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_33_ok : (hostOps1_33 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_34_ok : (hostOps1_34 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_35_ok : (hostOps1_35 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_36_ok : (hostOps1_36 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_37_ok : (hostOps1_37 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_38_ok : (hostOps1_38 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_39_ok : (hostOps1_39 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_40_ok : (hostOps1_40 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_41_ok : (hostOps1_41 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_42_ok : (hostOps1_42 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_43_ok : (hostOps1_43 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_44_ok : (hostOps1_44 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_45_ok : (hostOps1_45 : List (HloOp τ sig (Elt F))).Forall fun op => op.fresh = ∅ ∧ WritesOutside op := by
  simp only [List.Forall]
  repeat' refine And.intro ?_ ?_
  all_goals first | rfl | exact WritesOutside.intro _ _ rfl (by decide)

/-! ## Over the list of stretches -/

/-- Every operation after the region allocates nothing and writes one array outside `keptRefs`. -/
theorem tail_ok : ∀ ops ∈ (tailOpss : List (List (HloOp τ sig (Elt F)))), ∀ op ∈ ops, op.fresh = ∅ ∧ WritesOutside op :=
  List.forall_mem_cons.mpr ⟨List.forall_iff_forall_mem.mp hostOps1_ok, List.forall_mem_cons.mpr ⟨List.forall_iff_forall_mem.mp hostOps1_1_ok, List.forall_mem_cons.mpr ⟨List.forall_iff_forall_mem.mp hostOps1_2_ok, List.forall_mem_cons.mpr ⟨List.forall_iff_forall_mem.mp hostOps1_3_ok, List.forall_mem_cons.mpr ⟨List.forall_iff_forall_mem.mp hostOps1_4_ok, List.forall_mem_cons.mpr ⟨List.forall_iff_forall_mem.mp hostOps1_5_ok, List.forall_mem_cons.mpr ⟨List.forall_iff_forall_mem.mp hostOps1_6_ok, List.forall_mem_cons.mpr ⟨List.forall_iff_forall_mem.mp hostOps1_7_ok, List.forall_mem_cons.mpr ⟨List.forall_iff_forall_mem.mp hostOps1_8_ok, List.forall_mem_cons.mpr ⟨List.forall_iff_forall_mem.mp hostOps1_9_ok, List.forall_mem_cons.mpr ⟨List.forall_iff_forall_mem.mp hostOps1_10_ok, List.forall_mem_cons.mpr ⟨List.forall_iff_forall_mem.mp hostOps1_11_ok, List.forall_mem_cons.mpr ⟨List.forall_iff_forall_mem.mp hostOps1_12_ok, List.forall_mem_cons.mpr ⟨List.forall_iff_forall_mem.mp hostOps1_13_ok, List.forall_mem_cons.mpr ⟨List.forall_iff_forall_mem.mp hostOps1_14_ok, List.forall_mem_cons.mpr ⟨List.forall_iff_forall_mem.mp hostOps1_15_ok, List.forall_mem_cons.mpr ⟨List.forall_iff_forall_mem.mp hostOps1_16_ok, List.forall_mem_cons.mpr ⟨List.forall_iff_forall_mem.mp hostOps1_17_ok, List.forall_mem_cons.mpr ⟨List.forall_iff_forall_mem.mp hostOps1_18_ok, List.forall_mem_cons.mpr ⟨List.forall_iff_forall_mem.mp hostOps1_19_ok, List.forall_mem_cons.mpr ⟨List.forall_iff_forall_mem.mp hostOps1_20_ok, List.forall_mem_cons.mpr ⟨List.forall_iff_forall_mem.mp hostOps1_21_ok, List.forall_mem_cons.mpr ⟨List.forall_iff_forall_mem.mp hostOps1_22_ok, List.forall_mem_cons.mpr ⟨List.forall_iff_forall_mem.mp hostOps1_23_ok, List.forall_mem_cons.mpr ⟨List.forall_iff_forall_mem.mp hostOps1_24_ok, List.forall_mem_cons.mpr ⟨List.forall_iff_forall_mem.mp hostOps1_25_ok, List.forall_mem_cons.mpr ⟨List.forall_iff_forall_mem.mp hostOps1_26_ok, List.forall_mem_cons.mpr ⟨List.forall_iff_forall_mem.mp hostOps1_27_ok, List.forall_mem_cons.mpr ⟨List.forall_iff_forall_mem.mp hostOps1_28_ok, List.forall_mem_cons.mpr ⟨List.forall_iff_forall_mem.mp hostOps1_29_ok, List.forall_mem_cons.mpr ⟨List.forall_iff_forall_mem.mp hostOps1_30_ok, List.forall_mem_cons.mpr ⟨List.forall_iff_forall_mem.mp hostOps1_31_ok, List.forall_mem_cons.mpr ⟨List.forall_iff_forall_mem.mp hostOps1_32_ok, List.forall_mem_cons.mpr ⟨List.forall_iff_forall_mem.mp hostOps1_33_ok, List.forall_mem_cons.mpr ⟨List.forall_iff_forall_mem.mp hostOps1_34_ok, List.forall_mem_cons.mpr ⟨List.forall_iff_forall_mem.mp hostOps1_35_ok, List.forall_mem_cons.mpr ⟨List.forall_iff_forall_mem.mp hostOps1_36_ok, List.forall_mem_cons.mpr ⟨List.forall_iff_forall_mem.mp hostOps1_37_ok, List.forall_mem_cons.mpr ⟨List.forall_iff_forall_mem.mp hostOps1_38_ok, List.forall_mem_cons.mpr ⟨List.forall_iff_forall_mem.mp hostOps1_39_ok, List.forall_mem_cons.mpr ⟨List.forall_iff_forall_mem.mp hostOps1_40_ok, List.forall_mem_cons.mpr ⟨List.forall_iff_forall_mem.mp hostOps1_41_ok, List.forall_mem_cons.mpr ⟨List.forall_iff_forall_mem.mp hostOps1_42_ok, List.forall_mem_cons.mpr ⟨List.forall_iff_forall_mem.mp hostOps1_43_ok, List.forall_mem_cons.mpr ⟨List.forall_iff_forall_mem.mp hostOps1_44_ok, List.forall_mem_cons.mpr ⟨List.forall_iff_forall_mem.mp hostOps1_45_ok, fun _ h => nomatch h⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- Every operation after the region touches TensorCore references only. -/
theorem tail_sub : ∀ ops ∈ (tailOpss : List (List (HloOp τ sig (Elt F)))), ∀ op ∈ ops, op.bufs ⊆ StableHlo.tcRefs τ sig :=
  List.forall_mem_cons.mpr ⟨List.forall_iff_forall_mem.mp hostOps1_sub, List.forall_mem_cons.mpr ⟨List.forall_iff_forall_mem.mp hostOps1_1_sub, List.forall_mem_cons.mpr ⟨List.forall_iff_forall_mem.mp hostOps1_2_sub, List.forall_mem_cons.mpr ⟨List.forall_iff_forall_mem.mp hostOps1_3_sub, List.forall_mem_cons.mpr ⟨List.forall_iff_forall_mem.mp hostOps1_4_sub, List.forall_mem_cons.mpr ⟨List.forall_iff_forall_mem.mp hostOps1_5_sub, List.forall_mem_cons.mpr ⟨List.forall_iff_forall_mem.mp hostOps1_6_sub, List.forall_mem_cons.mpr ⟨List.forall_iff_forall_mem.mp hostOps1_7_sub, List.forall_mem_cons.mpr ⟨List.forall_iff_forall_mem.mp hostOps1_8_sub, List.forall_mem_cons.mpr ⟨List.forall_iff_forall_mem.mp hostOps1_9_sub, List.forall_mem_cons.mpr ⟨List.forall_iff_forall_mem.mp hostOps1_10_sub, List.forall_mem_cons.mpr ⟨List.forall_iff_forall_mem.mp hostOps1_11_sub, List.forall_mem_cons.mpr ⟨List.forall_iff_forall_mem.mp hostOps1_12_sub, List.forall_mem_cons.mpr ⟨List.forall_iff_forall_mem.mp hostOps1_13_sub, List.forall_mem_cons.mpr ⟨List.forall_iff_forall_mem.mp hostOps1_14_sub, List.forall_mem_cons.mpr ⟨List.forall_iff_forall_mem.mp hostOps1_15_sub, List.forall_mem_cons.mpr ⟨List.forall_iff_forall_mem.mp hostOps1_16_sub, List.forall_mem_cons.mpr ⟨List.forall_iff_forall_mem.mp hostOps1_17_sub, List.forall_mem_cons.mpr ⟨List.forall_iff_forall_mem.mp hostOps1_18_sub, List.forall_mem_cons.mpr ⟨List.forall_iff_forall_mem.mp hostOps1_19_sub, List.forall_mem_cons.mpr ⟨List.forall_iff_forall_mem.mp hostOps1_20_sub, List.forall_mem_cons.mpr ⟨List.forall_iff_forall_mem.mp hostOps1_21_sub, List.forall_mem_cons.mpr ⟨List.forall_iff_forall_mem.mp hostOps1_22_sub, List.forall_mem_cons.mpr ⟨List.forall_iff_forall_mem.mp hostOps1_23_sub, List.forall_mem_cons.mpr ⟨List.forall_iff_forall_mem.mp hostOps1_24_sub, List.forall_mem_cons.mpr ⟨List.forall_iff_forall_mem.mp hostOps1_25_sub, List.forall_mem_cons.mpr ⟨List.forall_iff_forall_mem.mp hostOps1_26_sub, List.forall_mem_cons.mpr ⟨List.forall_iff_forall_mem.mp hostOps1_27_sub, List.forall_mem_cons.mpr ⟨List.forall_iff_forall_mem.mp hostOps1_28_sub, List.forall_mem_cons.mpr ⟨List.forall_iff_forall_mem.mp hostOps1_29_sub, List.forall_mem_cons.mpr ⟨List.forall_iff_forall_mem.mp hostOps1_30_sub, List.forall_mem_cons.mpr ⟨List.forall_iff_forall_mem.mp hostOps1_31_sub, List.forall_mem_cons.mpr ⟨List.forall_iff_forall_mem.mp hostOps1_32_sub, List.forall_mem_cons.mpr ⟨List.forall_iff_forall_mem.mp hostOps1_33_sub, List.forall_mem_cons.mpr ⟨List.forall_iff_forall_mem.mp hostOps1_34_sub, List.forall_mem_cons.mpr ⟨List.forall_iff_forall_mem.mp hostOps1_35_sub, List.forall_mem_cons.mpr ⟨List.forall_iff_forall_mem.mp hostOps1_36_sub, List.forall_mem_cons.mpr ⟨List.forall_iff_forall_mem.mp hostOps1_37_sub, List.forall_mem_cons.mpr ⟨List.forall_iff_forall_mem.mp hostOps1_38_sub, List.forall_mem_cons.mpr ⟨List.forall_iff_forall_mem.mp hostOps1_39_sub, List.forall_mem_cons.mpr ⟨List.forall_iff_forall_mem.mp hostOps1_40_sub, List.forall_mem_cons.mpr ⟨List.forall_iff_forall_mem.mp hostOps1_41_sub, List.forall_mem_cons.mpr ⟨List.forall_iff_forall_mem.mp hostOps1_42_sub, List.forall_mem_cons.mpr ⟨List.forall_iff_forall_mem.mp hostOps1_43_sub, List.forall_mem_cons.mpr ⟨List.forall_iff_forall_mem.mp hostOps1_44_sub, List.forall_mem_cons.mpr ⟨List.forall_iff_forall_mem.mp hostOps1_45_sub, fun _ h => nomatch h⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.Kernel.Hand

end
-- ==== Proof.K.Tail.lean ====
/- The frame of the kernel program, part four (c): the operations around the region.
   Before it, one broadcast writes the token ids with a trailing unit axis into a fresh array and nothing else.
   After it, 309 operations in 46 stretches each write exactly one array, their own result, which is never one
   of the program's eleven arguments nor one of the four arrays the region stages; and none allocates. So the
   region's arrays and the arguments pass through the tail as the region left them. -/
import proofs.«411483_j80101140070992_1_alg».proof.Proof.K.TailTable

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tail as a whole -/

/-- The operations after the region touch the staged arrays and the arrays that bypass the region only (with
    nothing prefetched, every unscoped reference is one or the other). -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (tail_sub ops hops op hop)
/-- They allocate nothing. -/
theorem sfx_fresh : ∀ ops ∈ (tailOpss : List (List (HloOp τ sig (Elt F)))), ∀ op ∈ ops, op.fresh = ∅ :=
  fun ops hops op hop => (tail_ok ops hops op hop).1
/-- And they write no staged array. -/
theorem sfx_keeps : ∀ ops ∈ (tailOpss : List (List (HloOp τ sig (Elt F)))), ∀ op ∈ ops,
    ∀ w, Proc.devRef .tc (Pipeline.arrRef spec0 w) ∉ op.writes :=
  fun ops hops op hop w => (tail_ok ops hops op hop).2.not_mem (arr_mem_kept w)

/-- An array of `keptRefs` holds after the tail what it held before it, from any contents. -/
theorem after_tail_kept (W : Valuation τ sig (Elt F)) (b : Ref sig .tc) (hb : b ∈ keptRefs) :
    StableHlo.after (tailOpss (F := F)).flatten W (Proc.devRef .tc b) = W (Proc.devRef .tc b) :=
  StableHlo.after_of_forall_not_mem _ W fun op hop => by
    obtain ⟨ops, hops, hop'⟩ := List.mem_flatten.mp hop
    exact (tail_ok ops hops op hop').2.not_mem hb

/-! ## The program around the region -/

/-- The program is the broadcast, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; repeat' constructor) main_chain

/-- The broadcast writes only its own result, so each argument enters the region as launched. -/
theorem V0_kept (c : Dev nD) (b : Ref sig .tc) (hb : b ≠ main_v0) : V m c b = m ((c : Thread nD τ).loc b) :=
  StableHlo.after_of_forall_not_mem _ _ fun op hop => by
    simp only [List.flatten_cons, List.flatten_nil, List.append_nil, List.mem_cons, List.mem_nil_iff, or_false] at hop
    subst hop
    rw [StableHlo.unary_writes, Finset.mem_singleton]
    exact StableHlo.devRef_ne_of_ne hb

theorem V_main_arg0 (c : Dev nD) : V m c main_arg0 = m ((c : Thread nD τ).loc main_arg0) := V0_kept m c main_arg0 (by decide)
theorem V_main_arg1 (c : Dev nD) : V m c main_arg1 = m ((c : Thread nD τ).loc main_arg1) := V0_kept m c main_arg1 (by decide)
theorem V_main_arg2 (c : Dev nD) : V m c main_arg2 = m ((c : Thread nD τ).loc main_arg2) := V0_kept m c main_arg2 (by decide)
theorem V_main_arg3 (c : Dev nD) : V m c main_arg3 = m ((c : Thread nD τ).loc main_arg3) := V0_kept m c main_arg3 (by decide)
theorem V_main_arg4 (c : Dev nD) : V m c main_arg4 = m ((c : Thread nD τ).loc main_arg4) := V0_kept m c main_arg4 (by decide)
theorem V_main_arg5 (c : Dev nD) : V m c main_arg5 = m ((c : Thread nD τ).loc main_arg5) := V0_kept m c main_arg5 (by decide)
theorem V_main_arg6 (c : Dev nD) : V m c main_arg6 = m ((c : Thread nD τ).loc main_arg6) := V0_kept m c main_arg6 (by decide)
theorem V_main_arg7 (c : Dev nD) : V m c main_arg7 = m ((c : Thread nD τ).loc main_arg7) := V0_kept m c main_arg7 (by decide)
theorem V_main_arg8 (c : Dev nD) : V m c main_arg8 = m ((c : Thread nD τ).loc main_arg8) := V0_kept m c main_arg8 (by decide)
theorem V_main_arg9 (c : Dev nD) : V m c main_arg9 = m ((c : Thread nD τ).loc main_arg9) := V0_kept m c main_arg9 (by decide)
theorem V_main_arg10 (c : Dev nD) : V m c main_arg10 = m ((c : Thread nD τ).loc main_arg10) := V0_kept m c main_arg10 (by decide)

end Cert.Kernel.Hand

end
-- ==== Proof.K.Frame.lean ====
/- The frame of the kernel program, part five: the accumulation over the points, the region's run, the frame.
   Each of the two outputs has one 1 x 1 x 1 block per batch row b, visited at the sixteen points t = 16 b + l.
   Where l = 0 the body's stores (zero, then zero plus the tile's sum) cover the block; elsewhere its one store
   (what the point before left plus the tile's sum) covers it. The block is written back to its array only where
   l = 15, so between the points of one row the staging buffer carries the running sum. -/
import proofs.«411483_j80101140070992_1_alg».proof.Proof.K.RunB
import proofs.«411483_j80101140070992_1_alg».proof.Proof.K.Tail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover the outputs' blocks -/

theorem cover0_A_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y

theorem cover0_A_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) (y : S1x1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1.size (by sl_kernel_rfl) y

theorem cover0_B_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1x1.size (by sl_kernel_rfl) y

theorem cover0_B_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1.size (by sl_kernel_rfl) y

/-! ## What each case leaves in the outputs' staging buffers: its stores read back -/

def out0_A_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) : Vec F S1x1x1 .f32 :=
  VO0_2.read (Elt F) (VO0_2.writes (Elt F) VO0_2.junk (kernelRun0_A c i arg2 harg2 arg3 harg3 arg4 harg4 arg5 harg5 hc0 x0 x1).1)

def out0_A_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) : Vec F S1x1x1 .f32 :=
  VO0_3.read (Elt F) (VO0_3.writes (Elt F) VO0_3.junk (kernelRun0_A c i arg2 harg2 arg3 harg3 arg4 harg4 arg5 harg5 hc0 x0 x1).2.1)

def out0_B_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) : Vec F S1x1x1 .f32 :=
  VO0_2.read (Elt F) (VO0_2.writes (Elt F) VO0_2.junk (kernelRun0_B c i arg2 harg2 arg3 harg3 arg4 harg4 arg5 harg5 hc0 x0 x1 xo2 xo3).1)

def out0_B_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the two outputs' staging buffers hold after the body at position `n`: where n ≡ 0 (mod 16) the first
    case's contents at that point's blocks; elsewhere the second case's, over what this leaves at `n - 1`. -/
def outsAt0 (c : Dev nD) : (n : ℕ) → n < cfg0.N → Vec F S1x1x1 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a point with t ≡ 0 (mod 16): the first case's contents. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: the second case's contents, over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the
    outputs' at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point with t ≢ 0 (mod 16) each output's staging buffer holds what the body left at the point before: the
    point is not the first, and the point before, not being ≡ 15, did not write the block back. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the point is in one of the two cases by its
    residue mod 16; in the second the outputs hold what the point before left; so that case's run applies, and its
    stores, covering the blocks, read back as `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 16 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates,
    and in every final state each staged array holds what the proof data computes and every other unscoped buffer
    what the 46 stretches of the tail leave in it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- After the tail an argument other than the logits holds its launch contents: the tail does not write it, the
    region does not stage it, and the broadcast before the region does not write it. -/
theorem afterTail_arg (c : Dev nD) (b : Ref sig .tc) (hb : b ∈ keptRefs) (hne : ∀ w, Pipeline.arrRef spec0 w ≠ b) (hv : b ≠ main_v0) :
    Pipeline.afterTail₀ cfgs (dats m) 0 (V0 m) tailOpss c b = m ((c : Thread nD τ).loc b) := by
  unfold Pipeline.afterTail₀
  rw [after_tail_kept _ b hb]
  exact (Pipeline.withArrays_of_ne spec0 c (V0 m c) _ b hne).trans (V0_kept m c b hv)

/-- What a run to the region's post gives at the loss and at the eleven arguments: the loss is what the tail
    computes over the region's arrays; the logits, staged as an input, hold their entry contents; every other
    argument bypasses the region and is not written by the tail. -/
theorem post_of (r : PUnit × MemSt nD τ sig (Elt F))
    (h : Pipeline.FramePost cfgs (dats m) 0 (Pipeline.afterTail₀ cfgs (dats m) 0 (V0 m) tailOpss) r) (c : Dev nD) :
    r.2.mem ((c.tc : Thread nD τ).loc main_v157) = Pipeline.afterTail₀ cfgs (dats m) 0 (V0 m) tailOpss c main_v157
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have hr : ∀ b : Ref sig .tc, b.isScoped = false → (∀ w, (spec0 w).arr.view.ref ≠ b) →
      r.2.mem ((c.tc : Thread nD τ).loc b) = Pipeline.afterTail₀ cfgs (dats m) 0 (V0 m) tailOpss c b :=
    fun b hs ha => (h c).2 b (Pipeline.mem_restRefs_of b hs ha)
  have h0 : r.2.mem ((c.tc : Thread nD τ).loc main_arg0) = m ((c.tc : Thread nD τ).loc main_arg0) :=
    ((h c).1 0).trans (((dats m 0 c).arrAt_in 0 rfl _).trans ((A_eq m c 0).trans (V_main_arg0 m c)))
  refine ⟨hr main_v157 rfl (by decide), h0, ?_, ?_, ?_, ?_, ?_, ?_, ?_, ?_, ?_, ?_⟩
  · exact (hr main_arg1 rfl (by decide)).trans (afterTail_arg m c main_arg1 (by decide) (by decide) (by decide))
  · exact (hr main_arg2 rfl (by decide)).trans (afterTail_arg m c main_arg2 (by decide) (by decide) (by decide))
  · exact (hr main_arg3 rfl (by decide)).trans (afterTail_arg m c main_arg3 (by decide) (by decide) (by decide))
  · exact (hr main_arg4 rfl (by decide)).trans (afterTail_arg m c main_arg4 (by decide) (by decide) (by decide))
  · exact (hr main_arg5 rfl (by decide)).trans (afterTail_arg m c main_arg5 (by decide) (by decide) (by decide))
  · exact (hr main_arg6 rfl (by decide)).trans (afterTail_arg m c main_arg6 (by decide) (by decide) (by decide))
  · exact (hr main_arg7 rfl (by decide)).trans (afterTail_arg m c main_arg7 (by decide) (by decide) (by decide))
  · exact (hr main_arg8 rfl (by decide)).trans (afterTail_arg m c main_arg8 (by decide) (by decide) (by decide))
  · exact (hr main_arg9 rfl (by decide)).trans (afterTail_arg m c main_arg9 (by decide) (by decide) (by decide))
  · exact (hr main_arg10 rfl (by decide)).trans (afterTail_arg m c main_arg10 (by decide) (by decide) (by decide))

/-- The frame from a run to the region's post. -/
theorem frame_of
    (h : θ_run defs (onTc (τ := τ) (main (F := F))) (s₀ m ρ) (Pipeline.FramePost cfgs (dats m) 0 (Pipeline.afterTail₀ cfgs (dats m) 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (post_of m r h c).2) h

/-- THE FRAME: the program terminates and its eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (run_main m ρ)

end Cert.Kernel.Hand

end
-- ==== Proof.KI.Kit.lean ====
/- The frame of the kernel program, part one: the vocabulary the later parts are stated over.
   The program is one broadcast (the token ids given a trailing unit axis), then ONE pipelined region
   over a 4 x 16 grid of points t = 16 b + l, then 309 further array operations in 46 stretches.
   The region stages four arrays: the logits (block 1 x 128 x 8192 at (b, l, 0)), the broadcast token
   ids (block 1 x 128 x 1 at (b, l, 0)), and two 4 x 1 x 1 outputs (block 1 x 1 x 1 at (b, 0, 0)) that
   are summed over l: set to zero where l = 0, added to at every l, written back where l = 15. -/
import proofs.«411483_j80101140070992_1_alg».proof.Proof.Gen.KernelIdeal.Launch
import proofs.«411483_j80101140070992_1_alg».proof.Proof.Gen.KernelIdeal.Skeleton
import proofs.«411483_j80101140070992_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The 46 stretches of operations after the region, in order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45]

/-- The buffer contents of core `c` when the region is entered: the launch contents after the one broadcast. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-! ## The blocks of the staged arrays -/

/-- The block of staged array `w` at point `t`, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, whether or not it was fetched there (an unfetched
    block is one whose position did not move), for any proof data with the entry contents as arrays and the
    blocks left in place by the body. The logits: -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the token ids. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- The body's conditional asks whether the second grid coordinate l is zero (as the 32-bit comparison chain
    the body computes it by). -/
abbrev cond0_0 (i : grid0.Coords) : Prop := (Scalar.cmpi .ne (Scalar.extui (Scalar.cmpi .eq (BitVec.ofNat 32 (i 1).val) 0#32)) 0#32) = 1#1
/-- At point t = 16 b + l that is t ≡ 0 (mod 16): checked at each of the 64 points. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of each output, through which its contents are stated (which one does not matter). -/
abbrev VO0_2 : View sig .tc .vmem S1x1x1 .f32 := (Memref.whole cc0_stg2_0 : Memref sig .tc .vmem S1x1x1 .f32).view
abbrev VO0_3 : View sig .tc .vmem S1x1x1 .f32 := (Memref.whole cc0_stg3_0 : Memref sig .tc .vmem S1x1x1 .f32).view
/-- The staging memref each staged array is on at point `t`, and that it is a whole buffer. -/
abbrev ms0_0 (t : Fin cfg0.N) : Memref sig .tc .vmem S1x128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.RunA.lean ====
/- The frame of the kernel program, part two: the body run at a point with l = 0.
   There the body first stores zero into both outputs and then adds the tile's two sums to them, so each
   output ends with two stores, the later covering the earlier. -/
import proofs.«411483_j80101140070992_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as lists of pieces (last first), where the
    condition holds, WITH the proof that on whole staging memrefs — the inputs' at contents `x0`, `x1`, the outputs'
    at anything — the body runs to a continuation holding the inputs' as they were and each output's buffer with its
    pieces written. -/
noncomputable def kernelRun0_A (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__cls_kernel i arg2 harg2 arg3 harg3 arg4 harg4 arg5 harg5) K } := by
  refine ⟨?_, ?_, fun E K => ?run⟩
  case run =>
    simp only [cc0__cls_kernel_eq_skeleton]; unfold cc0__cls_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.RunB.lean ====
/- The frame of the kernel program, part three: the body run at a point with l ≠ 0.
   There the body only adds the tile's two sums to what the outputs hold, which is what the point before left:
   each output ends with one store, over contents `xo2`, `xo3` it has read. -/
import proofs.«411483_j80101140070992_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as lists of pieces (last first), where the
    condition fails, WITH the proof that on whole staging memrefs — the inputs' at contents `x0`, `x1`, the outputs'
    at their running contents `xo2`, `xo3` — the body runs to a continuation holding the inputs' as they were and each
    output's buffer with its pieces written. -/
noncomputable def kernelRun0_B (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__cls_kernel i arg2 harg2 arg3 harg3 arg4 harg4 arg5 harg5) K } := by
  refine ⟨?_, ?_, fun E K => ?run⟩
  case run =>
    simp only [cc0__cls_kernel_eq_skeleton]; unfold cc0__cls_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.TailDefs.lean ====
/- The frame of the kernel program, part four (a): which arrays the operations after the region must leave alone.
   The region stages four arrays and the program has eleven arguments; an operation that writes exactly one array,
   and that array none of these, changes none of them. -/
import proofs.«411483_j80101140070992_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What an operation of the tail writes -/

/-- The arrays the tail must leave alone: the eleven arguments and the three further arrays the region stages. -/
abbrev keptRefs : List (Ref sig .tc) :=
  [main_arg0, main_arg1, main_arg2, main_arg3, main_arg4, main_arg5, main_arg6, main_arg7, main_arg8, main_arg9, main_arg10,
    main_v0, main_v1_0, main_v1_1]

/-- An operation writes exactly one array, and that array is none of `keptRefs`. -/
def WritesOutside (op : HloOp τ sig (Elt F)) : Prop :=
  ∃ y : Ref sig .tc, op.writes = {Proc.devRef (τ := τ) .tc y} ∧ y ∉ keptRefs

theorem WritesOutside.intro (op : HloOp τ sig (Elt F)) (y : Ref sig .tc) (h₁ : op.writes = {Proc.devRef (τ := τ) .tc y})
    (h₂ : y ∉ keptRefs) : WritesOutside op := ⟨y, h₁, h₂⟩

/-- Such an operation writes no array of `keptRefs`: references are told apart before they are device buffers. -/
theorem WritesOutside.not_mem {op : HloOp τ sig (Elt F)} (h : WritesOutside op) {b : Ref sig .tc} (hb : b ∈ keptRefs) :
    Proc.devRef (τ := τ) .tc b ∉ op.writes := by
  obtain ⟨y, hy, hn⟩ := h
  rw [hy, Finset.mem_singleton]
  intro e
  exact hn (Proc.devRef_injective _ e ▸ hb)

/-- The four staged arrays are among `keptRefs`. -/
theorem arr_mem_kept : ∀ w : Fin 4, Pipeline.arrRef spec0 w ∈ keptRefs := by decide

end Cert.KernelIdeal.Hand

end
-- ==== Proof.KI.TailTable.lean ====
/- The frame of the kernel program, part four (b): stretch by stretch, the 46 stretches of operations after the
   region: no operation allocates, and each writes exactly one array, its own result, none of `keptRefs`. -/
import proofs.«411483_j80101140070992_1_alg».proof.Proof.KI.TailDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stretch by stretch -/

theorem hostOps1_ok : (hostOps1 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_1_ok : (hostOps1_1 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_2_ok : (hostOps1_2 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_3_ok : (hostOps1_3 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_4_ok : (hostOps1_4 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_5_ok : (hostOps1_5 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_6_ok : (hostOps1_6 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_7_ok : (hostOps1_7 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_8_ok : (hostOps1_8 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_9_ok : (hostOps1_9 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_10_ok : (hostOps1_10 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_11_ok : (hostOps1_11 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_12_ok : (hostOps1_12 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_13_ok : (hostOps1_13 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_14_ok : (hostOps1_14 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_15_ok : (hostOps1_15 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_16_ok : (hostOps1_16 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_17_ok : (hostOps1_17 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_18_ok : (hostOps1_18 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_19_ok : (hostOps1_19 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_20_ok : (hostOps1_20 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_21_ok : (hostOps1_21 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_22_ok : (hostOps1_22 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_23_ok : (hostOps1_23 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_24_ok : (hostOps1_24 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_25_ok : (hostOps1_25 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_26_ok : (hostOps1_26 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_27_ok : (hostOps1_27 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_28_ok : (hostOps1_28 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_29_ok : (hostOps1_29 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_30_ok : (hostOps1_30 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_31_ok : (hostOps1_31 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_32_ok : (hostOps1_32 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_33_ok : (hostOps1_33 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_34_ok : (hostOps1_34 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_35_ok : (hostOps1_35 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_36_ok : (hostOps1_36 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_37_ok : (hostOps1_37 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_38_ok : (hostOps1_38 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_39_ok : (hostOps1_39 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_40_ok : (hostOps1_40 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_41_ok : (hostOps1_41 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_42_ok : (hostOps1_42 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_43_ok : (hostOps1_43 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_44_ok : (hostOps1_44 : List (HloOp τ sig (Elt F))).Forall fun op => op.fresh = ∅ ∧ WritesOutside op := by
  simp only [List.Forall]
  repeat' refine And.intro ?_ ?_
  all_goals first | rfl | exact WritesOutside.intro _ _ rfl (by decide)
theorem hostOps1_45_ok : (hostOps1_45 : List (HloOp τ sig (Elt F))).Forall fun op => op.fresh = ∅ ∧ WritesOutside op := by
  simp only [List.Forall]
  repeat' refine And.intro ?_ ?_
  all_goals first | rfl | exact WritesOutside.intro _ _ rfl (by decide)

/-! ## Over the list of stretches -/

/-- Every operation after the region allocates nothing and writes one array outside `keptRefs`. -/
theorem tail_ok : ∀ ops ∈ (tailOpss : List (List (HloOp τ sig (Elt F)))), ∀ op ∈ ops, op.fresh = ∅ ∧ WritesOutside op :=
  List.forall_mem_cons.mpr ⟨List.forall_iff_forall_mem.mp hostOps1_ok, List.forall_mem_cons.mpr ⟨List.forall_iff_forall_mem.mp hostOps1_1_ok, List.forall_mem_cons.mpr ⟨List.forall_iff_forall_mem.mp hostOps1_2_ok, List.forall_mem_cons.mpr ⟨List.forall_iff_forall_mem.mp hostOps1_3_ok, List.forall_mem_cons.mpr ⟨List.forall_iff_forall_mem.mp hostOps1_4_ok, List.forall_mem_cons.mpr ⟨List.forall_iff_forall_mem.mp hostOps1_5_ok, List.forall_mem_cons.mpr ⟨List.forall_iff_forall_mem.mp hostOps1_6_ok, List.forall_mem_cons.mpr ⟨List.forall_iff_forall_mem.mp hostOps1_7_ok, List.forall_mem_cons.mpr ⟨List.forall_iff_forall_mem.mp hostOps1_8_ok, List.forall_mem_cons.mpr ⟨List.forall_iff_forall_mem.mp hostOps1_9_ok, List.forall_mem_cons.mpr ⟨List.forall_iff_forall_mem.mp hostOps1_10_ok, List.forall_mem_cons.mpr ⟨List.forall_iff_forall_mem.mp hostOps1_11_ok, List.forall_mem_cons.mpr ⟨List.forall_iff_forall_mem.mp hostOps1_12_ok, List.forall_mem_cons.mpr ⟨List.forall_iff_forall_mem.mp hostOps1_13_ok, List.forall_mem_cons.mpr ⟨List.forall_iff_forall_mem.mp hostOps1_14_ok, List.forall_mem_cons.mpr ⟨List.forall_iff_forall_mem.mp hostOps1_15_ok, List.forall_mem_cons.mpr ⟨List.forall_iff_forall_mem.mp hostOps1_16_ok, List.forall_mem_cons.mpr ⟨List.forall_iff_forall_mem.mp hostOps1_17_ok, List.forall_mem_cons.mpr ⟨List.forall_iff_forall_mem.mp hostOps1_18_ok, List.forall_mem_cons.mpr ⟨List.forall_iff_forall_mem.mp hostOps1_19_ok, List.forall_mem_cons.mpr ⟨List.forall_iff_forall_mem.mp hostOps1_20_ok, List.forall_mem_cons.mpr ⟨List.forall_iff_forall_mem.mp hostOps1_21_ok, List.forall_mem_cons.mpr ⟨List.forall_iff_forall_mem.mp hostOps1_22_ok, List.forall_mem_cons.mpr ⟨List.forall_iff_forall_mem.mp hostOps1_23_ok, List.forall_mem_cons.mpr ⟨List.forall_iff_forall_mem.mp hostOps1_24_ok, List.forall_mem_cons.mpr ⟨List.forall_iff_forall_mem.mp hostOps1_25_ok, List.forall_mem_cons.mpr ⟨List.forall_iff_forall_mem.mp hostOps1_26_ok, List.forall_mem_cons.mpr ⟨List.forall_iff_forall_mem.mp hostOps1_27_ok, List.forall_mem_cons.mpr ⟨List.forall_iff_forall_mem.mp hostOps1_28_ok, List.forall_mem_cons.mpr ⟨List.forall_iff_forall_mem.mp hostOps1_29_ok, List.forall_mem_cons.mpr ⟨List.forall_iff_forall_mem.mp hostOps1_30_ok, List.forall_mem_cons.mpr ⟨List.forall_iff_forall_mem.mp hostOps1_31_ok, List.forall_mem_cons.mpr ⟨List.forall_iff_forall_mem.mp hostOps1_32_ok, List.forall_mem_cons.mpr ⟨List.forall_iff_forall_mem.mp hostOps1_33_ok, List.forall_mem_cons.mpr ⟨List.forall_iff_forall_mem.mp hostOps1_34_ok, List.forall_mem_cons.mpr ⟨List.forall_iff_forall_mem.mp hostOps1_35_ok, List.forall_mem_cons.mpr ⟨List.forall_iff_forall_mem.mp hostOps1_36_ok, List.forall_mem_cons.mpr ⟨List.forall_iff_forall_mem.mp hostOps1_37_ok, List.forall_mem_cons.mpr ⟨List.forall_iff_forall_mem.mp hostOps1_38_ok, List.forall_mem_cons.mpr ⟨List.forall_iff_forall_mem.mp hostOps1_39_ok, List.forall_mem_cons.mpr ⟨List.forall_iff_forall_mem.mp hostOps1_40_ok, List.forall_mem_cons.mpr ⟨List.forall_iff_forall_mem.mp hostOps1_41_ok, List.forall_mem_cons.mpr ⟨List.forall_iff_forall_mem.mp hostOps1_42_ok, List.forall_mem_cons.mpr ⟨List.forall_iff_forall_mem.mp hostOps1_43_ok, List.forall_mem_cons.mpr ⟨List.forall_iff_forall_mem.mp hostOps1_44_ok, List.forall_mem_cons.mpr ⟨List.forall_iff_forall_mem.mp hostOps1_45_ok, fun _ h => nomatch h⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-- Every operation after the region touches TensorCore references only. -/
theorem tail_sub : ∀ ops ∈ (tailOpss : List (List (HloOp τ sig (Elt F)))), ∀ op ∈ ops, op.bufs ⊆ StableHlo.tcRefs τ sig :=
  List.forall_mem_cons.mpr ⟨List.forall_iff_forall_mem.mp hostOps1_sub, List.forall_mem_cons.mpr ⟨List.forall_iff_forall_mem.mp hostOps1_1_sub, List.forall_mem_cons.mpr ⟨List.forall_iff_forall_mem.mp hostOps1_2_sub, List.forall_mem_cons.mpr ⟨List.forall_iff_forall_mem.mp hostOps1_3_sub, List.forall_mem_cons.mpr ⟨List.forall_iff_forall_mem.mp hostOps1_4_sub, List.forall_mem_cons.mpr ⟨List.forall_iff_forall_mem.mp hostOps1_5_sub, List.forall_mem_cons.mpr ⟨List.forall_iff_forall_mem.mp hostOps1_6_sub, List.forall_mem_cons.mpr ⟨List.forall_iff_forall_mem.mp hostOps1_7_sub, List.forall_mem_cons.mpr ⟨List.forall_iff_forall_mem.mp hostOps1_8_sub, List.forall_mem_cons.mpr ⟨List.forall_iff_forall_mem.mp hostOps1_9_sub, List.forall_mem_cons.mpr ⟨List.forall_iff_forall_mem.mp hostOps1_10_sub, List.forall_mem_cons.mpr ⟨List.forall_iff_forall_mem.mp hostOps1_11_sub, List.forall_mem_cons.mpr ⟨List.forall_iff_forall_mem.mp hostOps1_12_sub, List.forall_mem_cons.mpr ⟨List.forall_iff_forall_mem.mp hostOps1_13_sub, List.forall_mem_cons.mpr ⟨List.forall_iff_forall_mem.mp hostOps1_14_sub, List.forall_mem_cons.mpr ⟨List.forall_iff_forall_mem.mp hostOps1_15_sub, List.forall_mem_cons.mpr ⟨List.forall_iff_forall_mem.mp hostOps1_16_sub, List.forall_mem_cons.mpr ⟨List.forall_iff_forall_mem.mp hostOps1_17_sub, List.forall_mem_cons.mpr ⟨List.forall_iff_forall_mem.mp hostOps1_18_sub, List.forall_mem_cons.mpr ⟨List.forall_iff_forall_mem.mp hostOps1_19_sub, List.forall_mem_cons.mpr ⟨List.forall_iff_forall_mem.mp hostOps1_20_sub, List.forall_mem_cons.mpr ⟨List.forall_iff_forall_mem.mp hostOps1_21_sub, List.forall_mem_cons.mpr ⟨List.forall_iff_forall_mem.mp hostOps1_22_sub, List.forall_mem_cons.mpr ⟨List.forall_iff_forall_mem.mp hostOps1_23_sub, List.forall_mem_cons.mpr ⟨List.forall_iff_forall_mem.mp hostOps1_24_sub, List.forall_mem_cons.mpr ⟨List.forall_iff_forall_mem.mp hostOps1_25_sub, List.forall_mem_cons.mpr ⟨List.forall_iff_forall_mem.mp hostOps1_26_sub, List.forall_mem_cons.mpr ⟨List.forall_iff_forall_mem.mp hostOps1_27_sub, List.forall_mem_cons.mpr ⟨List.forall_iff_forall_mem.mp hostOps1_28_sub, List.forall_mem_cons.mpr ⟨List.forall_iff_forall_mem.mp hostOps1_29_sub, List.forall_mem_cons.mpr ⟨List.forall_iff_forall_mem.mp hostOps1_30_sub, List.forall_mem_cons.mpr ⟨List.forall_iff_forall_mem.mp hostOps1_31_sub, List.forall_mem_cons.mpr ⟨List.forall_iff_forall_mem.mp hostOps1_32_sub, List.forall_mem_cons.mpr ⟨List.forall_iff_forall_mem.mp hostOps1_33_sub, List.forall_mem_cons.mpr ⟨List.forall_iff_forall_mem.mp hostOps1_34_sub, List.forall_mem_cons.mpr ⟨List.forall_iff_forall_mem.mp hostOps1_35_sub, List.forall_mem_cons.mpr ⟨List.forall_iff_forall_mem.mp hostOps1_36_sub, List.forall_mem_cons.mpr ⟨List.forall_iff_forall_mem.mp hostOps1_37_sub, List.forall_mem_cons.mpr ⟨List.forall_iff_forall_mem.mp hostOps1_38_sub, List.forall_mem_cons.mpr ⟨List.forall_iff_forall_mem.mp hostOps1_39_sub, List.forall_mem_cons.mpr ⟨List.forall_iff_forall_mem.mp hostOps1_40_sub, List.forall_mem_cons.mpr ⟨List.forall_iff_forall_mem.mp hostOps1_41_sub, List.forall_mem_cons.mpr ⟨List.forall_iff_forall_mem.mp hostOps1_42_sub, List.forall_mem_cons.mpr ⟨List.forall_iff_forall_mem.mp hostOps1_43_sub, List.forall_mem_cons.mpr ⟨List.forall_iff_forall_mem.mp hostOps1_44_sub, List.forall_mem_cons.mpr ⟨List.forall_iff_forall_mem.mp hostOps1_45_sub, fun _ h => nomatch h⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.KernelIdeal.Hand

end
-- ==== Proof.KI.Tail.lean ====
/- The frame of the kernel program, part four (c): the operations around the region.
   Before it, one broadcast writes the token ids with a trailing unit axis into a fresh array and nothing else.
   After it, 309 operations in 46 stretches each write exactly one array, their own result, which is never one
   of the program's eleven arguments nor one of the four arrays the region stages; and none allocates. So the
   region's arrays and the arguments pass through the tail as the region left them. -/
import proofs.«411483_j80101140070992_1_alg».proof.Proof.KI.TailTable

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tail as a whole -/

/-- The operations after the region touch the staged arrays and the arrays that bypass the region only (with
    nothing prefetched, every unscoped reference is one or the other). -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (tail_sub ops hops op hop)
/-- They allocate nothing. -/
theorem sfx_fresh : ∀ ops ∈ (tailOpss : List (List (HloOp τ sig (Elt F)))), ∀ op ∈ ops, op.fresh = ∅ :=
  fun ops hops op hop => (tail_ok ops hops op hop).1
/-- And they write no staged array. -/
theorem sfx_keeps : ∀ ops ∈ (tailOpss : List (List (HloOp τ sig (Elt F)))), ∀ op ∈ ops,
    ∀ w, Proc.devRef .tc (Pipeline.arrRef spec0 w) ∉ op.writes :=
  fun ops hops op hop w => (tail_ok ops hops op hop).2.not_mem (arr_mem_kept w)

/-- An array of `keptRefs` holds after the tail what it held before it, from any contents. -/
theorem after_tail_kept (W : Valuation τ sig (Elt F)) (b : Ref sig .tc) (hb : b ∈ keptRefs) :
    StableHlo.after (tailOpss (F := F)).flatten W (Proc.devRef .tc b) = W (Proc.devRef .tc b) :=
  StableHlo.after_of_forall_not_mem _ W fun op hop => by
    obtain ⟨ops, hops, hop'⟩ := List.mem_flatten.mp hop
    exact (tail_ok ops hops op hop').2.not_mem hb

/-! ## The program around the region -/

/-- The program is the broadcast, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; repeat' constructor) main_chain

/-- The broadcast writes only its own result, so each argument enters the region as launched. -/
theorem V0_kept (c : Dev nD) (b : Ref sig .tc) (hb : b ≠ main_v0) : V m c b = m ((c : Thread nD τ).loc b) :=
  StableHlo.after_of_forall_not_mem _ _ fun op hop => by
    simp only [List.flatten_cons, List.flatten_nil, List.append_nil, List.mem_cons, List.mem_nil_iff, or_false] at hop
    subst hop
    rw [StableHlo.unary_writes, Finset.mem_singleton]
    exact StableHlo.devRef_ne_of_ne hb

theorem V_main_arg0 (c : Dev nD) : V m c main_arg0 = m ((c : Thread nD τ).loc main_arg0) := V0_kept m c main_arg0 (by decide)
theorem V_main_arg1 (c : Dev nD) : V m c main_arg1 = m ((c : Thread nD τ).loc main_arg1) := V0_kept m c main_arg1 (by decide)
theorem V_main_arg2 (c : Dev nD) : V m c main_arg2 = m ((c : Thread nD τ).loc main_arg2) := V0_kept m c main_arg2 (by decide)
theorem V_main_arg3 (c : Dev nD) : V m c main_arg3 = m ((c : Thread nD τ).loc main_arg3) := V0_kept m c main_arg3 (by decide)
theorem V_main_arg4 (c : Dev nD) : V m c main_arg4 = m ((c : Thread nD τ).loc main_arg4) := V0_kept m c main_arg4 (by decide)
theorem V_main_arg5 (c : Dev nD) : V m c main_arg5 = m ((c : Thread nD τ).loc main_arg5) := V0_kept m c main_arg5 (by decide)
theorem V_main_arg6 (c : Dev nD) : V m c main_arg6 = m ((c : Thread nD τ).loc main_arg6) := V0_kept m c main_arg6 (by decide)
theorem V_main_arg7 (c : Dev nD) : V m c main_arg7 = m ((c : Thread nD τ).loc main_arg7) := V0_kept m c main_arg7 (by decide)
theorem V_main_arg8 (c : Dev nD) : V m c main_arg8 = m ((c : Thread nD τ).loc main_arg8) := V0_kept m c main_arg8 (by decide)
theorem V_main_arg9 (c : Dev nD) : V m c main_arg9 = m ((c : Thread nD τ).loc main_arg9) := V0_kept m c main_arg9 (by decide)
theorem V_main_arg10 (c : Dev nD) : V m c main_arg10 = m ((c : Thread nD τ).loc main_arg10) := V0_kept m c main_arg10 (by decide)

end Cert.KernelIdeal.Hand

end
-- ==== Proof.KI.Frame.lean ====
/- The frame of the kernel program, part five: the accumulation over the points, the region's run, the frame.
   Each of the two outputs has one 1 x 1 x 1 block per batch row b, visited at the sixteen points t = 16 b + l.
   Where l = 0 the body's stores (zero, then zero plus the tile's sum) cover the block; elsewhere its one store
   (what the point before left plus the tile's sum) covers it. The block is written back to its array only where
   l = 15, so between the points of one row the staging buffer carries the running sum. -/
import proofs.«411483_j80101140070992_1_alg».proof.Proof.KI.RunB
import proofs.«411483_j80101140070992_1_alg».proof.Proof.KI.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover the outputs' blocks -/

theorem cover0_A_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y

theorem cover0_A_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) (y : S1x1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1.size (by sl_kernel_rfl) y

theorem cover0_B_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1x1.size (by sl_kernel_rfl) y

theorem cover0_B_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1.size (by sl_kernel_rfl) y

/-! ## What each case leaves in the outputs' staging buffers: its stores read back -/

def out0_A_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) : Vec F S1x1x1 .f32 :=
  VO0_2.read (Elt F) (VO0_2.writes (Elt F) VO0_2.junk (kernelRun0_A c i arg2 harg2 arg3 harg3 arg4 harg4 arg5 harg5 hc0 x0 x1).1)

def out0_A_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) : Vec F S1x1x1 .f32 :=
  VO0_3.read (Elt F) (VO0_3.writes (Elt F) VO0_3.junk (kernelRun0_A c i arg2 harg2 arg3 harg3 arg4 harg4 arg5 harg5 hc0 x0 x1).2.1)

def out0_B_2 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) : Vec F S1x1x1 .f32 :=
  VO0_2.read (Elt F) (VO0_2.writes (Elt F) VO0_2.junk (kernelRun0_B c i arg2 harg2 arg3 harg3 arg4 harg4 arg5 harg5 hc0 x0 x1 xo2 xo3).1)

def out0_B_3 (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the two outputs' staging buffers hold after the body at position `n`: where n ≡ 0 (mod 16) the first
    case's contents at that point's blocks; elsewhere the second case's, over what this leaves at `n - 1`. -/
def outsAt0 (c : Dev nD) : (n : ℕ) → n < cfg0.N → Vec F S1x1x1 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a point with t ≡ 0 (mod 16): the first case's contents. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: the second case's contents, over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the
    outputs' at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point with t ≢ 0 (mod 16) each output's staging buffer holds what the body left at the point before: the
    point is not the first, and the point before, not being ≡ 15, did not write the block back. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the point is in one of the two cases by its
    residue mod 16; in the second the outputs hold what the point before left; so that case's run applies, and its
    stores, covering the blocks, read back as `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 16 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates,
    and in every final state each staged array holds what the proof data computes and every other unscoped buffer
    what the 46 stretches of the tail leave in it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- After the tail an argument other than the logits holds its launch contents: the tail does not write it, the
    region does not stage it, and the broadcast before the region does not write it. -/
theorem afterTail_arg (c : Dev nD) (b : Ref sig .tc) (hb : b ∈ keptRefs) (hne : ∀ w, Pipeline.arrRef spec0 w ≠ b) (hv : b ≠ main_v0) :
    Pipeline.afterTail₀ cfgs (dats m) 0 (V0 m) tailOpss c b = m ((c : Thread nD τ).loc b) := by
  unfold Pipeline.afterTail₀
  rw [after_tail_kept _ b hb]
  exact (Pipeline.withArrays_of_ne spec0 c (V0 m c) _ b hne).trans (V0_kept m c b hv)

/-- What a run to the region's post gives at the loss and at the eleven arguments: the loss is what the tail
    computes over the region's arrays; the logits, staged as an input, hold their entry contents; every other
    argument bypasses the region and is not written by the tail. -/
theorem post_of (r : PUnit × MemSt nD τ sig (Elt F))
    (h : Pipeline.FramePost cfgs (dats m) 0 (Pipeline.afterTail₀ cfgs (dats m) 0 (V0 m) tailOpss) r) (c : Dev nD) :
    r.2.mem ((c.tc : Thread nD τ).loc main_v157) = Pipeline.afterTail₀ cfgs (dats m) 0 (V0 m) tailOpss c main_v157
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have hr : ∀ b : Ref sig .tc, b.isScoped = false → (∀ w, (spec0 w).arr.view.ref ≠ b) →
      r.2.mem ((c.tc : Thread nD τ).loc b) = Pipeline.afterTail₀ cfgs (dats m) 0 (V0 m) tailOpss c b :=
    fun b hs ha => (h c).2 b (Pipeline.mem_restRefs_of b hs ha)
  have h0 : r.2.mem ((c.tc : Thread nD τ).loc main_arg0) = m ((c.tc : Thread nD τ).loc main_arg0) :=
    ((h c).1 0).trans (((dats m 0 c).arrAt_in 0 rfl _).trans ((A_eq m c 0).trans (V_main_arg0 m c)))
  refine ⟨hr main_v157 rfl (by decide), h0, ?_, ?_, ?_, ?_, ?_, ?_, ?_, ?_, ?_, ?_⟩
  · exact (hr main_arg1 rfl (by decide)).trans (afterTail_arg m c main_arg1 (by decide) (by decide) (by decide))
  · exact (hr main_arg2 rfl (by decide)).trans (afterTail_arg m c main_arg2 (by decide) (by decide) (by decide))
  · exact (hr main_arg3 rfl (by decide)).trans (afterTail_arg m c main_arg3 (by decide) (by decide) (by decide))
  · exact (hr main_arg4 rfl (by decide)).trans (afterTail_arg m c main_arg4 (by decide) (by decide) (by decide))
  · exact (hr main_arg5 rfl (by decide)).trans (afterTail_arg m c main_arg5 (by decide) (by decide) (by decide))
  · exact (hr main_arg6 rfl (by decide)).trans (afterTail_arg m c main_arg6 (by decide) (by decide) (by decide))
  · exact (hr main_arg7 rfl (by decide)).trans (afterTail_arg m c main_arg7 (by decide) (by decide) (by decide))
  · exact (hr main_arg8 rfl (by decide)).trans (afterTail_arg m c main_arg8 (by decide) (by decide) (by decide))
  · exact (hr main_arg9 rfl (by decide)).trans (afterTail_arg m c main_arg9 (by decide) (by decide) (by decide))
  · exact (hr main_arg10 rfl (by decide)).trans (afterTail_arg m c main_arg10 (by decide) (by decide) (by decide))

/-- The frame from a run to the region's post. -/
theorem frame_of
    (h : θ_run defs (onTc (τ := τ) (main (F := F))) (s₀ m ρ) (Pipeline.FramePost cfgs (dats m) 0 (Pipeline.afterTail₀ cfgs (dats m) 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (post_of m r h c).2) h

/-- THE FRAME: the program terminates and its eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (run_main m ρ)

end Cert.KernelIdeal.Hand

end
-- ==== Proof.LibChainSeq.lean ====
/-
  A program that is a chain of straight lines of host operations is the straight line of their concatenation:
  running the lines one after the other is running all their operations in order.
-/
import Idealize.ShloMosaic.Lib.Pipeline.Regions
import Idealize.ShloMosaic.Lib.StableHlo.Run

namespace Idealize.ShloMosaic.Pipeline

open Idealize.ShloMosaic Idealize.SL.Sem

variable {nD : Nat} {τ : Topo} {sig : RefSig} {Val : EltTy → Type} {Λ : Labels}

/-- The chain of the lines' programs is the program of the lines' concatenation (by induction on the list of lines:
    a line followed by the rest is the line's operations followed by the rest's). -/
theorem chain_map_seq (opss : List (List (HloOp τ sig Val))) :
    (chain (opss.map fun ops => (StableHlo.seq ops : Prog (TpuEff nD τ sig Val Λ .tc) PUnit)))
      = StableHlo.seq opss.flatten := by
  induction opss with
  | nil => rfl
  | cons ops opss ih => rw [List.map_cons, chain_cons, List.flatten_cons, StableHlo.seq_append, ih]

/-- Every operation of every line satisfies a property as soon as every line does, operation by operation. -/
theorem forall_flatten {α : Type} {p : α → Prop} (ls : List (List α)) (h : ∀ l ∈ ls, l.Forall p) : ls.flatten.Forall p := by
  rw [List.forall_iff_forall_mem]
  intro x hx
  obtain ⟨l, hl, hxl⟩ := List.mem_flatten.mp hx
  exact (List.forall_iff_forall_mem.mp (h l hl)) x hxl

end Idealize.ShloMosaic.Pipeline
-- ==== Proof.RefRun.lean ====
/-
  The reference program is one straight line of host operations: its run terminates with every buffer at the fold of
  the operations' results over the launch contents, and no operation writes an argument.
-/
import proofs.«411483_j80101140070992_1_alg».proof.Proof.RefChain
import proofs.«411483_j80101140070992_1_alg».proof.Proof.LibChainSeq
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The stretches up to the first loss, the broadcast mask and the masking constant. -/
abbrev headOpss : List (List (HloOp τ sig (Elt F))) := [hostOps0, hostOps0_1, hostOps0_2, hostOps0_3, hostOps0_4]
/-- The stretches of the four other losses and of the weighted sum. -/
abbrev restOpss : List (List (HloOp τ sig (Elt F))) := [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49]

/-- The program is the straight line of all the stretches' operations, in order. -/
theorem main_eq (c : Dev nD) : main (F := F) c = StableHlo.seq (headOpss ++ restOpss).flatten :=
  (main_chain c).trans (Eq.trans (by rfl) (Pipeline.chain_map_seq (headOpss ++ restOpss)))

/-! ## No operation allocates: each determines its results -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor

/-! ## No operation writes an argument: each writes its own result, which is no argument -/

/-- The program's arguments. -/
abbrev args : List (Ref sig .tc) := [main_arg0, main_arg1, main_arg2, main_arg3, main_arg4, main_arg5, main_arg6, main_arg7, main_arg8, main_arg9, main_arg10]

/-- Operation by operation: the one reference written is decided distinct from each argument. -/
local macro "keeps_stretch" : tactic =>
  `(tactic| (simp only [List.Forall]; repeat' constructor
             all_goals (
               intro b hb
               simp only [nullary_writes, unary_writes, binary_writes, ternary_writes, quaternary_writes, reshape_writes,
                 binaryIndexed_writes, nary_writes, unaryIndexed_writes, Finset.mem_singleton]
               exact devRef_ne_of_ne (by revert b; decide))))

theorem hostOps0_keeps : (hostOps0 : List (HloOp τ sig (Elt F))).Forall fun op => ∀ b ∈ args, Proc.devRef (τ := τ) .tc b ∉ op.writes := by
  keeps_stretch
theorem hostOps0_1_keeps : (hostOps0_1 : List (HloOp τ sig (Elt F))).Forall fun op => ∀ b ∈ args, Proc.devRef (τ := τ) .tc b ∉ op.writes := by
  keeps_stretch
theorem hostOps0_2_keeps : (hostOps0_2 : List (HloOp τ sig (Elt F))).Forall fun op => ∀ b ∈ args, Proc.devRef (τ := τ) .tc b ∉ op.writes := by
  keeps_stretch
theorem hostOps0_3_keeps : (hostOps0_3 : List (HloOp τ sig (Elt F))).Forall fun op => ∀ b ∈ args, Proc.devRef (τ := τ) .tc b ∉ op.writes := by
  keeps_stretch
theorem hostOps0_4_keeps : (hostOps0_4 : List (HloOp τ sig (Elt F))).Forall fun op => ∀ b ∈ args, Proc.devRef (τ := τ) .tc b ∉ op.writes := by
  keeps_stretch
theorem hostOps0_5_keeps : (hostOps0_5 : List (HloOp τ sig (Elt F))).Forall fun op => ∀ b ∈ args, Proc.devRef (τ := τ) .tc b ∉ op.writes := by
  keeps_stretch
theorem hostOps0_6_keeps : (hostOps0_6 : List (HloOp τ sig (Elt F))).Forall fun op => ∀ b ∈ args, Proc.devRef (τ := τ) .tc b ∉ op.writes := by
  keeps_stretch
theorem hostOps0_7_keeps : (hostOps0_7 : List (HloOp τ sig (Elt F))).Forall fun op => ∀ b ∈ args, Proc.devRef (τ := τ) .tc b ∉ op.writes := by
  keeps_stretch
theorem hostOps0_8_keeps : (hostOps0_8 : List (HloOp τ sig (Elt F))).Forall fun op => ∀ b ∈ args, Proc.devRef (τ := τ) .tc b ∉ op.writes := by
  keeps_stretch
theorem hostOps0_9_keeps : (hostOps0_9 : List (HloOp τ sig (Elt F))).Forall fun op => ∀ b ∈ args, Proc.devRef (τ := τ) .tc b ∉ op.writes := by
  keeps_stretch
theorem hostOps0_10_keeps : (hostOps0_10 : List (HloOp τ sig (Elt F))).Forall fun op => ∀ b ∈ args, Proc.devRef (τ := τ) .tc b ∉ op.writes := by
  keeps_stretch
theorem hostOps0_11_keeps : (hostOps0_11 : List (HloOp τ sig (Elt F))).Forall fun op => ∀ b ∈ args, Proc.devRef (τ := τ) .tc b ∉ op.writes := by
  keeps_stretch
theorem hostOps0_12_keeps : (hostOps0_12 : List (HloOp τ sig (Elt F))).Forall fun op => ∀ b ∈ args, Proc.devRef (τ := τ) .tc b ∉ op.writes := by
  keeps_stretch
theorem hostOps0_13_keeps : (hostOps0_13 : List (HloOp τ sig (Elt F))).Forall fun op => ∀ b ∈ args, Proc.devRef (τ := τ) .tc b ∉ op.writes := by
  keeps_stretch
theorem hostOps0_14_keeps : (hostOps0_14 : List (HloOp τ sig (Elt F))).Forall fun op => ∀ b ∈ args, Proc.devRef (τ := τ) .tc b ∉ op.writes := by
  keeps_stretch
theorem hostOps0_15_keeps : (hostOps0_15 : List (HloOp τ sig (Elt F))).Forall fun op => ∀ b ∈ args, Proc.devRef (τ := τ) .tc b ∉ op.writes := by
  keeps_stretch
theorem hostOps0_16_keeps : (hostOps0_16 : List (HloOp τ sig (Elt F))).Forall fun op => ∀ b ∈ args, Proc.devRef (τ := τ) .tc b ∉ op.writes := by
  keeps_stretch
theorem hostOps0_17_keeps : (hostOps0_17 : List (HloOp τ sig (Elt F))).Forall fun op => ∀ b ∈ args, Proc.devRef (τ := τ) .tc b ∉ op.writes := by
  keeps_stretch
theorem hostOps0_18_keeps : (hostOps0_18 : List (HloOp τ sig (Elt F))).Forall fun op => ∀ b ∈ args, Proc.devRef (τ := τ) .tc b ∉ op.writes := by
  keeps_stretch
theorem hostOps0_19_keeps : (hostOps0_19 : List (HloOp τ sig (Elt F))).Forall fun op => ∀ b ∈ args, Proc.devRef (τ := τ) .tc b ∉ op.writes := by
  keeps_stretch
theorem hostOps0_20_keeps : (hostOps0_20 : List (HloOp τ sig (Elt F))).Forall fun op => ∀ b ∈ args, Proc.devRef (τ := τ) .tc b ∉ op.writes := by
  keeps_stretch
theorem hostOps0_21_keeps : (hostOps0_21 : List (HloOp τ sig (Elt F))).Forall fun op => ∀ b ∈ args, Proc.devRef (τ := τ) .tc b ∉ op.writes := by
  keeps_stretch
theorem hostOps0_22_keeps : (hostOps0_22 : List (HloOp τ sig (Elt F))).Forall fun op => ∀ b ∈ args, Proc.devRef (τ := τ) .tc b ∉ op.writes := by
  keeps_stretch
theorem hostOps0_23_keeps : (hostOps0_23 : List (HloOp τ sig (Elt F))).Forall fun op => ∀ b ∈ args, Proc.devRef (τ := τ) .tc b ∉ op.writes := by
  keeps_stretch
theorem hostOps0_24_keeps : (hostOps0_24 : List (HloOp τ sig (Elt F))).Forall fun op => ∀ b ∈ args, Proc.devRef (τ := τ) .tc b ∉ op.writes := by
  keeps_stretch
theorem hostOps0_25_keeps : (hostOps0_25 : List (HloOp τ sig (Elt F))).Forall fun op => ∀ b ∈ args, Proc.devRef (τ := τ) .tc b ∉ op.writes := by
  keeps_stretch
theorem hostOps0_26_keeps : (hostOps0_26 : List (HloOp τ sig (Elt F))).Forall fun op => ∀ b ∈ args, Proc.devRef (τ := τ) .tc b ∉ op.writes := by
  keeps_stretch
theorem hostOps0_27_keeps : (hostOps0_27 : List (HloOp τ sig (Elt F))).Forall fun op => ∀ b ∈ args, Proc.devRef (τ := τ) .tc b ∉ op.writes := by
  keeps_stretch
theorem hostOps0_28_keeps : (hostOps0_28 : List (HloOp τ sig (Elt F))).Forall fun op => ∀ b ∈ args, Proc.devRef (τ := τ) .tc b ∉ op.writes := by
  keeps_stretch
theorem hostOps0_29_keeps : (hostOps0_29 : List (HloOp τ sig (Elt F))).Forall fun op => ∀ b ∈ args, Proc.devRef (τ := τ) .tc b ∉ op.writes := by
  keeps_stretch
theorem hostOps0_30_keeps : (hostOps0_30 : List (HloOp τ sig (Elt F))).Forall fun op => ∀ b ∈ args, Proc.devRef (τ := τ) .tc b ∉ op.writes := by
  keeps_stretch
theorem hostOps0_31_keeps : (hostOps0_31 : List (HloOp τ sig (Elt F))).Forall fun op => ∀ b ∈ args, Proc.devRef (τ := τ) .tc b ∉ op.writes := by
  keeps_stretch
theorem hostOps0_32_keeps : (hostOps0_32 : List (HloOp τ sig (Elt F))).Forall fun op => ∀ b ∈ args, Proc.devRef (τ := τ) .tc b ∉ op.writes := by
  keeps_stretch
theorem hostOps0_33_keeps : (hostOps0_33 : List (HloOp τ sig (Elt F))).Forall fun op => ∀ b ∈ args, Proc.devRef (τ := τ) .tc b ∉ op.writes := by
  keeps_stretch
theorem hostOps0_34_keeps : (hostOps0_34 : List (HloOp τ sig (Elt F))).Forall fun op => ∀ b ∈ args, Proc.devRef (τ := τ) .tc b ∉ op.writes := by
  keeps_stretch
theorem hostOps0_35_keeps : (hostOps0_35 : List (HloOp τ sig (Elt F))).Forall fun op => ∀ b ∈ args, Proc.devRef (τ := τ) .tc b ∉ op.writes := by
  keeps_stretch
theorem hostOps0_36_keeps : (hostOps0_36 : List (HloOp τ sig (Elt F))).Forall fun op => ∀ b ∈ args, Proc.devRef (τ := τ) .tc b ∉ op.writes := by
  keeps_stretch
theorem hostOps0_37_keeps : (hostOps0_37 : List (HloOp τ sig (Elt F))).Forall fun op => ∀ b ∈ args, Proc.devRef (τ := τ) .tc b ∉ op.writes := by
  keeps_stretch
theorem hostOps0_38_keeps : (hostOps0_38 : List (HloOp τ sig (Elt F))).Forall fun op => ∀ b ∈ args, Proc.devRef (τ := τ) .tc b ∉ op.writes := by
  keeps_stretch
theorem hostOps0_39_keeps : (hostOps0_39 : List (HloOp τ sig (Elt F))).Forall fun op => ∀ b ∈ args, Proc.devRef (τ := τ) .tc b ∉ op.writes := by
  keeps_stretch
theorem hostOps0_40_keeps : (hostOps0_40 : List (HloOp τ sig (Elt F))).Forall fun op => ∀ b ∈ args, Proc.devRef (τ := τ) .tc b ∉ op.writes := by
  keeps_stretch
theorem hostOps0_41_keeps : (hostOps0_41 : List (HloOp τ sig (Elt F))).Forall fun op => ∀ b ∈ args, Proc.devRef (τ := τ) .tc b ∉ op.writes := by
  keeps_stretch
theorem hostOps0_42_keeps : (hostOps0_42 : List (HloOp τ sig (Elt F))).Forall fun op => ∀ b ∈ args, Proc.devRef (τ := τ) .tc b ∉ op.writes := by
  keeps_stretch
theorem hostOps0_43_keeps : (hostOps0_43 : List (HloOp τ sig (Elt F))).Forall fun op => ∀ b ∈ args, Proc.devRef (τ := τ) .tc b ∉ op.writes := by
  keeps_stretch
theorem hostOps0_44_keeps : (hostOps0_44 : List (HloOp τ sig (Elt F))).Forall fun op => ∀ b ∈ args, Proc.devRef (τ := τ) .tc b ∉ op.writes := by
  keeps_stretch
theorem hostOps0_45_keeps : (hostOps0_45 : List (HloOp τ sig (Elt F))).Forall fun op => ∀ b ∈ args, Proc.devRef (τ := τ) .tc b ∉ op.writes := by
  keeps_stretch
theorem hostOps0_46_keeps : (hostOps0_46 : List (HloOp τ sig (Elt F))).Forall fun op => ∀ b ∈ args, Proc.devRef (τ := τ) .tc b ∉ op.writes := by
  keeps_stretch
theorem hostOps0_47_keeps : (hostOps0_47 : List (HloOp τ sig (Elt F))).Forall fun op => ∀ b ∈ args, Proc.devRef (τ := τ) .tc b ∉ op.writes := by
  keeps_stretch
theorem hostOps0_48_keeps : (hostOps0_48 : List (HloOp τ sig (Elt F))).Forall fun op => ∀ b ∈ args, Proc.devRef (τ := τ) .tc b ∉ op.writes := by
  keeps_stretch
theorem hostOps0_49_keeps : (hostOps0_49 : List (HloOp τ sig (Elt F))).Forall fun op => ∀ b ∈ args, Proc.devRef (τ := τ) .tc b ∉ op.writes := by
  keeps_stretch

/-! ## Stretch by stretch, then for the whole line -/

theorem head_sub : ∀ l ∈ (headOpss : List (List (HloOp τ sig (Elt F)))), l.Forall fun op => op.bufs ⊆ tcRefs τ sig :=
  List.forall_iff_forall_mem.mp (⟨hostOps0_sub, hostOps0_1_sub, hostOps0_2_sub, hostOps0_3_sub, hostOps0_4_sub⟩ : (headOpss : List (List (HloOp τ sig (Elt F)))).Forall _)
theorem rest_sub : ∀ l ∈ (restOpss : List (List (HloOp τ sig (Elt F)))), l.Forall fun op => op.bufs ⊆ tcRefs τ sig :=
  List.forall_iff_forall_mem.mp (⟨hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub⟩ : (restOpss : List (List (HloOp τ sig (Elt F)))).Forall _)
theorem head_fresh : ∀ l ∈ (headOpss : List (List (HloOp τ sig (Elt F)))), l.Forall fun op => op.fresh = ∅ :=
  List.forall_iff_forall_mem.mp (⟨hostOps0_fresh, hostOps0_1_fresh, hostOps0_2_fresh, hostOps0_3_fresh, hostOps0_4_fresh⟩ : (headOpss : List (List (HloOp τ sig (Elt F)))).Forall _)
theorem rest_fresh : ∀ l ∈ (restOpss : List (List (HloOp τ sig (Elt F)))), l.Forall fun op => op.fresh = ∅ :=
  List.forall_iff_forall_mem.mp (⟨hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh⟩ : (restOpss : List (List (HloOp τ sig (Elt F)))).Forall _)

/-- Every operation of the line touches TensorCore references only. -/
theorem ops_sub : ((headOpss ++ restOpss).flatten : List (HloOp τ sig (Elt F))).Forall fun op => op.bufs ⊆ tcRefs τ sig :=
  Pipeline.forall_flatten _ fun l hl => (List.mem_append.mp hl).elim (head_sub l) (rest_sub l)
/-- Every operation of the line determines its results. -/
theorem ops_fresh : ∀ op ∈ ((headOpss ++ restOpss).flatten : List (HloOp τ sig (Elt F))), op.fresh = ∅ :=
  List.forall_iff_forall_mem.mp (Pipeline.forall_flatten _ fun l hl => (List.mem_append.mp hl).elim (head_fresh l) (rest_fresh l))

theorem head_keeps : ∀ l ∈ (headOpss : List (List (HloOp τ sig (Elt F)))), l.Forall fun op => ∀ b ∈ args, Proc.devRef (τ := τ) .tc b ∉ op.writes :=
  List.forall_iff_forall_mem.mp (⟨hostOps0_keeps, hostOps0_1_keeps, hostOps0_2_keeps, hostOps0_3_keeps, hostOps0_4_keeps⟩ : (headOpss : List (List (HloOp τ sig (Elt F)))).Forall _)
theorem rest_keeps : ∀ l ∈ (restOpss : List (List (HloOp τ sig (Elt F)))), l.Forall fun op => ∀ b ∈ args, Proc.devRef (τ := τ) .tc b ∉ op.writes :=
  List.forall_iff_forall_mem.mp (⟨hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps⟩ : (restOpss : List (List (HloOp τ sig (Elt F)))).Forall _)
/-- No operation of the line writes an argument. -/
theorem ops_keeps : ∀ op ∈ ((headOpss ++ restOpss).flatten : List (HloOp τ sig (Elt F))), ∀ b ∈ args, Proc.devRef (τ := τ) .tc b ∉ op.writes :=
  List.forall_iff_forall_mem.mp (Pipeline.forall_flatten _ fun l hl => (List.mem_append.mp hl).elim (head_keeps l) (rest_keeps l))

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution terminates, each TensorCore buffer at the fold of the
    line's results over its launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after (headOpss ++ restOpss).flatten (StableHlo.launchContents m d) (Proc.devRef .tc b) :=
  run_seq scopedRefs_eq scopedSems_eq defs main (fun _ => (headOpss ++ restOpss).flatten) main_eq (fun _ => ops_sub) m ρ
    (fun _ => ops_fresh)

/-- The line writes no argument: an argument's contents after it are its contents before. -/
theorem kept (W : Valuation τ sig (Elt F)) (b : Ref sig .tc) (hb : b ∈ [main_arg0, main_arg1, main_arg2, main_arg3, main_arg4, main_arg5, main_arg6, main_arg7, main_arg8, main_arg9, main_arg10]) :
    StableHlo.after (headOpss ++ restOpss).flatten W (Proc.devRef .tc b) = W (Proc.devRef .tc b) := by
  exact after_of_forall_not_mem _ W fun op hop => ops_keeps op hop b hb

end Cert.ReferenceIdeal.Hand

end
-- ==== Proof.KI.Pieces.lean ====
/- The frame of the kernel program, part six: what each case's stores read back as, in terms of the body's arithmetic.
   Where l = 0 an output ends at (tile's sum) added to the zero block just stored; elsewhere at (tile's sum) added
   to the contents the point before left. The first output's tile sum is over the rows' negative log-likelihoods
   times their validity, the second's over the validities alone. -/
import proofs.«411483_j80101140070992_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

theorem out2_A (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) :
    out0_A_2 c i arg2 harg2 arg3 harg3 arg4 harg4 arg5 harg5 hc0 x0 x1 = k0_pay1 (k0_pay7 x0 x1) k0_pay3 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, View.ld_unit_zero (S := S1x128x8192) hz3, View.ld_unit_zero (S := S1x128x1) hz3, View.ld_unit_zero (S := S1x1x1) hz3]

theorem out3_A (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S1x128x8192 .f32) (x1 : Vec F S1x128x1 .i32) :
    out0_A_3 c i arg2 harg2 arg3 harg3 arg4 harg4 arg5 harg5 hc0 x0 x1 = k0_pay2 (k0_pay8 x1) k0_pay4 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, View.ld_unit_zero (S := S1x128x8192) hz3, View.ld_unit_zero (S := S1x128x1) hz3, View.ld_unit_zero (S := S1x1x1) hz3]

theorem out2_B (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) :
    out0_B_2 c i arg2 harg2 arg3 harg3 arg4 harg4 arg5 harg5 hc0 x0 x1 xo2 xo3 = k0_pay1 (k0_pay7 x0 x1) xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread, View.ld_unit_zero (S := S1x128x8192) hz3, View.ld_unit_zero (S := S1x128x1) hz3, View.ld_unit_zero (S := S1x1x1) hz3]

theorem out3_B (c : Dev nD) (i : grid0.Coords) (arg2 : Memref sig .tc .vmem S1x128x8192 .f32) (harg2 : arg2.IsWhole) (arg3 : Memref sig .tc .vmem S1x128x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S1x128x8192 .f32) (x1 : Vec F S1x128x1 .i32) (xo2 : Vec F S1x1x1 .f32) (xo3 : Vec F S1x1x1 .f32) :
    out0_B_3 c i arg2 harg2 arg3 harg3 arg4 harg4 arg5 harg5 hc0 x0 x1 xo2 xo3 = k0_pay2 (k0_pay8 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread, View.ld_unit_zero (S := S1x128x8192) hz3, View.ld_unit_zero (S := S1x128x1) hz3, View.ld_unit_zero (S := S1x1x1) hz3]

end Cert.KernelIdeal.Hand

end
-- ==== Proof.ClsSpec.lean ====
/-
  The row-level mathematics of the classification loss.

  A row is `xr : Fin 8192 → EReal` (the logits of one position) and `tk : BitVec 32` its target token.
  Two spellings of the negative log-likelihood of the target and of the weight of a position are
  defined, one summing tile by tile and one over the whole array, and shown equal on finite rows and
  in-range tokens; then the loss, a ratio of two sums over the 4 × 2048 positions, is shown to be
  the same number in both spellings.
-/
import Idealize.ShloMosaic.PureOps.Ideal
import Idealize.ShloMosaic.PureOps.Ideal.Laws
import Idealize.ShloMosaic.Lib.ValueIdx
import Mathlib.Data.EReal.Basic
import Mathlib.Analysis.SpecialFunctions.Log.Basic
import Mathlib.Algebra.BigOperators.Fin
import Mathlib.Tactic.Ring
import Mathlib.Tactic.Linarith

noncomputable section

open scoped BigOperators

namespace Cert.ClsSpec

open Idealize.ShloMosaic Idealize.ShloMosaic.ValueIdx

/-- One position's logits. -/
abbrev Row : Type := Fin 8192 → EReal

/-! ## The two spellings, one row at a time -/

/-- The row's maximum: the fold of `max` over the row from the reading of the f32 pattern of `-∞`. -/
def rowMax (xr : Row) : EReal :=
  (Finset.univ : Finset (Fin 8192)).fold max (Ideal.ofBits .f32 0xFF800000#32) xr

/-- The same maximum, taken once more against `-∞`. -/
def rowMaxR (xr : Row) : EReal := max (Ideal.ofBits .f32 0xFF800000#32) (rowMax xr)

/-- The sum of the exponentials of the row shifted down by `M`. -/
def expSum (xr : Row) (M : EReal) : EReal := ∑ v : Fin 8192, Ideal.exp (xr v - M)

/-- `log Σ exp` of the row, as `log (Σ exp (x − M)) + M` at the row's maximum `M`. -/
def rowLse (xr : Row) : EReal := Ideal.log (expSum xr (rowMax xr)) + rowMax xr

/-- The row's entry at the token, as the sum of the row masked by "the column's number is the token". -/
def selK (xr : Row) (tk : BitVec 32) : EReal :=
  ∑ v : Fin 8192, Scalar.select (IntOp.cmpi .eq (BitVec.ofNat 32 v.val) tk) (xr v) (Ideal.ofBits .f32 0x00000000#32)

/-- The negative log-likelihood of the token, first spelling: `log Σ exp − x[tk]`. -/
def nllK (xr : Row) (tk : BitVec 32) : EReal := rowLse xr - selK xr tk

/-- The weight of a position, first spelling: the bit "the token is at least 4 (signed)", widened and read signed. -/
def validK (tk : BitVec 32) : EReal := ((((IntOp.cmpi .sge tk 4#32).setWidth 32).toInt : ℝ) : EReal)

/-- A negative token counted from the end of the row. -/
def wrapTok (tk : BitVec 32) : BitVec 32 := Scalar.select (IntOp.cmpi .slt tk 0#32) (IntOp.addi tk 8192#32) tk

/-- The bit "the index lies in `[0, 8191]` (signed)". -/
def inRange (t : BitVec 32) : BitVec 1 := IntOp.andi (IntOp.cmpi .sge t 0#32) (IntOp.cmpi .sle t 8191#32)

/-- An index read signed and clamped into the row. -/
def clampIdx (t : BitVec 32) : Fin 8192 := ⟨min t.toInt.toNat 8191, by omega⟩

/-- The row's log-softmax at a column: `(x − M) − log (0 + Σ exp (x − M))`. -/
def logSoftmaxR (xr : Row) (v : Fin 8192) : EReal :=
  (xr v - rowMaxR xr) - Ideal.log (0 + expSum xr (rowMaxR xr))

/-- The negative log-likelihood of the token, second spelling: minus the log-softmax taken at the wrapped token,
    replaced by the reading of the f32 quiet-NaN pattern when the wrapped token is out of range. -/
def nllR (xr : Row) (tk : BitVec 32) : EReal :=
  - Scalar.select (inRange (wrapTok tk)) (logSoftmaxR xr (clampIdx (wrapTok tk))) (Ideal.ofBits .f32 0x7FC00000#32)

/-- The four tokens that do not count. -/
def specialTok (k : Fin 4) : BitVec 32 := BitVec.ofNat 32 k.val

/-- The bit "the token is one of the four that do not count": the fold of `or` over the four comparisons. -/
def isSpecial (tk : BitVec 32) : BitVec 1 :=
  (Finset.univ : Finset (Fin 4)).fold IntOp.ori 0#1 (fun k => IntOp.cmpi .eq tk (specialTok k))

/-- The weight of a position, second spelling: the complement of `isSpecial`, read unsigned. -/
def validR (tk : BitVec 32) : EReal := ((((~~~ (isSpecial tk)).toNat : ℝ) : EReal))

/-! ## Facts about one row -/

/-- The f32 pattern of `-∞` reads `⊥`. -/
theorem ofBits_negInf : Ideal.ofBits .f32 0xFF800000#32 = (⊥ : EReal) := by
  simp [Ideal.ofBits, Ideal.ieee]

/-- The f32 pattern of `1.0` reads `1`. -/
theorem ofBits_one_f32 : Ideal.ofBits .f32 0x3F800000#32 = (1 : EReal) := by
  simp [Ideal.ofBits, Ideal.ieee]
  rw [← EReal.coe_one]
  norm_cast
  norm_num

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Taking the maximum once more against `-∞` changes nothing. -/
theorem rowMaxR_eq (xr : Row) : rowMaxR xr = rowMax xr := by
  unfold rowMaxR
  rw [ofBits_negInf]
  exact max_eq_right bot_le

/-- The row's maximum is the supremum of the row. -/
theorem rowMax_eq_sup (xr : Row) : rowMax xr = Finset.univ.sup xr := by
  unfold rowMax
  rw [ofBits_negInf]
  rfl

/-- A finite row's maximum is a real number. -/
theorem rowMax_real (xr : Row) (hx : ∀ v, ∃ r : ℝ, xr v = (r : EReal)) :
    ∃ m : ℝ, rowMax xr = (m : EReal) := by
  obtain ⟨i, -, hi⟩ := Finset.exists_mem_eq_sup (Finset.univ : Finset (Fin 8192)) ⟨0, Finset.mem_univ _⟩ xr
  obtain ⟨r, hr⟩ := hx i
  exact ⟨r, by rw [rowMax_eq_sup, hi, hr]⟩

/-- A finite row's shifted exponentials sum to a positive real. -/
theorem expSum_real (xr : Row) (hx : ∀ v, ∃ r : ℝ, xr v = (r : EReal)) (m : ℝ) :
    ∃ s : ℝ, 0 < s ∧ expSum xr (m : EReal) = (s : EReal) := by
  choose f hf using hx
  refine ⟨∑ v : Fin 8192, Real.exp (f v - m), ?_, ?_⟩
  · exact Finset.sum_pos (fun v _ => Real.exp_pos _) ⟨0, Finset.mem_univ _⟩
  · unfold expSum
    rw [coe_sum]
    refine Finset.sum_congr rfl fun v _ => ?_
    rw [hf v, ← EReal.coe_sub, Ideal.exp_coe]

/-- A non-negative 32-bit word read signed is the word read unsigned, and is below `2 ^ 31`. -/
theorem toInt_eq_toNat (tk : BitVec 32) (h0 : 0 ≤ tk.toInt) : tk.toInt = (tk.toNat : ℤ) ∧ tk.toNat < 2 ^ 31 := by
  have hc := BitVec.toInt_eq_toNat_cond tk
  have hl := tk.isLt
  split at hc <;> omega

/-- The masked sum is the row's entry at the token. -/
theorem selK_eq (xr : Row) (tk : BitVec 32) (h0 : 0 ≤ tk.toInt) (h1 : tk.toInt < 8192) :
    selK xr tk = xr ⟨tk.toInt.toNat, by omega⟩ := by
  obtain ⟨hi, -⟩ := toInt_eq_toNat tk h0
  unfold selK
  rw [Ideal.ofBits_zero_f32]
  have hsel : ∀ v : Fin 8192,
      Scalar.select (IntOp.cmpi .eq (BitVec.ofNat 32 v.val) tk) (xr v) (0 : EReal)
        = if v = (⟨tk.toInt.toNat, by omega⟩ : Fin 8192) then xr v else 0 := by
    intro v
    have hv := v.isLt
    by_cases hvt : v = (⟨tk.toInt.toNat, by omega⟩ : Fin 8192)
    · have hw : BitVec.ofNat 32 v.val = tk := by
        apply BitVec.eq_of_toNat_eq
        rw [BitVec.toNat_ofNat, hvt]
        show tk.toInt.toNat % 2 ^ 32 = tk.toNat
        omega
      rw [if_pos hvt]
      simp [IntOp.cmpi, Scalar.select, hw]
    · have hw : BitVec.ofNat 32 v.val ≠ tk := by
        intro hw
        apply hvt
        apply Fin.ext
        show v.val = tk.toInt.toNat
        have := congrArg BitVec.toNat hw
        rw [BitVec.toNat_ofNat] at this
        omega
      have hb : (BitVec.ofNat 32 v.val == tk) = false := beq_eq_false_iff_ne.mpr hw
      rw [if_neg hvt]
      simp [IntOp.cmpi, Scalar.select, hb]
  rw [Finset.sum_congr rfl fun v _ => hsel v, Finset.sum_ite_eq' Finset.univ _ xr, if_pos (Finset.mem_univ _)]

/-- A non-negative token is not wrapped. -/
theorem wrapTok_eq (tk : BitVec 32) (h0 : 0 ≤ tk.toInt) : wrapTok tk = tk := by
  have hn : ¬ tk.slt 0#32 = true := by
    rw [BitVec.slt_iff_toInt_lt]
    have : (0#32 : BitVec 32).toInt = 0 := by decide
    omega
  simp [wrapTok, IntOp.cmpi, Scalar.select, hn]

/-- An in-range token passes the range check. -/
theorem inRange_eq_one (tk : BitVec 32) (h0 : 0 ≤ tk.toInt) (h1 : tk.toInt < 8192) : inRange tk = 1#1 := by
  have ha : (0#32 : BitVec 32).sle tk = true := by
    rw [BitVec.sle_iff_toInt_le]
    have : (0#32 : BitVec 32).toInt = 0 := by decide
    omega
  have hb : tk.sle 8191#32 = true := by
    rw [BitVec.sle_iff_toInt_le]
    have : (8191#32 : BitVec 32).toInt = 8191 := by decide
    omega
  simp [inRange, IntOp.cmpi, IntOp.andi, ha, hb]

/-- An in-range token is its own clamp. -/
theorem clampIdx_eq (tk : BitVec 32) (h0 : 0 ≤ tk.toInt) (h1 : tk.toInt < 8192) :
    clampIdx tk = ⟨tk.toInt.toNat, by omega⟩ := by
  apply Fin.ext
  show min tk.toInt.toNat 8191 = tk.toInt.toNat
  omega

/-- THE ROW'S NEGATIVE LOG-LIKELIHOOD: on a finite row and an in-range token the two spellings agree. -/
theorem nllK_eq_nllR (xr : Row) (tk : BitVec 32) (hx : ∀ v, ∃ r : ℝ, xr v = (r : EReal))
    (h0 : 0 ≤ tk.toInt) (h1 : tk.toInt < 8192) : nllK xr tk = nllR xr tk := by
  obtain ⟨m, hm⟩ := rowMax_real xr hx
  obtain ⟨s, hs0, hs⟩ := expSum_real xr hx m
  obtain ⟨x, hxv⟩ := hx ⟨tk.toInt.toNat, by omega⟩
  have hlog : Ideal.log (s : EReal) = (Real.log s : EReal) := by
    rw [Ideal.log_coe, if_neg (not_le.mpr hs0)]
  unfold nllK nllR rowLse logSoftmaxR
  rw [wrapTok_eq tk h0, inRange_eq_one tk h0 h1, clampIdx_eq tk h0 h1, selK_eq xr tk h0 h1, rowMaxR_eq,
    ValueIdx.select_one, zero_add, hm, hs, hxv, hlog]
  rw [← EReal.coe_add, ← EReal.coe_sub, ← EReal.coe_sub, ← EReal.coe_sub, ← EReal.coe_neg]
  congr 1
  ring

/-- The first weight is `1` on a token at least 4 and `0` otherwise. -/
theorem validK_eq (tk : BitVec 32) : validK tk = if 4 ≤ tk.toInt then 1 else 0 := by
  have h4 : (4#32 : BitVec 32).toInt = 4 := by decide
  have e1 : ((BitVec.ofBool true).setWidth 32).toInt = 1 := by decide
  have e0 : ((BitVec.ofBool false).setWidth 32).toInt = 0 := by decide
  show ((((BitVec.ofBool ((4#32 : BitVec 32).sle tk)).setWidth 32).toInt : ℝ) : EReal) = _
  by_cases h : 4 ≤ tk.toInt
  · have hb : (4#32 : BitVec 32).sle tk = true := by rw [BitVec.sle_iff_toInt_le]; omega
    rw [if_pos h, hb, e1]
    simp
  · have hb : (4#32 : BitVec 32).sle tk = false := by
      rw [← Bool.not_eq_true, BitVec.sle_iff_toInt_le]; omega
    rw [if_neg h, hb, e0]
    simp

/-- An `or` of two bits is set exactly when one of them is. -/
theorem ori_eq_one (x y : BitVec 1) : IntOp.ori x y = 1#1 ↔ x = 1#1 ∨ y = 1#1 := by
  rcases BitVec.eq_zero_or_eq_one x with rfl | rfl <;> rcases BitVec.eq_zero_or_eq_one y with rfl | rfl <;> decide

/-- A fold of `or` from the clear bit is set exactly when some term is. -/
theorem fold_ori_eq_one {ι : Type*} [DecidableEq ι] (s : Finset ι) (f : ι → BitVec 1) :
    s.fold IntOp.ori 0#1 f = 1#1 ↔ ∃ k ∈ s, f k = 1#1 := by
  induction s using Finset.induction_on with
  | empty => simp
  | insert a s ha ih => rw [Finset.fold_insert ha, ori_eq_one, ih, Finset.exists_mem_insert]

/-- The comparison for equality is set exactly on equal words. -/
theorem cmpi_eq_one (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]
    simp [h]

/-- A token is one of the four that do not count exactly when, read unsigned, it is below 4. -/
theorem isSpecial_eq_one (tk : BitVec 32) : isSpecial tk = 1#1 ↔ tk.toNat < 4 := by
  unfold isSpecial
  rw [fold_ori_eq_one]
  constructor
  · rintro ⟨k, -, hk⟩
    rw [cmpi_eq_one] at hk
    rw [hk, specialTok, BitVec.toNat_ofNat]
    have := k.isLt
    omega
  · intro h
    refine ⟨⟨tk.toNat, h⟩, Finset.mem_univ _, ?_⟩
    rw [cmpi_eq_one, specialTok]
    apply BitVec.eq_of_toNat_eq
    rw [BitVec.toNat_ofNat]
    show tk.toNat = tk.toNat % 2 ^ 32
    have := tk.isLt
    omega

/-- THE WEIGHT: on a non-negative token the two spellings agree. -/
theorem validK_eq_validR (tk : BitVec 32) (h0 : 0 ≤ tk.toInt) : validK tk = validR tk := by
  obtain ⟨hi, -⟩ := toInt_eq_toNat tk h0
  have hsp := isSpecial_eq_one tk
  have n0 : (~~~(0#1 : BitVec 1)).toNat = 1 := by decide
  have n1 : (~~~(1#1 : BitVec 1)).toNat = 0 := by decide
  rw [validK_eq]
  unfold validR
  by_cases h : 4 ≤ tk.toInt
  · have hne : isSpecial tk = 0#1 := by
      rcases BitVec.eq_zero_or_eq_one (isSpecial tk) with h' | h'
      · exact h'
      · exact absurd (hsp.mp h') (by omega)
    rw [if_pos h, hne, n0]
    simp
  · have h1' : isSpecial tk = 1#1 := hsp.mpr (by omega)
    rw [if_neg h, h1', n1]
    simp

/-! ## Sums over the positions -/

/-- The position `128 j + r` of tile `j`. -/
def tilePos (j : Fin 16) (r : Fin 128) : Fin 2048 := ⟨128 * j.val + r.val, by omega⟩

/-- A position is a tile and a row of it. -/
def tileEquiv : Fin 16 × Fin 128 ≃ Fin 2048 where
  toFun p := tilePos p.1 p.2
  invFun l := (⟨l.val / 128, by have := l.isLt; omega⟩, ⟨l.val % 128, by omega⟩)
  left_inv := by
    rintro ⟨j, r⟩
    have hj := j.isLt
    have hr := r.isLt
    apply Prod.ext <;> apply Fin.ext
    · show (128 * j.val + r.val) / 128 = j.val
      omega
    · show (128 * j.val + r.val) % 128 = r.val
      omega
  right_inv := by
    intro l
    apply Fin.ext
    show 128 * (l.val / 128) + l.val % 128 = l.val
    omega

/-- Summing batch by batch, tile by tile and row by row is summing over the positions. -/
theorem sum_tiles {M : Type*} [AddCommMonoid M] (f : Fin 4 → Fin 2048 → M) :
    ∑ b : Fin 4, ∑ j : Fin 16, ∑ r : Fin 128, f b (tilePos j r) = ∑ b : Fin 4, ∑ l : Fin 2048, f b l := by
  refine Finset.sum_congr rfl fun b _ => ?_
  rw [← Fintype.sum_prod_type' (fun j r => f b (tilePos j r))]
  exact Equiv.sum_comp tileEquiv (fun l => f b l)

/-- … which is the sum over the index set of a 4 × 2048 array. -/
theorem sum_tiles_idx {M : Type*} [AddCommMonoid M] (f : Fin 4 → Fin 2048 → M) :
    ∑ b : Fin 4, ∑ j : Fin 16, ∑ r : Fin 128, f b (tilePos j r)
      = ∑ i : (⟨2, ![4, 2048]⟩ : Shape).Idx, f (i 0) (i 1) := by
  rw [sum_tiles, sum_idx2 (fun i : (⟨2, ![4, 2048]⟩ : Shape).Idx => f (i 0) (i 1))]

/-! ## The loss -/

/-- THE LOSS: the ratio of the weighted sum of the negative log-likelihoods to the number of counted positions
    (at least 1), summed tile by tile in the first spelling and over the 4 × 2048 positions in the second, is one
    number when every row is finite and every token in range. -/
theorem cls_eq (X : Fin 4 → Fin 2048 → Row) (T : Fin 4 → Fin 2048 → BitVec 32)
    (hX : ∀ b l v, ∃ r : ℝ, X b l v = (r : EReal))
    (hT0 : ∀ b l, 0 ≤ (T b l).toInt) (hT1 : ∀ b l, (T b l).toInt < 8192) :
    Ideal.div (0 + ∑ b : Fin 4, ∑ j : Fin 16, ∑ r : Fin 128,
          nllK (X b (tilePos j r)) (T b (tilePos j r)) * validK (T b (tilePos j r)))
        (max (0 + ∑ b : Fin 4, ∑ j : Fin 16, ∑ r : Fin 128, validK (T b (tilePos j r))) 1)
      = Ideal.div (0 + ∑ i : (⟨2, ![4, 2048]⟩ : Shape).Idx, nllR (X (i 0) (i 1)) (T (i 0) (i 1)) * validR (T (i 0) (i 1)))
        (max (0 + ∑ i : (⟨2, ![4, 2048]⟩ : Shape).Idx, validR (T (i 0) (i 1))) 1) := by
  rw [sum_tiles_idx (fun b l => nllK (X b l) (T b l) * validK (T b l)),
    sum_tiles_idx (fun b l => validK (T b l))]
  have k1 : ∀ (b : Fin 4) (l : Fin 2048),
      nllK (X b l) (T b l) * validK (T b l) = nllR (X b l) (T b l) * validR (T b l) := fun b l => by
    rw [nllK_eq_nllR (X b l) (T b l) (hX b l) (hT0 b l) (hT1 b l), validK_eq_validR (T b l) (hT0 b l)]
  have k2 : ∀ (b : Fin 4) (l : Fin 2048), validK (T b l) = validR (T b l) :=
    fun b l => validK_eq_validR (T b l) (hT0 b l)
  have s1 : (∑ i : (⟨2, ![4, 2048]⟩ : Shape).Idx, nllK (X (i 0) (i 1)) (T (i 0) (i 1)) * validK (T (i 0) (i 1)))
      = ∑ i : (⟨2, ![4, 2048]⟩ : Shape).Idx, nllR (X (i 0) (i 1)) (T (i 0) (i 1)) * validR (T (i 0) (i 1)) :=
    Finset.sum_congr rfl fun i _ => k1 (i 0) (i 1)
  have s2 : (∑ i : (⟨2, ![4, 2048]⟩ : Shape).Idx, validK (T (i 0) (i 1)))
      = ∑ i : (⟨2, ![4, 2048]⟩ : Shape).Idx, validR (T (i 0) (i 1)) :=
    Finset.sum_congr rfl fun i _ => k2 (i 0) (i 1)
  rw [s1, s2]

end Cert.ClsSpec

end
-- ==== Proof.KIBlocks.lean ====
/- The blocks of the two staged input arrays, read at an index.
   The region's grid is 4 x 16, its point t = 16 b + j. At that point the staged block of the logits
   (1 x 128 x 8192) is rows 128 j .. 128 j + 127 of batch b, and the staged block of the token ids
   (1 x 128 x 1) is the ids of those rows; the token ids reach the region through one broadcast that
   gives them a trailing unit axis. -/
import proofs.«411483_j80101140070992_1_alg».proof.Proof.KI.Kit
import proofs.«411483_j80101140070992_1_alg».proof.Proof.ClsSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.HandBlocks

open Idealize.ShloMosaic Idealize.ShloMosaic.TcCoe Idealize.ShloMosaic.Tactic Idealize.SL.Sem
open Idealize.ShloMosaic.ValueIdx Idealize.ShloMosaic.StableHlo
open Cert.KernelIdeal Cert.KernelIdeal.Gen Cert.KernelIdeal.Hand

variable {F : FTy → Type} [FloatOps F]
variable (m : (ℓ : Loc nD τ sig) → Buf (Elt F) ℓ)

/-! ## Names of literal type -/

/-- The block of the logits at point `t`. -/
abbrev xblk0 (c : Dev nD) (t : Fin cfg0.N) : Vec F S1x128x8192 .f32 := iblk m c 0 t
/-- The block of the token ids at point `t`. -/
abbrev xblk1 (c : Dev nD) (t : Fin cfg0.N) : Vec F S1x128x1 .i32 := iblk m c 1 t
/-- The logits as the program is launched with them. -/
abbrev xarr (c : Dev nD) : Vec F S4x2048x8192 .f32 := m ((c.tc : Thread nD τ).loc main_arg0)
/-- The token ids as the program is launched with them. -/
abbrev tokarr (c : Dev nD) : Vec F S4x2048 .i32 := m ((c.tc : Thread nD τ).loc main_arg7)

/-- The point of batch `b` and tile `j`: `t = 16 b + j`. -/
def pt (b : Fin 4) (j : Fin 16) : Fin cfg0.N :=
  ⟨16 * b.val + j.val, by
    have hb := b.isLt
    have hj := j.isLt
    show 16 * b.val + j.val < grid0.N
    rw [N_0]
    omega⟩

theorem pt_val (b : Fin 4) (j : Fin 16) : (pt b j).val = 16 * b.val + j.val := rfl

/-! ## The arrays as the region finds them -/

/-- The one broadcast before the region leaves the logits as launched. -/
theorem V_arg0 (c : Dev nD) : V m c main_arg0 = m ((c.tc : Thread nD τ).loc main_arg0) := by
  show StableHlo.after hostOps0 (fun b => m (c, b)) (Proc.devRef .tc main_arg0) = _
  after_results

/-- The region's second array is the token ids given a trailing unit axis. -/
theorem V_v0 (c : Dev nD) :
    V m c main_v0 = broadcastInDim S4x2048x1 ![0, 1] bcast_S4x2048_S4x2048x1_0_1 (m ((c.tc : Thread nD τ).loc main_arg7)) := by
  show StableHlo.after hostOps0 (fun b => m (c, b)) (Proc.devRef .tc main_v0) = _
  after_results

/-! ## Where the blocks sit -/

/-- The block of the logits at point `t` sits at block position `(t / 16, t % 16, 0)`. -/
theorem idx0 : ∀ t : Fin cfg0.N,
    win0_0.index t (0 : Fin 3) = t.val / 16 ∧ win0_0.index t (1 : Fin 3) = t.val % 16 ∧ win0_0.index t (2 : Fin 3) = 0 :=
  (by decide +kernel : ∀ t : Fin grid0.N,
    win0_0.index t (0 : Fin 3) = t.val / 16 ∧ win0_0.index t (1 : Fin 3) = t.val % 16 ∧ win0_0.index t (2 : Fin 3) = 0)

/-- So does the block of the token ids. -/
theorem idx1 : ∀ t : Fin cfg0.N,
    win0_1.index t (0 : Fin 3) = t.val / 16 ∧ win0_1.index t (1 : Fin 3) = t.val % 16 ∧ win0_1.index t (2 : Fin 3) = 0 :=
  (by decide +kernel : ∀ t : Fin grid0.N,
    win0_1.index t (0 : Fin 3) = t.val / 16 ∧ win0_1.index t (1 : Fin 3) = t.val % 16 ∧ win0_1.index t (2 : Fin 3) = 0)

/-! ## The blocks at an index -/

/-- The block of the logits at point `16 b + j`, at row `r` and column `v`, is the logits at `(b, 128 j + r, v)`. -/
theorem xblk0_apply (c : Dev nD) (b : Fin 4) (j : Fin 16) (r : Fin 128) (v : Fin 8192) :
    xblk0 m c (pt b j) (ix3 (0 : Fin 1) r v) = xarr m c (ix3 b (Cert.ClsSpec.tilePos j r) v) := by
  have hi := idx0 (pt b j)
  have hb := b.isLt
  have hj := j.isLt
  show iblk m c 0 (pt b j) (ix3 (0 : Fin 1) r v) = _
  unfold iblk
  rw [View.read_apply]
  show V m c main_arg0 _ = m ((c.tc : Thread nD τ).loc main_arg0) _
  rw [V_arg0]
  congr 1
  funext a
  apply Fin.ext
  match a with
  | ⟨0, _⟩ =>
    show win0_0.index (pt b j) 0 * 1 + 1 * 0 = b.val
    rw [hi.1, pt_val]; omega
  | ⟨1, _⟩ =>
    show win0_0.index (pt b j) 1 * 128 + 1 * r.val = 128 * j.val + r.val
    rw [hi.2.1, pt_val]; omega
  | ⟨2, _⟩ =>
    show win0_0.index (pt b j) 2 * 8192 + 1 * v.val = v.val
    rw [hi.2.2]; omega

/-- The block of the token ids at point `16 b + j`, at row `r`, is the token id at `(b, 128 j + r)`. -/
theorem xblk1_apply (c : Dev nD) (b : Fin 4) (j : Fin 16) (r : Fin 128) :
    xblk1 m c (pt b j) (ix3 (0 : Fin 1) r (0 : Fin 1)) = tokarr m c (ix2 b (Cert.ClsSpec.tilePos j r)) := by
  have hi := idx1 (pt b j)
  have hb := b.isLt
  have hj := j.isLt
  show iblk m c 1 (pt b j) (ix3 (0 : Fin 1) r (0 : Fin 1)) = _
  unfold iblk
  rw [View.read_apply]
  show V m c main_v0 _ = m ((c.tc : Thread nD τ).loc main_arg7) _
  rw [V_v0]
  refine (broadcastInDim_apply _ _ _ _ (ix2 b (Cert.ClsSpec.tilePos j r)) (fun a => ?_)).trans rfl
  match a with
  | ⟨0, _⟩ =>
    show b.val = win0_1.index (pt b j) 0 * 1 + 1 * 0
    rw [hi.1, pt_val]; omega
  | ⟨1, _⟩ =>
    show 128 * j.val + r.val = win0_1.index (pt b j) 1 * 128 + 1 * r.val
    rw [hi.2.1, pt_val]; omega

end Cert.KernelIdeal.HandBlocks

end
-- ==== Proof.KIFinal.lean ====
/- The two output arrays after the run. Each is 4 x 1 x 1; cell (b, 0, 0) of either is staged at the 16
   points t = 16 b + j of batch b and written back once, at the last of them, t = 16 b + 15. So after the
   run the cell holds what the body left in the staging buffer at that point. -/
import proofs.«411483_j80101140070992_1_alg».proof.Proof.KI.Frame
import proofs.«411483_j80101140070992_1_alg».proof.Proof.KIBlocks
import Idealize.ShloMosaic.Lib.Pipeline.Value
import Idealize.ShloMosaic.Lib.ValueIdx
import Idealize.ShloMosaic.Lib.Tactic

set_option maxRecDepth 16384

noncomputable section

namespace Cert.KernelIdeal.HandFinal

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Hand Cert.KernelIdeal.HandBlocks

variable {F : FTy → Type} [FloatOps F]
variable (m : (ℓ : Loc nD τ sig) → Buf (Elt F) ℓ)

/-- The running values at a position do not depend on how the position is written. -/
theorem outsAt0_congr (c : Dev nD) (n n' : ℕ) (hn : n < cfg0.N) (hn' : n' < cfg0.N) (h : n = n') :
    outsAt0 m c n hn = outsAt0 m c n' hn' := by
  subst h
  rfl

/-! ## Output one -/

/-- What the array ends holding, as one function of its index: at `(b, 0, 0)` the running value left at the
    last point of batch `b`. -/
def G2 (c : Dev nD) : Vec F S4x1x1 .f32 := fun i =>
  (outsAt0 m c (16 * (i 0).val + 15) (by
    have h : (i 0).val < 4 := (i 0).isLt
    show 16 * (i 0).val + 15 < grid0.N
    rw [N_0]
    omega)).1 (ix3 (0 : Fin 1) (0 : Fin 1) (0 : Fin 1))

/-- The block at point `t` sits at block position `(t / 16, 0, 0)`. -/
theorem idx2 : ∀ t : Fin cfg0.N,
    win0_2.index t (0 : Fin 3) = t.val / 16 ∧ win0_2.index t (1 : Fin 3) = 0 ∧ win0_2.index t (2 : Fin 3) = 0 :=
  (by decide +kernel : ∀ t : Fin grid0.N,
    win0_2.index t (0 : Fin 3) = t.val / 16 ∧ win0_2.index t (1 : Fin 3) = 0 ∧ win0_2.index t (2 : Fin 3) = 0)

/-- What a write-back point writes back is its block of that function. -/
theorem flushed_eq2 (c : Dev nD) (t : Fin cfg0.N) (hf : (cfg0.win 2).flush t = true) :
    (dats m 0 c).flushed 2 t = ((cfg0.win 2).blk t).view.read (Elt F) (G2 m c) := by
  have h15 : t.val % 16 = 15 := (flush0_2 t).mp hf
  have hi := idx2 t
  funext y
  have y0 : (y 0).val < 1 := (y 0).isLt
  have y1 : (y 1).val < 1 := (y 1).isLt
  have y2 : (y 2).val < 1 := (y 2).isLt
  show (cfg0.win 2).cut (grid0.coords t) ((dats m 0 c).after 2 t) y = _
  rw [after0_2, View.read_apply]
  show (outsAt0 m c t.val t.isLt).1 _ = G2 m c _
  unfold G2
  have hidx : ((cfg0.win 2).xinj (grid0.coords t) y : S1x1x1.Idx) = ix3 (0 : Fin 1) (0 : Fin 1) (0 : Fin 1) := by
    funext a
    apply Fin.ext
    match a with
    | ⟨0, _⟩ => show (y 0).val = 0; omega
    | ⟨1, _⟩ => show (y 1).val = 0; omega
    | ⟨2, _⟩ => show (y 2).val = 0; omega
  refine (congrArg (outsAt0 m c t.val t.isLt).1 hidx).trans ?_
  refine congrArg (fun p : Vec F S1x1x1 .f32 × Vec F S1x1x1 .f32 => p.1 (ix3 (0 : Fin 1) (0 : Fin 1) (0 : Fin 1)))
    (outsAt0_congr m c _ _ _ _ ?_)
  show t.val = 16 * (win0_2.index t 0 * 1 + 1 * (y 0).val) + 15
  rw [hi.1]
  omega

/-- After the run the array holds, at `(b, 0, 0)`, the running value left at point `16 b + 15`. -/
theorem final2 (c : Dev nD) (b : Fin 4) :
    (dats m 0 c).arrAt 2 cfg0.N (ix3 b (0 : Fin 1) (0 : Fin 1))
      = (outsAt0 m c (pt b 15).val (pt b 15).isLt).1 (ix3 (0 : Fin 1) (0 : Fin 1) (0 : Fin 1)) := by
  have hi := idx2 (pt b 15)
  have hb := b.isLt
  have hflush : (cfg0.win 2).flush (pt b 15) = true :=
    (flush0_2 (pt b 15)).mpr (by show (16 * b.val + 15) % 16 = 15; omega)
  have hmem : (ix3 b (0 : Fin 1) (0 : Fin 1) : S4x1x1.Idx) ∈ ((cfg0.win 2).blk (pt b 15)).view.set := by
    show _ ∈ ((View.whole main_v1_0).slice (win0_2.rect (pt b 15))).set
    rw [View.set_slice_whole, Rect.mem_set_unit]
    intro a
    match a with
    | ⟨0, _⟩ =>
      show win0_2.index (pt b 15) 0 * 1 ≤ b.val ∧ b.val < win0_2.index (pt b 15) 0 * 1 + 1
      rw [hi.1, pt_val]
      show (16 * b.val + 15) / 16 * 1 ≤ b.val ∧ b.val < (16 * b.val + 15) / 16 * 1 + 1
      omega
    | ⟨1, _⟩ =>
      show win0_2.index (pt b 15) 1 * 1 ≤ 0 ∧ 0 < win0_2.index (pt b 15) 1 * 1 + 1
      rw [hi.2.1]; omega
    | ⟨2, _⟩ =>
      show win0_2.index (pt b 15) 2 * 1 ≤ 0 ∧ 0 < win0_2.index (pt b 15) 2 * 1 + 1
      rw [hi.2.2]; omega
  exact ((dats m 0 c).arrAt_apply_of_mem 2 (G2 m c) (flushed_eq2 m c) cfg0.N (pt b 15)
    (ix3 b (0 : Fin 1) (0 : Fin 1)) (pt b 15).isLt hflush hmem).trans rfl

/-! ## Output two -/

/-- What the array ends holding, as one function of its index: at `(b, 0, 0)` the running value left at the
    last point of batch `b`. -/
def G3 (c : Dev nD) : Vec F S4x1x1 .f32 := fun i =>
  (outsAt0 m c (16 * (i 0).val + 15) (by
    have h : (i 0).val < 4 := (i 0).isLt
    show 16 * (i 0).val + 15 < grid0.N
    rw [N_0]
    omega)).2 (ix3 (0 : Fin 1) (0 : Fin 1) (0 : Fin 1))

/-- The block at point `t` sits at block position `(t / 16, 0, 0)`. -/
theorem idx3 : ∀ t : Fin cfg0.N,
    win0_3.index t (0 : Fin 3) = t.val / 16 ∧ win0_3.index t (1 : Fin 3) = 0 ∧ win0_3.index t (2 : Fin 3) = 0 :=
  (by decide +kernel : ∀ t : Fin grid0.N,
    win0_3.index t (0 : Fin 3) = t.val / 16 ∧ win0_3.index t (1 : Fin 3) = 0 ∧ win0_3.index t (2 : Fin 3) = 0)

/-- What a write-back point writes back is its block of that function. -/
theorem flushed_eq3 (c : Dev nD) (t : Fin cfg0.N) (hf : (cfg0.win 3).flush t = true) :
    (dats m 0 c).flushed 3 t = ((cfg0.win 3).blk t).view.read (Elt F) (G3 m c) := by
  have h15 : t.val % 16 = 15 := (flush0_3 t).mp hf
  have hi := idx3 t
  funext y
  have y0 : (y 0).val < 1 := (y 0).isLt
  have y1 : (y 1).val < 1 := (y 1).isLt
  have y2 : (y 2).val < 1 := (y 2).isLt
  show (cfg0.win 3).cut (grid0.coords t) ((dats m 0 c).after 3 t) y = _
  rw [after0_3, View.read_apply]
  show (outsAt0 m c t.val t.isLt).2 _ = G3 m c _
  unfold G3
  have hidx : ((cfg0.win 3).xinj (grid0.coords t) y : S1x1x1.Idx) = ix3 (0 : Fin 1) (0 : Fin 1) (0 : Fin 1) := by
    funext a
    apply Fin.ext
    match a with
    | ⟨0, _⟩ => show (y 0).val = 0; omega
    | ⟨1, _⟩ => show (y 1).val = 0; omega
    | ⟨2, _⟩ => show (y 2).val = 0; omega
  refine (congrArg (outsAt0 m c t.val t.isLt).2 hidx).trans ?_
  refine congrArg (fun p : Vec F S1x1x1 .f32 × Vec F S1x1x1 .f32 => p.2 (ix3 (0 : Fin 1) (0 : Fin 1) (0 : Fin 1)))
    (outsAt0_congr m c _ _ _ _ ?_)
  show t.val = 16 * (win0_3.index t 0 * 1 + 1 * (y 0).val) + 15
  rw [hi.1]
  omega

/-- After the run the array holds, at `(b, 0, 0)`, the running value left at point `16 b + 15`. -/
theorem final3 (c : Dev nD) (b : Fin 4) :
    (dats m 0 c).arrAt 3 cfg0.N (ix3 b (0 : Fin 1) (0 : Fin 1))
      = (outsAt0 m c (pt b 15).val (pt b 15).isLt).2 (ix3 (0 : Fin 1) (0 : Fin 1) (0 : Fin 1)) := by
  have hi := idx3 (pt b 15)
  have hb := b.isLt
  have hflush : (cfg0.win 3).flush (pt b 15) = true :=
    (flush0_3 (pt b 15)).mpr (by show (16 * b.val + 15) % 16 = 15; omega)
  have hmem : (ix3 b (0 : Fin 1) (0 : Fin 1) : S4x1x1.Idx) ∈ ((cfg0.win 3).blk (pt b 15)).view.set := by
    show _ ∈ ((View.whole main_v1_1).slice (win0_3.rect (pt b 15))).set
    rw [View.set_slice_whole, Rect.mem_set_unit]
    intro a
    match a with
    | ⟨0, _⟩ =>
      show win0_3.index (pt b 15) 0 * 1 ≤ b.val ∧ b.val < win0_3.index (pt b 15) 0 * 1 + 1
      rw [hi.1, pt_val]
      show (16 * b.val + 15) / 16 * 1 ≤ b.val ∧ b.val < (16 * b.val + 15) / 16 * 1 + 1
      omega
    | ⟨1, _⟩ =>
      show win0_3.index (pt b 15) 1 * 1 ≤ 0 ∧ 0 < win0_3.index (pt b 15) 1 * 1 + 1
      rw [hi.2.1]; omega
    | ⟨2, _⟩ =>
      show win0_3.index (pt b 15) 2 * 1 ≤ 0 ∧ 0 < win0_3.index (pt b 15) 2 * 1 + 1
      rw [hi.2.2]; omega
  exact ((dats m 0 c).arrAt_apply_of_mem 3 (G3 m c) (flushed_eq3 m c) cfg0.N (pt b 15)
    (ix3 b (0 : Fin 1) (0 : Fin 1)) (pt b 15).isLt hflush hmem).trans rfl

end Cert.KernelIdeal.HandFinal

end
-- ==== Proof.KIPay.lean ====
/-
  The kernel's tile payloads read at the extended reals.

  One tile is 128 rows of 8192 logits and 128 tokens. Its first payload is the sum over the rows of the row's negative
  log-likelihood of its token, `log Σ exp − x[token]`, times the row's weight (one when the token is at least four);
  its second payload is the sum of the weights. Each is read here as a sum over `Fin 128` of the row forms of
  `Cert.ClsSpec`. The accumulating payloads add a tile's number to the one entry of a 1 × 1 × 1 block, and the reset
  payloads are that block at zero. Last, the quotient the program forms from the two per-batch accumulator arrays is read
  as a quotient of two sums over the four batches.
-/
import proofs.«411483_j80101140070992_1_alg».proof.Proof.Gen.KernelIdeal.Skeleton
import proofs.«411483_j80101140070992_1_alg».proof.Proof.ClsSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandValue

open Cert.KernelIdeal Cert.KernelIdeal.Gen Idealize.ShloMosaic Idealize.ShloMosaic.ValueIdx

/-! ## Sums over index types whose other axes are unit axes -/

/-- An index of a 1 × 1 × n shape is its last coordinate. -/
def idx11nEquiv (n : Nat) : (⟨3, ![1, 1, n]⟩ : Shape).Idx ≃ Fin n where
  toFun i := i 2
  invFun r := ix3 (0 : Fin 1) (0 : Fin 1) r
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  right_inv r := rfl

theorem sum_idx3_11n {M : Type*} [AddCommMonoid M] {n : Nat} (f : (⟨3, ![1, 1, n]⟩ : Shape).Idx → M) :
    ∑ i, f i = ∑ r : Fin n, f (ix3 (0 : Fin 1) (0 : Fin 1) r) :=
  (Equiv.sum_comp (idx11nEquiv n).symm f).symm

/-- An index of an n × 1 × 1 shape is its first coordinate. -/
def idxn11Equiv (n : Nat) : (⟨3, ![n, 1, 1]⟩ : Shape).Idx ≃ Fin n where
  toFun i := i 0
  invFun b := ix3 b (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv r := rfl

theorem sum_idx3_n11 {M : Type*} [AddCommMonoid M] {n : Nat} (f : (⟨3, ![n, 1, 1]⟩ : Shape).Idx → M) :
    ∑ i, f i = ∑ b : Fin n, f (ix3 b (0 : Fin 1) (0 : Fin 1)) :=
  (Equiv.sum_comp (idxn11Equiv n).symm f).symm

/-- A 1 × 1 × 1 shape has one index. -/
theorem idx111_eq (j : S1x1x1.Idx) : j = ix3 (0 : Fin 1) (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => exact Fin.ext (by have h : (j 2).val < 1 := (j 2).isLt; show (j 2).val = 0; omega)

/-! ## The tile's layout operations read at an index

Row `r` of the tile sits at (0, r) of a 1 × 128 vector, at (0, r, 0) of a 1 × 128 × 1 one and at (0, 0, r) of a
1 × 1 × 128 one: the same row-major position. -/

section Layout
variable {α : Type}

theorem cast_1a1_1a (v : S1x128x1.Idx → α) (h : S1x128x1.ShapeCasts S1x128) (r : Fin 128) :
    shapeCast S1x128 v h (ix2 (0 : Fin 1) r) = v (ix3 (0 : Fin 1) r (0 : Fin 1)) :=
  shapeCast_apply v h _ _ (by rw [Shape.rowMajor_val_three, Shape.rowMajor_val_two]; show (0 * 128 + r.val) * 1 + 0 = 0 * 128 + r.val; omega)

theorem cast_1a_1a1 (v : S1x128.Idx → α) (h : S1x128.ShapeCasts S1x128x1) (r : Fin 128) :
    shapeCast S1x128x1 v h (ix3 (0 : Fin 1) r (0 : Fin 1)) = v (ix2 (0 : Fin 1) r) :=
  shapeCast_apply v h _ _ (by rw [Shape.rowMajor_val_three, Shape.rowMajor_val_two]; show 0 * 128 + r.val = (0 * 128 + r.val) * 1 + 0; omega)

theorem cast_1a_11a (v : S1x128.Idx → α) (h : S1x128.ShapeCasts S1x1x128) (r : Fin 128) :
    shapeCast S1x1x128 v h (ix3 (0 : Fin 1) (0 : Fin 1) r) = v (ix2 (0 : Fin 1) r) :=
  shapeCast_apply v h _ _ (by rw [Shape.rowMajor_val_three, Shape.rowMajor_val_two]; show 0 * 128 + r.val = (0 * 1 + 0) * 128 + r.val; omega)

theorem cast_1_111 (v : S1.Idx → α) (h : S1.ShapeCasts S1x1x1) (j : S1x1x1.Idx) :
    shapeCast S1x1x1 v h j = v (ix1 (0 : Fin 1)) :=
  shapeCast_apply v h _ _ (by
    rw [Shape.rowMajor_val_three, Shape.rowMajor_val_one]
    have h0 : (j 0).val < 1 := (j 0).isLt
    have h1 : (j 1).val < 1 := (j 1).isLt
    have h2 : (j 2).val < 1 := (j 2).isLt
    show 0 = ((j 0).val * 1 + (j 1).val) * 1 + (j 2).val; omega)

/-- A column copied along the 8192 lanes reads, at lane `c` of row `r`, the column's entry of row `r`. -/
theorem bcast_1a1_1ab (v : S1x128x1.Idx → α) (h : S1x128x1.Broadcasts S1x128x8192) (r : Fin 128) (c : Fin 8192) :
    broadcastTo S1x128x8192 v h (ix3 (0 : Fin 1) r c) = v (ix3 (0 : Fin 1) r (0 : Fin 1)) :=
  broadcastTo_apply v h _ _ (fun a => match a with
    | ⟨0, _⟩ => rfl
    | ⟨1, _⟩ => rfl
    | ⟨2, _⟩ => rfl)

end Layout

/-- Reducing the lanes of a tile: the index of row `r` with lane `v` put back is (0, r, v). -/
theorem lift2_eq (r : Fin 128) (v : Fin 8192) :
    reduces_S1x128x8192_S1x128.lift (ix2 (0 : Fin 1) r) v = ix3 (0 : Fin 1) r v :=
  funext fun a => match a with
    | ⟨0, _⟩ => Fin.ext rfl
    | ⟨1, _⟩ => Fin.ext rfl
    | ⟨2, _⟩ => Fin.ext rfl

/-! ## One row of the tile -/

/-- Row `r` of the tile's logits. -/
abbrev rowOf (x0 : Vec Ideal S1x128x8192 .f32) (r : Fin 128) : ClsSpec.Row := fun v => x0 (ix3 (0 : Fin 1) r v)
/-- Row `r`'s token. -/
abbrev tokOf (x1 : Vec Ideal S1x128x1 .i32) (r : Fin 128) : BitVec 32 := x1 (ix3 (0 : Fin 1) r (0 : Fin 1))

/-- The maximum over the lanes, kept as a column, is at row `r` the row's maximum. -/
theorem rowMax_at (x0 : Vec Ideal S1x128x8192 .f32) (r : Fin 128) (hφ : FKind.Formats .f32)
    (hacc : (0xFF800000#32 : BitVec 32) = FKind.maximumf.neutral .f32 hφ) :
    shapeCast S1x128x1 (multiReduction (F := Ideal) .maximumf [2] S1x128 x0 0xFF800000#32 reduces_S1x128x8192_S1x128 hφ hacc)
        shapeCasts_S1x128_S1x128x1 (ix3 (0 : Fin 1) r (0 : Fin 1)) = ClsSpec.rowMax (rowOf x0 r) := by
  refine (cast_1a_1a1 _ _ r).trans ?_
  refine (Ideal.multiReduction_maximumf_single x0 _ reduces_S1x128x8192_S1x128 hφ hacc (ix2 (0 : Fin 1) r)).trans ?_
  unfold ClsSpec.rowMax
  exact congrArg (fun f : Fin 8192 → EReal => (Finset.univ : Finset (Fin 8192)).fold max (Ideal.ofBits .f32 0xFF800000#32) f)
    (funext fun v => congrArg x0 (lift2_eq r v))

/-- The sum over the lanes of the exponentials of the tile less its row maxima is at row `r` the row's sum of
    shifted exponentials. -/
theorem expSum_at (x0 : Vec Ideal S1x128x8192 .f32) (r : Fin 128) (hφ : FKind.Formats .f32)
    (hacc : (0xFF800000#32 : BitVec 32) = FKind.maximumf.neutral .f32 hφ)
    (hacc0 : (0x00000000#32 : BitVec 32) = FKind.add.neutral .f32 hφ) :
    multiReduction (F := Ideal) .add [2] S1x128
        (exp (subf x0 (broadcastTo S1x128x8192
          (shapeCast S1x128x1 (multiReduction (F := Ideal) .maximumf [2] S1x128 x0 0xFF800000#32 reduces_S1x128x8192_S1x128 hφ hacc)
            shapeCasts_S1x128_S1x128x1) broadcasts_S1x128x1_S1x128x8192)))
        0x00000000#32 reduces_S1x128x8192_S1x128 hφ hacc0 (ix2 (0 : Fin 1) r)
      = ClsSpec.expSum (rowOf x0 r) (ClsSpec.rowMax (rowOf x0 r)) := by
  refine (Ideal.multiReduction_add_single _ _ reduces_S1x128x8192_S1x128 hφ hacc0 (ix2 (0 : Fin 1) r)).trans ?_
  unfold ClsSpec.expSum
  refine Finset.sum_congr rfl fun (v : Fin 8192) _ => ?_
  refine (congrArg _ (lift2_eq r v)).trans ?_
  show Ideal.exp (x0 (ix3 (0 : Fin 1) r v) - _) = _
  refine congrArg (fun M => Ideal.exp (x0 (ix3 (0 : Fin 1) r v) - M)) ?_
  exact (bcast_1a1_1ab _ _ r v).trans (rowMax_at x0 r hφ hacc)

/-- The sum over the lanes of the tile masked by "the lane's number is the row's token" is at row `r` the row's
    masked sum. -/
theorem sel_at (x0 : Vec Ideal S1x128x8192 .f32) (x1 : Vec Ideal S1x128x1 .i32) (r : Fin 128) (hφ : FKind.Formats .f32)
    (hacc0 : (0x00000000#32 : BitVec 32) = FKind.add.neutral .f32 hφ) :
    multiReduction (F := Ideal) .add [2] S1x128
        (select (cmpi .eq (iota .tc S1x128x8192 32 [2] iota_S1x128x8192_d2_w32)
            (broadcastTo S1x128x8192 (k0_pay5 (F := Ideal) x1) broadcasts_S1x128x1_S1x128x8192))
          x0 (broadcast S1x128x8192 (Scalar.ofBits (F := Ideal) .f32 0x00000000#32)))
        0x00000000#32 reduces_S1x128x8192_S1x128 hφ hacc0 (ix2 (0 : Fin 1) r)
      = ClsSpec.selK (rowOf x0 r) (tokOf x1 r) := by
  refine (Ideal.multiReduction_add_single _ _ reduces_S1x128x8192_S1x128 hφ hacc0 (ix2 (0 : Fin 1) r)).trans ?_
  unfold ClsSpec.selK
  refine Finset.sum_congr rfl fun (v : Fin 8192) _ => ?_
  refine (congrArg _ (lift2_eq r v)).trans ?_
  show Scalar.select (IntOp.cmpi .eq (iota .tc S1x128x8192 32 [2] iota_S1x128x8192_d2_w32 (ix3 (0 : Fin 1) r v))
      (broadcastTo S1x128x8192 (k0_pay5 (F := Ideal) x1) broadcasts_S1x128x1_S1x128x8192 (ix3 (0 : Fin 1) r v)))
      (x0 (ix3 (0 : Fin 1) r v)) (Ideal.ofBits .f32 0x00000000#32) = _
  rw [iota_single_apply, bcast_1a1_1ab]
  simp only [k0_pay5, shapeCast_self]

/-- The tile's weights: at row `r` the weight of the row's token. -/
theorem pay6_apply (x1 : Vec Ideal S1x128x1 .i32) (r : Fin 128) :
    k0_pay6 (F := Ideal) x1 (ix2 (0 : Fin 1) r) = ClsSpec.validK (tokOf x1 r) := by
  unfold k0_pay6 k0_pay5
  show FloatOps.sitofp (F := Ideal) .f32 ((IntOp.cmpi .sge (shapeCast S1x128 (shapeCast S1x128x1 x1 shapeCasts_S1x128x1_S1x128x1) shapeCasts_S1x128x1_S1x128 (ix2 (0 : Fin 1) r)) 4#32).setWidth 32) = _
  rw [shapeCast_self, cast_1a1_1a]
  rfl

/-! ## The tile's two numbers -/

/-- The tile's count of weighted rows. -/
theorem pay8_eq (x1 : Vec Ideal S1x128x1 .i32) :
    k0_pay8 (F := Ideal) x1 = ∑ r : Fin 128, ClsSpec.validK (tokOf x1 r) := by
  unfold k0_pay8
  dsimp only
  unfold extractAt
  refine (cast_1_111 _ _ _).trans ?_
  refine (Ideal.multiReduction_add_total _ _ reduces_S1x1x128_S1 (by decide) _ _ (ix1 (0 : Fin 1))).trans ?_
  rw [sum_idx3_11n]
  refine Finset.sum_congr rfl fun r _ => ?_
  exact (cast_1a_11a _ _ r).trans (pay6_apply x1 r)

/-- The tile's weighted sum of negative log-likelihoods. -/
theorem pay7_eq (x0 : Vec Ideal S1x128x8192 .f32) (x1 : Vec Ideal S1x128x1 .i32) :
    k0_pay7 (F := Ideal) x0 x1
      = ∑ r : Fin 128, ClsSpec.nllK (rowOf x0 r) (tokOf x1 r) * ClsSpec.validK (tokOf x1 r) := by
  unfold k0_pay7
  dsimp only
  unfold extractAt
  refine (cast_1_111 _ _ _).trans ?_
  refine (Ideal.multiReduction_add_total _ _ reduces_S1x1x128_S1 (by decide) _ _ (ix1 (0 : Fin 1))).trans ?_
  rw [sum_idx3_11n]
  refine Finset.sum_congr rfl fun r _ => ?_
  refine (cast_1a_11a _ _ r).trans ?_
  refine (mulf_apply _ _ _).trans (congrArg₂ (· * ·) ?_ (pay6_apply x1 r))
  refine (cast_1a1_1a _ _ r).trans ?_
  unfold ClsSpec.nllK ClsSpec.rowLse
  refine (subf_apply _ _ _).trans (congrArg₂ (· - ·) ?_ ?_)
  · refine (addf_apply _ _ _).trans (congrArg₂ (· + ·) ?_ (rowMax_at x0 r _ _))
    show Ideal.log _ = Ideal.log _
    refine congrArg Ideal.log ?_
    exact (cast_1a_1a1 _ _ r).trans (expSum_at x0 r _ _ _)
  · exact (cast_1a_1a1 _ _ r).trans (sel_at x0 x1 r _ _)

/-! ## The accumulating and the reset payloads -/

/-- Adding a tile's number to the block's one entry. -/
theorem pay1_apply (s : Ideal .f32) (acc : Vec Ideal S1x1x1 .f32) (j : S1x1x1.Idx) :
    k0_pay1 (F := Ideal) s acc j = acc j + s := by
  show addf (F := Ideal) (φ := .f32) (shapeCast S1x1x1 acc shapeCasts_S1x1x1_S1x1x1) (broadcast S1x1x1 s) j = _
  rw [shapeCast_self]
  rfl

theorem pay2_apply (s : Ideal .f32) (acc : Vec Ideal S1x1x1 .f32) (j : S1x1x1.Idx) :
    k0_pay2 (F := Ideal) s acc j = acc j + s := by
  show addf (F := Ideal) (φ := .f32) (shapeCast S1x1x1 acc shapeCasts_S1x1x1_S1x1x1) (broadcast S1x1x1 s) j = _
  rw [shapeCast_self]
  rfl

/-- The reset block is zero. -/
theorem pay3_apply (j : S1x1x1.Idx) : k0_pay3 (F := Ideal) j = 0 := by
  unfold k0_pay3
  exact Ideal.ofBits_zero_f32

theorem pay4_apply (j : S1x1x1.Idx) : k0_pay4 (F := Ideal) j = 0 := by
  unfold k0_pay4
  exact Ideal.ofBits_zero_f32

/-! ## The loss from the two accumulator arrays -/

/-- The sum of a 4 × 1 × 1 array from zero, as the program takes it. -/
theorem sumAll_read (A : Vec Ideal S4x1x1 .f32) (j : S_.Idx) :
    Host.reduceAdd (F := Ideal) A (constant S_ .f32 0x00000000#32) reducesTo_S4x1x1_S_d0_1_2 h_S_ j
      = 0 + ∑ b : Fin 4, A (ix3 b (0 : Fin 1) (0 : Fin 1)) := by
  refine (hostReduceAdd_apply _ _ _ _ j).trans ?_
  refine (Ideal.hostReduceAdd_total reducesTo_S4x1x1_S_d0_1_2 (fun b => b.elim0) _ _ j).trans ?_
  rw [sum_idx3_n11]
  show Ideal.ofBits .f32 0x00000000#32 + _ = _
  rw [Ideal.ofBits_zero_f32]

/-- The loss the program forms: the first array's sum over the second's, the divisor raised to at least one. -/
theorem head_read (A2 A3 : Vec Ideal S4x1x1 .f32) :
    Host.divf (F := Ideal) (Host.reduceAdd A2 (constant S_ .f32 0x00000000#32) reducesTo_S4x1x1_S_d0_1_2 h_S_)
        (maximumf (Host.reduceAdd A3 (constant S_ .f32 0x00000000#32) reducesTo_S4x1x1_S_d0_1_2 h_S_)
          (constant S_ .f32 0x3F800000#32))
      = fun _ => Ideal.div (0 + ∑ b : Fin 4, A2 (ix3 b (0 : Fin 1) (0 : Fin 1)))
          (max (0 + ∑ b : Fin 4, A3 (ix3 b (0 : Fin 1) (0 : Fin 1))) 1) := by
  funext j
  refine (hostDivf_apply _ _ j).trans ?_
  refine congrArg₂ Ideal.div (sumAll_read A2 j) ?_
  refine (maximumf_apply _ _ j).trans ?_
  refine congrArg₂ max (sumAll_read A3 j) ?_
  show Ideal.ofBits .f32 0x3F800000#32 = 1
  exact Ideal.ofBits_one_f32

end Cert.KernelIdeal.HandValue

end
-- ==== Proof.KHead.lean ====
/-
  The first stretch of host operations after the kernel's region: from the two per-batch accumulator arrays it forms the
  classification loss (the sum of the first over the sum of the second, the denominator raised to at least one), a
  broadcast of the pointer mask, and a constant; it writes no argument array.
-/
import proofs.«411483_j80101140070992_1_alg».proof.Proof.Gen.KernelIdeal.Launch
import Idealize.ShloMosaic.Lib.StableHlo.Run

noncomputable section

namespace Cert.KernelIdeal.HandHead

open Cert.KernelIdeal Cert.KernelIdeal.Gen Idealize.ShloMosaic Idealize.ShloMosaic.TcCoe Idealize.SL.Sem Idealize.ShloMosaic.StableHlo

variable {F : FTy → Type} [FloatOps F]

/-- The loss after the first stretch: the two accumulators summed, the second raised to at least one, the quotient. -/
theorem v5_eq (W : Valuation τ sig (Elt F)) :
    after (hostOps1 (F := F)) W (Proc.devRef .tc main_v5)
      = Host.divf (Host.reduceAdd (W (Proc.devRef .tc main_v1_0)) (constant S_ .f32 0x00000000#32) reducesTo_S4x1x1_S_d0_1_2 h_S_)
          (maximumf (Host.reduceAdd (W (Proc.devRef .tc main_v1_1)) (constant S_ .f32 0x00000000#32) reducesTo_S4x1x1_S_d0_1_2 h_S_)
            (constant S_ .f32 0x3F800000#32)) := by
  after_results

/-- The pointer mask broadcast along the box axis. -/
theorem v6_eq (W : Valuation τ sig (Elt F)) :
    after (hostOps1 (F := F)) W (Proc.devRef .tc main_v6)
      = broadcastInDim S4x1x2048 ![0, 2] bcast_S4x2048_S4x1x2048_0_2 (W (Proc.devRef .tc main_arg9)) := by
  after_results

/-- The mask fill constant. -/
theorem cst2_eq (W : Valuation τ sig (Elt F)) :
    after (hostOps1 (F := F)) W (Proc.devRef .tc main_cst_2) = constant S_ .f32 0xCE6E6B28#32 := by
  after_results

theorem arg1_eq (W : Valuation τ sig (Elt F)) : after (hostOps1 (F := F)) W (Proc.devRef .tc main_arg1) = W (Proc.devRef .tc main_arg1) := by after_results
theorem arg2_eq (W : Valuation τ sig (Elt F)) : after (hostOps1 (F := F)) W (Proc.devRef .tc main_arg2) = W (Proc.devRef .tc main_arg2) := by after_results
theorem arg3_eq (W : Valuation τ sig (Elt F)) : after (hostOps1 (F := F)) W (Proc.devRef .tc main_arg3) = W (Proc.devRef .tc main_arg3) := by after_results
theorem arg4_eq (W : Valuation τ sig (Elt F)) : after (hostOps1 (F := F)) W (Proc.devRef .tc main_arg4) = W (Proc.devRef .tc main_arg4) := by after_results
theorem arg5_eq (W : Valuation τ sig (Elt F)) : after (hostOps1 (F := F)) W (Proc.devRef .tc main_arg5) = W (Proc.devRef .tc main_arg5) := by after_results
theorem arg6_eq (W : Valuation τ sig (Elt F)) : after (hostOps1 (F := F)) W (Proc.devRef .tc main_arg6) = W (Proc.devRef .tc main_arg6) := by after_results
theorem arg8_eq (W : Valuation τ sig (Elt F)) : after (hostOps1 (F := F)) W (Proc.devRef .tc main_arg8) = W (Proc.devRef .tc main_arg8) := by after_results
theorem arg9_eq (W : Valuation τ sig (Elt F)) : after (hostOps1 (F := F)) W (Proc.devRef .tc main_arg9) = W (Proc.devRef .tc main_arg9) := by after_results
theorem arg10_eq (W : Valuation τ sig (Elt F)) : after (hostOps1 (F := F)) W (Proc.devRef .tc main_arg10) = W (Proc.devRef .tc main_arg10) := by after_results

end Cert.KernelIdeal.HandHead

end
-- ==== Proof.KIValue.lean ====
/-
  The value of the kernel's region and of the loss formed from it.

  The region visits the points t = 16 b + l of a 4 × 16 grid. Each of its two outputs has one 1 × 1 × 1 block per batch
  b, set to zero plus the tile's number where l = 0 and increased by the tile's number at every later l. So after the
  last point of batch b the first block holds the sum over the batch's sixteen tiles of the tile's weighted negative
  log-likelihoods, and the second the sum of the tiles' weights: a fold over the run of sixteen points, read once.
  Reading each tile's two numbers row by row, each row of a tile as a position of the launch arrays, the quotient the
  program forms after the region is the classification loss summed batch by batch, tile by tile and row by row.
-/
import proofs.«411483_j80101140070992_1_alg».proof.Proof.KI.Pieces
import proofs.«411483_j80101140070992_1_alg».proof.Proof.KIBlocks
import proofs.«411483_j80101140070992_1_alg».proof.Proof.KIFinal
import proofs.«411483_j80101140070992_1_alg».proof.Proof.KIPay
import proofs.«411483_j80101140070992_1_alg».proof.Proof.KHead
import Idealize.ShloMosaic.Lib.Pipeline.Value

set_option maxRecDepth 16384

noncomputable section

namespace Cert.KernelIdeal.HandValue

open Idealize.ShloMosaic Idealize.ShloMosaic.TcCoe Idealize.SL.Sem
open Idealize.ShloMosaic.ValueIdx
open Cert.KernelIdeal Cert.KernelIdeal.Gen Cert.KernelIdeal.Hand Cert.KernelIdeal.HandBlocks

/-! ## The two cases at a point, output by output -/

section AnyValues

variable {F : FTy → Type} [FloatOps F]
variable (m : (ℓ : Loc nD τ sig) → Buf (Elt F) ℓ)

/-- Where t ≡ 0 (mod 16) the first output's buffer ends at the zero block plus the tile's first number. -/
theorem outs2_A (c : Dev nD) (t : Fin cfg0.N) (h0 : t.val % 16 = 0) :
    (outsAt0 m c t.val t.isLt).1 = k0_pay1 (k0_pay7 (xblk0 m c t) (xblk1 m c t)) (k0_pay3 (F := F)) := by
  rw [outsAt0_A m c t h0]
  dsimp only
  exact out2_A c (grid0.coords t) (ms0_0 t) (hs0_0 t) (ms0_1 t) (hs0_1 t) (ms0_2 t) (hs0_2 t) (ms0_3 t) (hs0_3 t)
    ((hcond0_0 t).mpr h0) (xblk0 m c t) (xblk1 m c t)

/-- and the second's at the zero block plus the tile's second number. -/
theorem outs3_A (c : Dev nD) (t : Fin cfg0.N) (h0 : t.val % 16 = 0) :
    (outsAt0 m c t.val t.isLt).2 = k0_pay2 (k0_pay8 (xblk1 m c t)) (k0_pay4 (F := F)) := by
  rw [outsAt0_A m c t h0]
  dsimp only
  exact out3_A c (grid0.coords t) (ms0_0 t) (hs0_0 t) (ms0_1 t) (hs0_1 t) (ms0_2 t) (hs0_2 t) (ms0_3 t) (hs0_3 t)
    ((hcond0_0 t).mpr h0) (xblk0 m c t) (xblk1 m c t)

/-- Elsewhere the first output's buffer ends at what the point before left plus the tile's first number. -/
theorem outs2_B (c : Dev nD) (t : Fin cfg0.N) (h0 : ¬t.val % 16 = 0) :
    (outsAt0 m c t.val t.isLt).1
      = k0_pay1 (k0_pay7 (xblk0 m c t) (xblk1 m c t)) (outsAt0 m c (t.val - 1) (Nat.lt_of_le_of_lt (Nat.sub_le _ _) t.isLt)).1 := by
  rw [outsAt0_B m c t h0]
  dsimp only
  exact out2_B c (grid0.coords t) (ms0_0 t) (hs0_0 t) (ms0_1 t) (hs0_1 t) (ms0_2 t) (hs0_2 t) (ms0_3 t) (hs0_3 t)
    (fun h => h0 ((hcond0_0 t).mp h)) (xblk0 m c t) (xblk1 m c t)
    (outsAt0 m c (t.val - 1) (Nat.lt_of_le_of_lt (Nat.sub_le _ _) t.isLt)).1
    (outsAt0 m c (t.val - 1) (Nat.lt_of_le_of_lt (Nat.sub_le _ _) t.isLt)).2

/-- and the second's at what the point before left plus the tile's second number. -/
theorem outs3_B (c : Dev nD) (t : Fin cfg0.N) (h0 : ¬t.val % 16 = 0) :
    (outsAt0 m c t.val t.isLt).2
      = k0_pay2 (k0_pay8 (xblk1 m c t)) (outsAt0 m c (t.val - 1) (Nat.lt_of_le_of_lt (Nat.sub_le _ _) t.isLt)).2 := by
  rw [outsAt0_B m c t h0]
  dsimp only
  exact out3_B c (grid0.coords t) (ms0_0 t) (hs0_0 t) (ms0_1 t) (hs0_1 t) (ms0_2 t) (hs0_2 t) (ms0_3 t) (hs0_3 t)
    (fun h => h0 ((hcond0_0 t).mp h)) (xblk0 m c t) (xblk1 m c t)
    (outsAt0 m c (t.val - 1) (Nat.lt_of_le_of_lt (Nat.sub_le _ _) t.isLt)).1
    (outsAt0 m c (t.val - 1) (Nat.lt_of_le_of_lt (Nat.sub_le _ _) t.isLt)).2

/-- The buffer contents after the region, over which the operations that follow it are read: the region's four arrays
    at what the run leaves in them, every other buffer as the region found it. -/
abbrev Wk (c : Dev nD) : Valuation τ sig (Elt F) :=
  Pipeline.withArrays spec0 c (V0 m c) (fun w => (dats m 0 c).arrAt w cfg0.N)

theorem Wk_v1_0 (c : Dev nD) : Wk m c (Proc.devRef .tc main_v1_0) = (dats m 0 c).arrAt 2 cfg0.N :=
  Pipeline.withArrays_arr spec0 launch0.win.arr_inj c _ _ 2
theorem Wk_v1_1 (c : Dev nD) : Wk m c (Proc.devRef .tc main_v1_1) = (dats m 0 c).arrAt 3 cfg0.N :=
  Pipeline.withArrays_arr spec0 launch0.win.arr_inj c _ _ 3

/-- An argument the region does not stage holds its launch contents there. -/
theorem Wk_arg1 (c : Dev nD) : Wk m c (Proc.devRef .tc main_arg1) = m ((c.tc : Thread nD τ).loc main_arg1) :=
  (Pipeline.withArrays_of_ne spec0 c (V0 m c) _ main_arg1 (by decide)).trans (V_main_arg1 m c)
theorem Wk_arg2 (c : Dev nD) : Wk m c (Proc.devRef .tc main_arg2) = m ((c.tc : Thread nD τ).loc main_arg2) :=
  (Pipeline.withArrays_of_ne spec0 c (V0 m c) _ main_arg2 (by decide)).trans (V_main_arg2 m c)
theorem Wk_arg3 (c : Dev nD) : Wk m c (Proc.devRef .tc main_arg3) = m ((c.tc : Thread nD τ).loc main_arg3) :=
  (Pipeline.withArrays_of_ne spec0 c (V0 m c) _ main_arg3 (by decide)).trans (V_main_arg3 m c)
theorem Wk_arg4 (c : Dev nD) : Wk m c (Proc.devRef .tc main_arg4) = m ((c.tc : Thread nD τ).loc main_arg4) :=
  (Pipeline.withArrays_of_ne spec0 c (V0 m c) _ main_arg4 (by decide)).trans (V_main_arg4 m c)
theorem Wk_arg5 (c : Dev nD) : Wk m c (Proc.devRef .tc main_arg5) = m ((c.tc : Thread nD τ).loc main_arg5) :=
  (Pipeline.withArrays_of_ne spec0 c (V0 m c) _ main_arg5 (by decide)).trans (V_main_arg5 m c)
theorem Wk_arg6 (c : Dev nD) : Wk m c (Proc.devRef .tc main_arg6) = m ((c.tc : Thread nD τ).loc main_arg6) :=
  (Pipeline.withArrays_of_ne spec0 c (V0 m c) _ main_arg6 (by decide)).trans (V_main_arg6 m c)
theorem Wk_arg8 (c : Dev nD) : Wk m c (Proc.devRef .tc main_arg8) = m ((c.tc : Thread nD τ).loc main_arg8) :=
  (Pipeline.withArrays_of_ne spec0 c (V0 m c) _ main_arg8 (by decide)).trans (V_main_arg8 m c)
theorem Wk_arg9 (c : Dev nD) : Wk m c (Proc.devRef .tc main_arg9) = m ((c.tc : Thread nD τ).loc main_arg9) :=
  (Pipeline.withArrays_of_ne spec0 c (V0 m c) _ main_arg9 (by decide)).trans (V_main_arg9 m c)
theorem Wk_arg10 (c : Dev nD) : Wk m c (Proc.devRef .tc main_arg10) = m ((c.tc : Thread nD τ).loc main_arg10) :=
  (Pipeline.withArrays_of_ne spec0 c (V0 m c) _ main_arg10 (by decide)).trans (V_main_arg10 m c)

/-- The same, for any of the nine arguments the region does not stage. -/
theorem Wk_kept (c : Dev nD) (b : Ref sig .tc)
    (hb : b ∈ [main_arg1, main_arg2, main_arg3, main_arg4, main_arg5, main_arg6, main_arg8, main_arg9, main_arg10]) :
    Wk m c (Proc.devRef .tc b) = m ((c.tc : Thread nD τ).loc b) := by
  simp only [List.mem_cons, List.mem_singleton, List.not_mem_nil, or_false] at hb
  rcases hb with rfl | rfl | rfl | rfl | rfl | rfl | rfl | rfl | rfl
  · exact Wk_arg1 m c
  · exact Wk_arg2 m c
  · exact Wk_arg3 m c
  · exact Wk_arg4 m c
  · exact Wk_arg5 m c
  · exact Wk_arg6 m c
  · exact Wk_arg8 m c
  · exact Wk_arg9 m c
  · exact Wk_arg10 m c

end AnyValues

/-! ## A run of sixteen points sums its tiles -/

/-- A point-indexed 1 × 1 × 1 block that is `zero + p n` at the multiples of 16 and otherwise what the point before
    left plus `p n` holds, at the last point of a run of sixteen, the sum of the run's `p`. -/
theorem run_sum {N : ℕ} (f : (n : ℕ) → n < N → Vec Ideal S1x1x1 .f32) (p : ℕ → EReal)
    (pay : Ideal .f32 → Vec Ideal S1x1x1 .f32 → FVec Ideal S1x1x1 .f32) (zero : FVec Ideal S1x1x1 .f32)
    (hpay : ∀ s acc j, pay s acc j = acc j + s) (hzero : ∀ j, zero j = 0)
    (hA : ∀ (n : ℕ) (h : n < N), n % 16 = 0 → f n h = pay (p n) zero)
    (hB : ∀ (n : ℕ) (h : n + 1 < N), ¬(n + 1) % 16 = 0 → f (n + 1) h = pay (p (n + 1)) (f n (Nat.lt_of_succ_lt h)))
    (t : ℕ) (ht : t < N) (hmod : t % 16 = 15) (j : S1x1x1.Idx) :
    f t ht j = ∑ s ∈ Finset.range 16, p (16 * (t / 16) + s) := by
  have h' : 16 * (t / 16) + t % 16 < N := by rw [Nat.div_add_mod]; exact ht
  rw [Pipeline.eq_accAt_of_mod f 16 (fun n _ => pay (p n) zero) (fun n _ acc => pay (p n) acc) hA hB (by decide) t ht h']
  rw [Pipeline.accAt_add_apply (fun n _ => pay (p n) zero) (fun n _ acc => pay (p n) acc) (fun _ => (0 : EReal)) (fun n _ => p n)
      (16 * (t / 16)) 15 (fun h i => by rw [hpay, hzero]) (fun n h acc i _ _ => hpay _ _ _) (t % 16) (by omega) h' j]
  rw [hmod, zero_add]

section AtIdeal

variable (m : (ℓ : Loc nD τ sig) → Buf (Elt Ideal) ℓ)

/-- The first number of the tile at point `n` (zero past the grid). -/
def nllTile (c : Dev nD) (n : ℕ) : EReal :=
  if h : n < cfg0.N then k0_pay7 (F := Ideal) (xblk0 m c ⟨n, h⟩) (xblk1 m c ⟨n, h⟩) else 0
/-- The second number of the tile at point `n` (zero past the grid). -/
def cntTile (c : Dev nD) (n : ℕ) : EReal :=
  if h : n < cfg0.N then k0_pay8 (F := Ideal) (xblk1 m c ⟨n, h⟩) else 0

theorem pt15_mod (b : Fin 4) : (pt b 15).val % 16 = 15 := by
  rw [pt_val]; show (16 * b.val + 15) % 16 = 15; omega
theorem pt15_div (b : Fin 4) : (pt b 15).val / 16 = b.val := by
  rw [pt_val]; show (16 * b.val + 15) / 16 = b.val; omega

/-- After the last point of batch `b` the first output's buffer holds the sum of the batch's sixteen first numbers. -/
theorem acc2 (c : Dev nD) (b : Fin 4) (j : S1x1x1.Idx) :
    (outsAt0 m c (pt b 15).val (pt b 15).isLt).1 j
      = ∑ j' : Fin 16, k0_pay7 (F := Ideal) (xblk0 m c (pt b j')) (xblk1 m c (pt b j')) := by
  rw [run_sum (fun n h => (outsAt0 m c n h).1) (nllTile m c) (k0_pay1 (F := Ideal)) (k0_pay3 (F := Ideal)) pay1_apply pay3_apply
      (fun n h h0 => (outs2_A m c ⟨n, h⟩ h0).trans (by unfold nllTile; rw [dif_pos h]))
      (fun n h h0 => (outs2_B m c ⟨n + 1, h⟩ h0).trans (by unfold nllTile; rw [dif_pos h]; rfl))
      (pt b 15).val (pt b 15).isLt (pt15_mod b) j]
  rw [Finset.sum_range, pt15_div]
  refine Finset.sum_congr rfl fun j' _ => ?_
  have h : 16 * b.val + j'.val < cfg0.N := (pt b j').isLt
  unfold nllTile
  rw [dif_pos h]
  rfl

/-- and the second's the sum of the batch's sixteen second numbers. -/
theorem acc3 (c : Dev nD) (b : Fin 4) (j : S1x1x1.Idx) :
    (outsAt0 m c (pt b 15).val (pt b 15).isLt).2 j
      = ∑ j' : Fin 16, k0_pay8 (F := Ideal) (xblk1 m c (pt b j')) := by
  rw [run_sum (fun n h => (outsAt0 m c n h).2) (cntTile m c) (k0_pay2 (F := Ideal)) (k0_pay4 (F := Ideal)) pay2_apply pay4_apply
      (fun n h h0 => (outs3_A m c ⟨n, h⟩ h0).trans (by unfold cntTile; rw [dif_pos h]))
      (fun n h h0 => (outs3_B m c ⟨n + 1, h⟩ h0).trans (by unfold cntTile; rw [dif_pos h]; rfl))
      (pt b 15).val (pt b 15).isLt (pt15_mod b) j]
  rw [Finset.sum_range, pt15_div]
  refine Finset.sum_congr rfl fun j' _ => ?_
  have h : 16 * b.val + j'.val < cfg0.N := (pt b j').isLt
  unfold cntTile
  rw [dif_pos h]
  rfl

/-! ## The classification loss -/

/-- The logits and the tokens the program is launched with, position by position. -/
def Xk (c : Dev nD) : Fin 4 → Fin 2048 → ClsSpec.Row := fun b l v => xarr m c (ix3 b l v)
def Tk (c : Dev nD) : Fin 4 → Fin 2048 → BitVec 32 := fun b l => tokarr m c (ix2 b l)

/-- THE LOSS the program forms after the region: the weighted negative log-likelihoods of all positions, summed
    batch by batch, tile by tile and row by row, over the number of weighted positions raised to at least one. -/
theorem cls_kernel (c : Dev nD) :
    StableHlo.after (hostOps1 (F := Ideal)) (Wk m c) (Proc.devRef .tc main_v5)
      = fun _ => Ideal.div (0 + ∑ b : Fin 4, ∑ j : Fin 16, ∑ r : Fin 128,
            ClsSpec.nllK (Xk m c b (ClsSpec.tilePos j r)) (Tk m c b (ClsSpec.tilePos j r)) * ClsSpec.validK (Tk m c b (ClsSpec.tilePos j r)))
          (max (0 + ∑ b : Fin 4, ∑ j : Fin 16, ∑ r : Fin 128, ClsSpec.validK (Tk m c b (ClsSpec.tilePos j r))) 1) := by
  rw [HandHead.v5_eq, Wk_v1_0, Wk_v1_1, head_read]
  funext _
  refine congrArg₂ Ideal.div (congrArg (fun x => 0 + x) (Finset.sum_congr rfl fun b _ => ?_))
    (congrArg (fun x => max (0 + x) 1) (Finset.sum_congr rfl fun b _ => ?_))
  · rw [HandFinal.final2 m c b, acc2 m c b]
    refine Finset.sum_congr rfl fun j _ => ?_
    rw [pay7_eq]
    refine Finset.sum_congr rfl fun r _ => ?_
    have e0 : rowOf (xblk0 m c (pt b j)) r = Xk m c b (ClsSpec.tilePos j r) := funext fun v => xblk0_apply m c b j r v
    have e1 : tokOf (xblk1 m c (pt b j)) r = Tk m c b (ClsSpec.tilePos j r) := xblk1_apply m c b j r
    rw [e0, e1]
  · rw [HandFinal.final3 m c b, acc3 m c b]
    refine Finset.sum_congr rfl fun j _ => ?_
    rw [pay8_eq]
    refine Finset.sum_congr rfl fun r _ => ?_
    have e1 : tokOf (xblk1 m c (pt b j)) r = Tk m c b (ClsSpec.tilePos j r) := xblk1_apply m c b j r
    rw [e1]

end AtIdeal

end Cert.KernelIdeal.HandValue

end
-- ==== Proof.RefCls.lean ====
/-
  The reference program's classification loss, read at an index.

  Over the first five stretches of the reference's host operations (the constant of the four uncounted tokens; the
  log-softmax over the vocabulary axis; the tokens as a column; the take-along-axis at the tokens; the masked mean),
  the value left in the loss's buffer is computed as one composed term of the logits and the tokens, and that term
  is read position by position: the log-softmax of a row, the token counted from the end when negative, the range
  check, the gathered entry, the weight of a position, and the two sums over the 4 × 2048 positions.
-/
import proofs.«411483_j80101140070992_1_alg».proof.Proof.RefChain
import proofs.«411483_j80101140070992_1_alg».proof.Proof.ClsSpec
import Idealize.ShloMosaic.Lib.StableHlo.Run
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.ReferenceIdeal.HandCls

open Cert.ReferenceIdeal Cert.ReferenceIdeal.Gen Idealize.ShloMosaic Idealize.ShloMosaic.TcCoe Idealize.SL.Sem
open Idealize.ShloMosaic.StableHlo Idealize.ShloMosaic.ValueIdx

/-! ## Layout operations and the gather, read at an index -/

section Layout
variable {α : Type}

/-- A 4 × 2048 array as a column, read at (b, l, 0). -/
theorem bc_col (y : S4x2048.Idx → α) (b : Fin 4) (l : Fin 2048) (u : Fin 1) :
    broadcastInDim S4x2048x1 ![0, 1] bcast_S4x2048_S4x2048x1_0_1 y (ix3 b l u) = y (ix2 b l) :=
  broadcastInDim_apply _ _ y _ (ix2 b l) (fun a => by match a with | ⟨0, _⟩ => rfl | ⟨1, _⟩ => rfl)

/-- A column broadcast along the vocabulary axis, read at (b, l, v). -/
theorem bc_full (y : S4x2048x1.Idx → α) (b : Fin 4) (l : Fin 2048) (v : Fin 8192) :
    broadcastInDim S4x2048x8192 ![0, 1, 2] bcast_S4x2048x1_S4x2048x8192_0_1_2 y (ix3 b l v) = y (ix3 b l (0 : Fin 1)) :=
  broadcastInDim_apply _ _ y _ (ix3 b l (0 : Fin 1)) (fun a => by match a with | ⟨0, _⟩ => rfl | ⟨1, _⟩ => rfl | ⟨2, _⟩ => rfl)

/-- The take-along-axis gather's dimension numbers: batch axes 0 and 1 on both operands, the vocabulary axis collapsed
    and start-indexed, one start index per position on a trailing unit axis. -/
abbrev gd := gather_S4x2048x8192_S4x2048x1x1_S4x2048x1_n_2_01_01_2_3_111

/-- The coordinate the result index gives a start-indices axis other than the index vector's: the result's own
    coordinate on the axis of the same number. -/
theorem siCoord_val (j : S4x2048x1.Idx) (c : Fin 4) (hc : c ∈ gd.siKept) (c' : Fin 3)
    (h : gd.batchDims[gd.siKept.idxOf c]? = some c') :
    (gd.siCoord j c hc).val = (j c').val := by
  unfold GatherDims.siCoord
  simp only [Fin.val_cast]
  obtain ⟨_, h'⟩ := List.getElem?_eq_some_iff.mp h
  rw [h']

/-- The start-indices index at which result index (b, l, u) reads its start index: (b, l, 0, 0). -/
theorem siIdx_eq (b : Fin 4) (l : Fin 2048) (u : Fin 1) (c : Fin gd.startIndexMap.length) :
    gd.siIdx (ix3 b l u) c = ix4 b l (0 : Fin 1) (0 : Fin 1) := by
  funext a
  refine Fin.ext ?_
  unfold GatherDims.siIdx
  match a with
  | ⟨0, _⟩ =>
    rw [dif_neg (show ¬ (0 : ℕ) = gd.indexVectorDim by decide)]
    exact siCoord_val (ix3 b l u) (0 : Fin 4) _ 0 (by decide)
  | ⟨1, _⟩ =>
    rw [dif_neg (show ¬ (1 : ℕ) = gd.indexVectorDim by decide)]
    exact siCoord_val (ix3 b l u) (1 : Fin 4) _ 1 (by decide)
  | ⟨2, _⟩ =>
    rw [dif_neg (show ¬ (2 : ℕ) = gd.indexVectorDim by decide)]
    exact (siCoord_val (ix3 b l u) (2 : Fin 4) _ 2 (by decide)).trans (by show u.val = 0; omega)
  | ⟨3, _⟩ =>
    rw [dif_pos (show (3 : ℕ) = gd.indexVectorDim by decide)]
    show c.val = 0
    have := c.isLt
    have hl : gd.startIndexMap.length = 1 := rfl
    omega

/-- THE TAKE-ALONG-AXIS GATHER READ AT (b, l, u): the operand's row (b, l) at the start index read signed and clamped
    into the row. -/
theorem gather_apply (x : S4x2048x8192.Idx → α) (idx : IVec S4x2048x1x1 32) (b : Fin 4) (l : Fin 2048) (u : Fin 1) :
    Host.gather gather_S4x2048x8192_S4x2048x1x1_S4x2048x1_n_2_01_01_2_3_111 x idx (ix3 b l u)
      = x (ix3 b l (ClsSpec.clampIdx (idx (ix4 b l (0 : Fin 1) (0 : Fin 1))))) := by
  unfold Host.gather
  refine congrArg x (funext fun a => Fin.ext ?_)
  match a with
  | ⟨0, _⟩ =>
    show gd.start (ix3 b l u) idx 0 + gd.batchCoord (ix3 b l u) 0 + gd.offCoord (ix3 b l u) 0 = b.val
    rw [gd.start_batching _ _ 0 (by decide), gd.offCoord_eq_zero _ 0 (by decide)]
    unfold GatherDims.batchCoord
    rw [dif_pos (by decide)]
    simp only [Nat.zero_add, Nat.add_zero]
    exact siCoord_val (ix3 b l u) _ _ 0 (by decide)
  | ⟨1, _⟩ =>
    show gd.start (ix3 b l u) idx 1 + gd.batchCoord (ix3 b l u) 1 + gd.offCoord (ix3 b l u) 1 = l.val
    rw [gd.start_batching _ _ 1 (by decide), gd.offCoord_eq_zero _ 1 (by decide)]
    unfold GatherDims.batchCoord
    rw [dif_pos (by decide)]
    simp only [Nat.zero_add, Nat.add_zero]
    exact siCoord_val (ix3 b l u) _ _ 1 (by decide)
  | ⟨2, _⟩ =>
    show gd.start (ix3 b l u) idx 2 + gd.batchCoord (ix3 b l u) 2 + gd.offCoord (ix3 b l u) 2
      = min (idx (ix4 b l (0 : Fin 1) (0 : Fin 1))).toInt.toNat 8191
    rw [gd.batchCoord_eq_zero _ 2 (by decide), gd.offCoord_eq_zero _ 2 (by decide)]
    unfold GatherDims.start
    rw [dif_pos (by decide), siIdx_eq]
    rfl

end Layout

variable {F : FTy → Type} [FloatOps F]

/-! ## The stages, as functions of the logits and the tokens -/

/-- The row maxima, taken once more against `-∞`: a 4 × 2048 array. -/
def rowMaxV (x : FVec F S4x2048x8192 .f32) : FVec F S4x2048 .f32 :=
  maximumf (broadcastInDim S4x2048 ![] bcast_S_S4x2048 (constant S_ .f32 0xFF800000#32))
    (Host.reduce FloatOps.maximumf x (constant S_ .f32 0xFF800000#32) reducesTo_S4x2048x8192_S4x2048_d2 h_S_)

/-- The logits shifted down by their row's maximum. -/
def shifted (x : FVec F S4x2048x8192 .f32) : FVec F S4x2048x8192 .f32 :=
  subf x (broadcastInDim S4x2048x8192 ![0, 1, 2] bcast_S4x2048x1_S4x2048x8192_0_1_2
    (broadcastInDim S4x2048x1 ![0, 1] bcast_S4x2048_S4x2048x1_0_1 (rowMaxV x)))

/-- The log-softmax over the vocabulary axis: `(x − M) − log (0 + Σ exp (x − M))`. -/
def lsm (x : FVec F S4x2048x8192 .f32) : FVec F S4x2048x8192 .f32 :=
  subf (shifted x)
    (broadcastInDim S4x2048x8192 ![0, 1, 2] bcast_S4x2048x1_S4x2048x8192_0_1_2
      (Host.log (broadcastInDim S4x2048x1 ![0, 1] bcast_S4x2048_S4x2048x1_0_1
        (Host.reduceAdd (Host.exp (shifted x)) (constant S_ .f32 0x00000000#32) reducesTo_S4x2048x8192_S4x2048_d2 h_S_))))

/-- The tokens as a column. -/
def tokCol (tok : IVec S4x2048 32) : IVec S4x2048x1 32 :=
  broadcastInDim S4x2048x1 ![0, 1] bcast_S4x2048_S4x2048x1_0_1 tok

/-- The tokens, a negative one counted from the end of the row, as start indices of the gather. -/
def wrapIdx (tok : IVec S4x2048 32) : IVec S4x2048x1x1 32 :=
  shapeCast S4x2048x1x1
    (select (cmpi .slt (tokCol tok) (broadcastInDim S4x2048x1 ![] bcast_S_S4x2048x1 (constantI S_ 32 0#32)))
      (addi (tokCol tok) (broadcastInDim S4x2048x1 ![] bcast_S_S4x2048x1 (constantI S_ 32 8192#32)))
      (tokCol tok))
    shapeCasts_S4x2048x1_S4x2048x1x1

/-- The bit "the start index lies in the row". -/
def okBit (tok : IVec S4x2048 32) : IVec S4x2048x1 1 :=
  Host.reduce IntOp.andi
    (andi (cmpi .sge (wrapIdx tok) (broadcastInDim S4x2048x1x1 ![] bcast_S_S4x2048x1x1 (constantI S_ 32 0#32)))
      (cmpi .sle (wrapIdx tok) (broadcastInDim S4x2048x1x1 ![0, 1, 2, 3] bcast_S1x1x1x1_S4x2048x1x1_0_1_2_3
        (broadcastInDim S1x1x1x1 ![3] bcast_S1_S1x1x1x1_3 (constantI S1 32 8191#32)))))
    (constantI S_ 1 1#1) reducesTo_S4x2048x1x1_S4x2048x1_d3 h_S_

/-- The log-softmax taken at the tokens, the quiet-NaN pattern where the start index is out of the row. -/
def picked (x : FVec F S4x2048x8192 .f32) (tok : IVec S4x2048 32) : FVec F S4x2048x1 .f32 :=
  select (okBit tok)
    (Host.gather gather_S4x2048x8192_S4x2048x1x1_S4x2048x1_n_2_01_01_2_3_111 (lsm x) (wrapIdx tok))
    (broadcastInDim S4x2048x1 ![] bcast_S_S4x2048x1 (constant S_ .f32 0x7FC00000#32))

/-- The negative log-likelihoods: a 4 × 2048 array. -/
def nllVec (x : FVec F S4x2048x8192 .f32) (tok : IVec S4x2048 32) : FVec F S4x2048 .f32 :=
  Host.negf (shapeCast S4x2048 (picked x tok) shapeCasts_S4x2048x1_S4x2048)

/-- The bit "the token is one of the four uncounted ones". -/
def specialBit (tok : IVec S4x2048 32) : IVec S4x2048 1 :=
  Host.reduce IntOp.ori
    (cmpi .eq (broadcastInDim S4x2048x4 ![0, 1, 2] bcast_S4x2048x1_S4x2048x4_0_1_2 (tokCol tok))
      (broadcastInDim S4x2048x4 ![0, 1, 2] bcast_S1x1x4_S4x2048x4_0_1_2
        (broadcastInDim S1x1x4 ![2] bcast_S4_S1x1x4_2 (fun i => lit0 (S4.rowMajor i)))))
    (constantI S_ 1 0#1) reducesTo_S4x2048x4_S4x2048_d2 h_S_

/-- The weights of the positions: a 4 × 2048 array. -/
def validVec (tok : IVec S4x2048 32) : FVec F S4x2048 .f32 := uitofp .f32 (noti (specialBit tok))

/-- The loss: the weighted sum of the negative log-likelihoods over the number of counted positions, at least 1. -/
def clsVal (x : FVec F S4x2048x8192 .f32) (tok : IVec S4x2048 32) : FVec F S_ .f32 :=
  Host.divf
    (Host.reduceAdd (mulf (nllVec x tok) (validVec tok)) (constant S_ .f32 0x00000000#32) reducesTo_S4x2048_S_d0_1 h_S_)
    (maximumf (Host.reduceAdd (validVec (F := F) tok) (constant S_ .f32 0x00000000#32) reducesTo_S4x2048_S_d0_1 h_S_)
      (constant S_ .f32 0x3F800000#32))

/-! ## The typed references of the called functions carry contents unchanged -/

section Typed
variable {Val : EltTy → Type}

/-- Contents moved to a buffer's own type and back are the contents. -/
theorem ofBuf_toBuf {T : BufTy} (x : StableHlo.TRef sig T) (v : T.Contents Val) : x.ofBuf (x.toBuf v) = v := by
  obtain ⟨r, h, h2, h3⟩ := x
  subst h
  rfl

theorem ofBuf_arg0 (h h2 h3) (v : main_arg0.ty.Contents Val) :
    (TRef.of main_arg0 h h2 h3 : StableHlo.TRef sig ⟨S4x2048x8192, .f32⟩).ofBuf v = v := rfl
theorem toBuf_v0 (h h2 h3) (v : (⟨S4x2048x8192, .f32⟩ : BufTy).Contents Val) :
    (TRef.of main_v0 h h2 h3 : StableHlo.TRef sig ⟨S4x2048x8192, .f32⟩).toBuf v = v := rfl
theorem ofBuf_v1 (h h2 h3) (v : main_v1.ty.Contents Val) :
    (TRef.of main_v1 h h2 h3 : StableHlo.TRef sig ⟨S4x2048x1, .i32⟩).ofBuf v = v := rfl
theorem toBuf_v2 (h h2 h3) (v : (⟨S4x2048x1, .f32⟩ : BufTy).Contents Val) :
    (TRef.of main_v2 h h2 h3 : StableHlo.TRef sig ⟨S4x2048x1, .f32⟩).toBuf v = v := rfl
theorem toBuf_c1v4 (h h2 h3) (v : (⟨S4x2048x1, .i32⟩ : BufTy).Contents Val) :
    (TRef.of main_call1_v4 h h2 h3 : StableHlo.TRef sig ⟨S4x2048x1, .i32⟩).toBuf v = v := rfl
theorem ofBuf_c1v5 (h h2 h3) (v : main_call1_v5.ty.Contents Val) :
    (TRef.of main_call1_v5 h h2 h3 : StableHlo.TRef sig ⟨S4x2048x1x1, .i32⟩).ofBuf v = v := rfl

end Typed

/-! ## The composed terms -/

/-- The log-softmax's buffer after the five stretches. -/
theorem lsm_term (W : Valuation τ sig (Elt F)) :
    StableHlo.after (List.flatten [hostOps0, hostOps0_1, hostOps0_2, hostOps0_3, hostOps0_4]) W (Proc.devRef .tc main_v0) = lsm (W (Proc.devRef .tc main_arg0)) := by
  simp only [hostOps0, hostOps0_1, hostOps0_2, hostOps0_3, hostOps0_4, List.flatten_cons, List.flatten_nil,
    List.append_nil, List.cons_append, List.nil_append]
  after_results_simp
  simp only [ofBuf_toBuf, ofBuf_arg0, toBuf_v0]
  rfl

/-- The loss's buffer after the five stretches, as one term of the logits and the tokens. -/
theorem v17_term (W : Valuation τ sig (Elt F)) :
    StableHlo.after (List.flatten [hostOps0, hostOps0_1, hostOps0_2, hostOps0_3, hostOps0_4]) W (Proc.devRef .tc main_v17)
      = clsVal (W (Proc.devRef .tc main_arg0)) (W (Proc.devRef .tc main_arg7)) := by
  simp only [hostOps0, hostOps0_1, hostOps0_2, hostOps0_3, hostOps0_4, List.flatten_cons, List.flatten_nil,
    List.append_nil, List.cons_append, List.nil_append]
  after_results_simp
  simp only [ofBuf_toBuf, ofBuf_arg0, toBuf_v0, ofBuf_v1, toBuf_v2, toBuf_c1v4, ofBuf_c1v5]
  rfl

/-! ## What the five stretches leave in the buffers the later stretches read -/

/-- The padding mask after the five stretches is the mask argument broadcast along a new middle axis. -/
theorem v18_eq (W : Valuation τ sig (Elt F)) :
    StableHlo.after (List.flatten [hostOps0, hostOps0_1, hostOps0_2, hostOps0_3, hostOps0_4]) W (Proc.devRef .tc main_v18)
      = broadcastInDim S4x1x2048 ![0, 2] bcast_S4x2048_S4x1x2048_0_2 (W (Proc.devRef .tc main_arg9)) := by
  simp only [hostOps0, hostOps0_1, hostOps0_2, hostOps0_3, hostOps0_4, List.flatten_cons, List.flatten_nil,
    List.append_nil, List.cons_append, List.nil_append]
  after_results_simp

/-- The fill constant after the five stretches. -/
theorem cst3_eq (W : Valuation τ sig (Elt F)) :
    StableHlo.after (List.flatten [hostOps0, hostOps0_1, hostOps0_2, hostOps0_3, hostOps0_4]) W (Proc.devRef .tc main_cst_3) = constant S_ .f32 0xCE6E6B28#32 := by
  simp only [hostOps0, hostOps0_1, hostOps0_2, hostOps0_3, hostOps0_4, List.flatten_cons, List.flatten_nil,
    List.append_nil, List.cons_append, List.nil_append]
  after_results_simp

/-! The five stretches write none of the program's arguments. -/

theorem arg0_eq (W : Valuation τ sig (Elt F)) :
    StableHlo.after (List.flatten [hostOps0, hostOps0_1, hostOps0_2, hostOps0_3, hostOps0_4]) W (Proc.devRef .tc main_arg0) = W (Proc.devRef .tc main_arg0) := by
  simp only [hostOps0, hostOps0_1, hostOps0_2, hostOps0_3, hostOps0_4, List.flatten_cons, List.flatten_nil,
    List.append_nil, List.cons_append, List.nil_append]
  after_results_simp

theorem arg1_eq (W : Valuation τ sig (Elt F)) :
    StableHlo.after (List.flatten [hostOps0, hostOps0_1, hostOps0_2, hostOps0_3, hostOps0_4]) W (Proc.devRef .tc main_arg1) = W (Proc.devRef .tc main_arg1) := by
  simp only [hostOps0, hostOps0_1, hostOps0_2, hostOps0_3, hostOps0_4, List.flatten_cons, List.flatten_nil,
    List.append_nil, List.cons_append, List.nil_append]
  after_results_simp

theorem arg2_eq (W : Valuation τ sig (Elt F)) :
    StableHlo.after (List.flatten [hostOps0, hostOps0_1, hostOps0_2, hostOps0_3, hostOps0_4]) W (Proc.devRef .tc main_arg2) = W (Proc.devRef .tc main_arg2) := by
  simp only [hostOps0, hostOps0_1, hostOps0_2, hostOps0_3, hostOps0_4, List.flatten_cons, List.flatten_nil,
    List.append_nil, List.cons_append, List.nil_append]
  after_results_simp

theorem arg3_eq (W : Valuation τ sig (Elt F)) :
    StableHlo.after (List.flatten [hostOps0, hostOps0_1, hostOps0_2, hostOps0_3, hostOps0_4]) W (Proc.devRef .tc main_arg3) = W (Proc.devRef .tc main_arg3) := by
  simp only [hostOps0, hostOps0_1, hostOps0_2, hostOps0_3, hostOps0_4, List.flatten_cons, List.flatten_nil,
    List.append_nil, List.cons_append, List.nil_append]
  after_results_simp

theorem arg4_eq (W : Valuation τ sig (Elt F)) :
    StableHlo.after (List.flatten [hostOps0, hostOps0_1, hostOps0_2, hostOps0_3, hostOps0_4]) W (Proc.devRef .tc main_arg4) = W (Proc.devRef .tc main_arg4) := by
  simp only [hostOps0, hostOps0_1, hostOps0_2, hostOps0_3, hostOps0_4, List.flatten_cons, List.flatten_nil,
    List.append_nil, List.cons_append, List.nil_append]
  after_results_simp

theorem arg5_eq (W : Valuation τ sig (Elt F)) :
    StableHlo.after (List.flatten [hostOps0, hostOps0_1, hostOps0_2, hostOps0_3, hostOps0_4]) W (Proc.devRef .tc main_arg5) = W (Proc.devRef .tc main_arg5) := by
  simp only [hostOps0, hostOps0_1, hostOps0_2, hostOps0_3, hostOps0_4, List.flatten_cons, List.flatten_nil,
    List.append_nil, List.cons_append, List.nil_append]
  after_results_simp

theorem arg6_eq (W : Valuation τ sig (Elt F)) :
    StableHlo.after (List.flatten [hostOps0, hostOps0_1, hostOps0_2, hostOps0_3, hostOps0_4]) W (Proc.devRef .tc main_arg6) = W (Proc.devRef .tc main_arg6) := by
  simp only [hostOps0, hostOps0_1, hostOps0_2, hostOps0_3, hostOps0_4, List.flatten_cons, List.flatten_nil,
    List.append_nil, List.cons_append, List.nil_append]
  after_results_simp

theorem arg7_eq (W : Valuation τ sig (Elt F)) :
    StableHlo.after (List.flatten [hostOps0, hostOps0_1, hostOps0_2, hostOps0_3, hostOps0_4]) W (Proc.devRef .tc main_arg7) = W (Proc.devRef .tc main_arg7) := by
  simp only [hostOps0, hostOps0_1, hostOps0_2, hostOps0_3, hostOps0_4, List.flatten_cons, List.flatten_nil,
    List.append_nil, List.cons_append, List.nil_append]
  after_results_simp

theorem arg8_eq (W : Valuation τ sig (Elt F)) :
    StableHlo.after (List.flatten [hostOps0, hostOps0_1, hostOps0_2, hostOps0_3, hostOps0_4]) W (Proc.devRef .tc main_arg8) = W (Proc.devRef .tc main_arg8) := by
  simp only [hostOps0, hostOps0_1, hostOps0_2, hostOps0_3, hostOps0_4, List.flatten_cons, List.flatten_nil,
    List.append_nil, List.cons_append, List.nil_append]
  after_results_simp

theorem arg9_eq (W : Valuation τ sig (Elt F)) :
    StableHlo.after (List.flatten [hostOps0, hostOps0_1, hostOps0_2, hostOps0_3, hostOps0_4]) W (Proc.devRef .tc main_arg9) = W (Proc.devRef .tc main_arg9) := by
  simp only [hostOps0, hostOps0_1, hostOps0_2, hostOps0_3, hostOps0_4, List.flatten_cons, List.flatten_nil,
    List.append_nil, List.cons_append, List.nil_append]
  after_results_simp

theorem arg10_eq (W : Valuation τ sig (Elt F)) :
    StableHlo.after (List.flatten [hostOps0, hostOps0_1, hostOps0_2, hostOps0_3, hostOps0_4]) W (Proc.devRef .tc main_arg10) = W (Proc.devRef .tc main_arg10) := by
  simp only [hostOps0, hostOps0_1, hostOps0_2, hostOps0_3, hostOps0_4, List.flatten_cons, List.flatten_nil,
    List.append_nil, List.cons_append, List.nil_append]
  after_results_simp

/-- The same for any of the eleven arguments. -/
theorem args_kept (W : Valuation τ sig (Elt F)) (b : Ref sig .tc)
    (hb : b ∈ [main_arg0, main_arg1, main_arg2, main_arg3, main_arg4, main_arg5, main_arg6, main_arg7, main_arg8,
      main_arg9, main_arg10]) :
    StableHlo.after (List.flatten [hostOps0, hostOps0_1, hostOps0_2, hostOps0_3, hostOps0_4]) W (Proc.devRef .tc b) = W (Proc.devRef .tc b) := by
  simp only [List.mem_cons, List.mem_nil_iff, or_false] at hb
  rcases hb with rfl | rfl | rfl | rfl | rfl | rfl | rfl | rfl | rfl | rfl | rfl
  · exact arg0_eq W
  · exact arg1_eq W
  · exact arg2_eq W
  · exact arg3_eq W
  · exact arg4_eq W
  · exact arg5_eq W
  · exact arg6_eq W
  · exact arg7_eq W
  · exact arg8_eq W
  · exact arg9_eq W
  · exact arg10_eq W

/-! ## The stages read at an index, at the ideal values -/

section Read

/-- The vocabulary axis of the logits reduces away. -/
theorem red_vocab : S4x2048x8192.Reduces [2] S4x2048 := by decide

theorem lift_vocab (b : Fin 4) (l : Fin 2048) (k : Fin 8192) : red_vocab.lift (ix2 b l) k = ix3 b l k :=
  funext fun a => Fin.ext (by match a with | ⟨0, _⟩ => rfl | ⟨1, _⟩ => rfl | ⟨2, _⟩ => rfl)

theorem hostLog_apply {s : Shape} {φ : FTy} (y : FVec Ideal s φ) (i : s.Idx) : Host.log y i = Ideal.log (y i) := rfl
theorem hostExp_apply {s : Shape} {φ : FTy} (y : FVec Ideal s φ) (i : s.Idx) : Host.exp y i = Ideal.exp (y i) := rfl
theorem hostNegf_apply {s : Shape} {φ : FTy} (y : FVec Ideal s φ) (i : s.Idx) : Host.negf y i = -(y i) := rfl

variable (x : FVec Ideal S4x2048x8192 .f32) (tok : IVec S4x2048 32)

/-- The row maximum at (b, l). -/
theorem rowMaxV_apply (b : Fin 4) (l : Fin 2048) :
    rowMaxV x (ix2 b l) = ClsSpec.rowMaxR (fun v => x (ix3 b l v)) := by
  unfold rowMaxV ClsSpec.rowMaxR ClsSpec.rowMax
  rw [maximumf_apply, broadcastInDim_scalar_apply, constant_apply,
    Host.reduce_eq_fold_single FloatOps.maximumf x _ _ red_vocab h_S_]
  exact congrArg (fun f : Fin 8192 → EReal => max (Ideal.ofBits .f32 0xFF800000#32)
    ((Finset.univ : Finset (Fin 8192)).fold max (Ideal.ofBits .f32 0xFF800000#32) f))
    (funext fun k => congrArg x (lift_vocab b l k))

/-- The shifted logits at (b, l, v). -/
theorem shifted_apply (b : Fin 4) (l : Fin 2048) (v : Fin 8192) :
    shifted x (ix3 b l v) = x (ix3 b l v) - ClsSpec.rowMaxR (fun v => x (ix3 b l v)) := by
  unfold shifted
  rw [subf_apply, bc_full, bc_col, rowMaxV_apply]

/-- The log-softmax at (b, l, v). -/
theorem lsm_apply (b : Fin 4) (l : Fin 2048) (v : Fin 8192) :
    lsm x (ix3 b l v) = ClsSpec.logSoftmaxR (fun v => x (ix3 b l v)) v := by
  unfold lsm ClsSpec.logSoftmaxR ClsSpec.expSum
  rw [subf_apply, shifted_apply, bc_full, hostLog_apply, bc_col, hostReduceAdd_apply,
    Ideal.hostReduceAdd_single _ red_vocab, constant_apply, Ideal.ofBits_zero_f32]
  refine congrArg (fun s : EReal =>
    x (ix3 b l v) - ClsSpec.rowMaxR (fun v => x (ix3 b l v)) - Ideal.log (0 + s)) ?_
  exact Finset.sum_congr rfl (fun k _ => (hostExp_apply _ _).trans
    (congrArg Ideal.exp ((congrArg (shifted x) (lift_vocab b l k)).trans (shifted_apply x b l k))))

/-! ### The take-along-axis -/

theorem tokCol_apply (b : Fin 4) (l : Fin 2048) (u : Fin 1) : tokCol tok (ix3 b l u) = tok (ix2 b l) :=
  bc_col tok b l u

/-- The start index of position (b, l): its token, counted from the end of the row when negative. -/
theorem wrapIdx_apply (b : Fin 4) (l : Fin 2048) :
    wrapIdx tok (ix4 b l (0 : Fin 1) (0 : Fin 1)) = ClsSpec.wrapTok (tok (ix2 b l)) := by
  unfold wrapIdx ClsSpec.wrapTok
  rw [shapeCast_apply _ _ _ (ix3 b l (0 : Fin 1)) (by
    rw [Shape.rowMajor_val_three, Shape.rowMajor_val_four]
    show (b.val * 2048 + l.val) * 1 + 0 = ((b.val * 2048 + l.val) * 1 + 0) * 1 + 0
    omega)]
  rw [select_apply]
  show Scalar.select (IntOp.cmpi .slt (tokCol tok (ix3 b l (0 : Fin 1))) _)
    (IntOp.addi (tokCol tok (ix3 b l (0 : Fin 1))) _) (tokCol tok (ix3 b l (0 : Fin 1))) = _
  rw [tokCol_apply, broadcastInDim_scalar_apply, broadcastInDim_scalar_apply]
  rfl

/-- The last unit axis of the start indices reduces away. -/
theorem red_unit : S4x2048x1x1.Reduces [3] S4x2048x1 := by decide

theorem lift_unit (b : Fin 4) (l : Fin 2048) (u k : Fin 1) :
    red_unit.lift (ix3 b l u) k = ix4 b l (0 : Fin 1) (0 : Fin 1) :=
  funext fun a => Fin.ext (by
    match a with
    | ⟨0, _⟩ => rfl
    | ⟨1, _⟩ => rfl
    | ⟨2, _⟩ => show u.val = 0; omega
    | ⟨3, _⟩ => show k.val = 0; omega)

/-- A fold over a one-element axis is one application of the operation. -/
theorem fold_fin_one {β : Type} (op : β → β → β) [Std.Commutative op] [Std.Associative op] (init : β) (f : Fin 1 → β) :
    (Finset.univ : Finset (Fin 1)).fold op init f = op (f 0) init := by
  rw [show (Finset.univ : Finset (Fin 1)) = {0} from rfl, Finset.fold_singleton]

theorem andi_one (X : BitVec 1) : IntOp.andi X 1#1 = X := by
  rcases BitVec.eq_zero_or_eq_one X with h | h <;> subst h <;> decide

/-- The range bit of position (b, l). -/
theorem okBit_apply (b : Fin 4) (l : Fin 2048) (u : Fin 1) :
    okBit tok (ix3 b l u) = ClsSpec.inRange (ClsSpec.wrapTok (tok (ix2 b l))) := by
  unfold okBit ClsSpec.inRange
  rw [Host.reduce_eq_fold_single IntOp.andi _ _ _ red_unit h_S_]
  refine (fold_fin_one IntOp.andi _ _).trans ?_
  show IntOp.andi (IntOp.andi (IntOp.cmpi .sge (wrapIdx tok (red_unit.lift (ix3 b l u) (0 : Fin 1))) _)
    (IntOp.cmpi .sle (wrapIdx tok (red_unit.lift (ix3 b l u) (0 : Fin 1))) _)) 1#1 = _
  rw [andi_one, lift_unit, wrapIdx_apply]
  rfl

/-- The entry taken at position (b, l). -/
theorem picked_apply (b : Fin 4) (l : Fin 2048) (u : Fin 1) :
    picked x tok (ix3 b l u)
      = Scalar.select (ClsSpec.inRange (ClsSpec.wrapTok (tok (ix2 b l))))
          (ClsSpec.logSoftmaxR (fun v => x (ix3 b l v)) (ClsSpec.clampIdx (ClsSpec.wrapTok (tok (ix2 b l)))))
          (Ideal.ofBits .f32 0x7FC00000#32) := by
  unfold picked
  rw [select_apply, okBit_apply, gather_apply, wrapIdx_apply, lsm_apply, broadcastInDim_scalar_apply, constant_apply]

/-- The negative log-likelihood of position (b, l). -/
theorem nllVec_apply (b : Fin 4) (l : Fin 2048) :
    nllVec x tok (ix2 b l) = ClsSpec.nllR (fun v => x (ix3 b l v)) (tok (ix2 b l)) := by
  unfold nllVec ClsSpec.nllR
  rw [hostNegf_apply, shapeCast_apply _ _ _ (ix3 b l (0 : Fin 1)) (by
    rw [Shape.rowMajor_val_three, Shape.rowMajor_val_two]
    show (b.val * 2048 + l.val) * 1 + 0 = b.val * 2048 + l.val
    omega), picked_apply]

/-! ### The weights -/

/-- The axis of the four uncounted tokens reduces away. -/
theorem red_special : S4x2048x4.Reduces [2] S4x2048 := by decide

theorem lift_special (b : Fin 4) (l : Fin 2048) (k : Fin 4) : red_special.lift (ix2 b l) k = ix3 b l k :=
  funext fun a => Fin.ext (by match a with | ⟨0, _⟩ => rfl | ⟨1, _⟩ => rfl | ⟨2, _⟩ => rfl)

theorem bc_tok4 {α : Type} (y : S4x2048x1.Idx → α) (b : Fin 4) (l : Fin 2048) (k : Fin 4) :
    broadcastInDim S4x2048x4 ![0, 1, 2] bcast_S4x2048x1_S4x2048x4_0_1_2 y (ix3 b l k) = y (ix3 b l (0 : Fin 1)) :=
  broadcastInDim_apply _ _ y _ (ix3 b l (0 : Fin 1))
    (fun a => by match a with | ⟨0, _⟩ => rfl | ⟨1, _⟩ => rfl | ⟨2, _⟩ => rfl)

theorem bc_lit4 {α : Type} (y : S1x1x4.Idx → α) (b : Fin 4) (l : Fin 2048) (k : Fin 4) :
    broadcastInDim S4x2048x4 ![0, 1, 2] bcast_S1x1x4_S4x2048x4_0_1_2 y (ix3 b l k)
      = y (ix3 (0 : Fin 1) (0 : Fin 1) k) :=
  broadcastInDim_apply _ _ y _ (ix3 (0 : Fin 1) (0 : Fin 1) k)
    (fun a => by match a with | ⟨0, _⟩ => rfl | ⟨1, _⟩ => rfl | ⟨2, _⟩ => rfl)

theorem bc_lit {α : Type} (y : S4.Idx → α) (k : Fin 4) :
    broadcastInDim S1x1x4 ![2] bcast_S4_S1x1x4_2 y (ix3 (0 : Fin 1) (0 : Fin 1) k) = y (ix1 k) :=
  broadcastInDim_apply _ _ y _ (ix1 k) (fun a => by match a with | ⟨0, _⟩ => rfl)

/-- The table of the four uncounted tokens holds 0, 1, 2, 3. -/
theorem lit0_eq (k : Fin 4) : lit0 (S4.rowMajor (ix1 k)) = ClsSpec.specialTok k := by
  fin_cases k <;> rfl

/-- The bit "the token of position (b, l) is uncounted". -/
theorem specialBit_apply (b : Fin 4) (l : Fin 2048) :
    specialBit tok (ix2 b l) = ClsSpec.isSpecial (tok (ix2 b l)) := by
  unfold specialBit ClsSpec.isSpecial
  rw [Host.reduce_eq_fold_single IntOp.ori _ _ _ red_special h_S_]
  refine congrArg (fun f : Fin 4 → BitVec 1 => (Finset.univ : Finset (Fin 4)).fold IntOp.ori 0#1 f)
    (funext fun (k : Fin 4) => ?_)
  have e1 : broadcastInDim S4x2048x4 ![0, 1, 2] bcast_S4x2048x1_S4x2048x4_0_1_2 (tokCol tok)
      (red_special.lift (ix2 b l) k) = tok (ix2 b l) :=
    (congrArg _ (lift_special b l k)).trans ((bc_tok4 _ b l k).trans (tokCol_apply tok b l 0))
  have e2 : broadcastInDim S4x2048x4 ![0, 1, 2] bcast_S1x1x4_S4x2048x4_0_1_2
      (broadcastInDim S1x1x4 ![2] bcast_S4_S1x1x4_2 (fun i => lit0 (S4.rowMajor i)))
      (red_special.lift (ix2 b l) k) = ClsSpec.specialTok k :=
    (congrArg _ (lift_special b l k)).trans ((bc_lit4 _ b l k).trans ((bc_lit _ k).trans (lit0_eq k)))
  exact congrArg₂ (IntOp.cmpi .eq) e1 e2

/-- The weight of position (b, l). -/
theorem validVec_apply (b : Fin 4) (l : Fin 2048) :
    validVec (F := Ideal) tok (ix2 b l) = ClsSpec.validR (tok (ix2 b l)) := by
  unfold validVec ClsSpec.validR
  show (((~~~ (specialBit tok (ix2 b l))).toNat : ℝ) : EReal) = _
  rw [specialBit_apply]

/-! ### The loss -/

/-- THE LOSS as the ratio of the two sums over the positions. -/
theorem clsVal_eq :
    clsVal x tok = fun _ => Ideal.div
      (0 + ∑ i : (⟨2, ![4, 2048]⟩ : Shape).Idx,
        ClsSpec.nllR (fun v => x (ix3 (i 0) (i 1) v)) (tok (ix2 (i 0) (i 1))) * ClsSpec.validR (tok (ix2 (i 0) (i 1))))
      (max (0 + ∑ i : (⟨2, ![4, 2048]⟩ : Shape).Idx, ClsSpec.validR (tok (ix2 (i 0) (i 1)))) 1) := by
  funext j
  unfold clsVal
  rw [hostDivf_apply, maximumf_apply, hostReduceAdd_apply, hostReduceAdd_apply,
    Ideal.hostReduceAdd_total _ (fun b => b.elim0), Ideal.hostReduceAdd_total _ (fun b => b.elim0),
    constant_apply, constant_apply, Ideal.ofBits_zero_f32, Ideal.ofBits_one_f32]
  have e1 : ∀ i : (⟨2, ![4, 2048]⟩ : Shape).Idx, mulf (nllVec x tok) (validVec tok) i
      = ClsSpec.nllR (fun v => x (ix3 (i 0) (i 1) v)) (tok (ix2 (i 0) (i 1))) * ClsSpec.validR (tok (ix2 (i 0) (i 1))) :=
    fun i => by
      obtain ⟨p, q, rfl⟩ : ∃ (p : Fin 4) (q : Fin 2048), i = ix2 p q := ⟨i 0, i 1, eq_ix2 i⟩
      rw [mulf_apply, nllVec_apply, validVec_apply]
  have e2 : ∀ i : (⟨2, ![4, 2048]⟩ : Shape).Idx, validVec (F := Ideal) tok i = ClsSpec.validR (tok (ix2 (i 0) (i 1))) :=
    fun i => by
      obtain ⟨p, q, rfl⟩ : ∃ (p : Fin 4) (q : Fin 2048), i = ix2 p q := ⟨i 0, i 1, eq_ix2 i⟩
      rw [validVec_apply]
  rw [Finset.sum_congr rfl (fun i _ => e1 i), Finset.sum_congr rfl (fun i _ => e2 i)]

end Read

/-! ## The reference's classification loss -/

/-- THE REFERENCE'S CLASSIFICATION LOSS: the weighted sum of the rows' negative log-likelihoods over the number of
    counted positions (at least 1), both sums over the 4 × 2048 positions. -/
theorem cls_ref (W : Valuation τ sig (Elt Ideal)) :
    StableHlo.after (List.flatten [hostOps0, hostOps0_1, hostOps0_2, hostOps0_3, hostOps0_4]) W (Proc.devRef .tc main_v17)
      = fun _ => Ideal.div
          (0 + ∑ i : (⟨2, ![4, 2048]⟩ : Shape).Idx,
            ClsSpec.nllR (fun v => W (Proc.devRef .tc main_arg0) (ix3 (i 0) (i 1) v))
                (W (Proc.devRef .tc main_arg7) (ix2 (i 0) (i 1)))
              * ClsSpec.validR (W (Proc.devRef .tc main_arg7) (ix2 (i 0) (i 1))))
          (max (0 + ∑ i : (⟨2, ![4, 2048]⟩ : Shape).Idx,
            ClsSpec.validR (W (Proc.devRef .tc main_arg7) (ix2 (i 0) (i 1)))) 1) :=
  (v17_term W).trans (clsVal_eq _ _)

end Cert.ReferenceIdeal.HandCls

end
-- ==== Proof.Tail.Macro.lean ====
/-
  The two programs' shared stretches of host operations are compared stretch by stretch. What is common to every stretch
  is here: contents moved to a buffer's own type and back are the contents, and the one tactic that turns both sides of a
  stretch into its operations' composed term of the contents before it.
-/
import Idealize.ShloMosaic.Lib.StableHlo.Run

namespace Cert.TailEq

open Idealize.ShloMosaic Idealize.ShloMosaic.StableHlo

/-- Contents moved to a buffer's own type and back are the contents. -/
theorem ofBuf_toBuf {sig : RefSig} {Val : EltTy → Type} {T : BufTy} (x : StableHlo.TRef sig T) (v : T.Contents Val) :
    x.ofBuf (x.toBuf v) = v := by
  obtain ⟨r, h, h2, h3⟩ := x
  subst h
  rfl

/-- The one tactic of every stretch. The goal is a conjunction of equations, each between a buffer's contents after the
    kernel program's stretch and the paired buffer's contents after the reference program's, both read at the buffers'
    common type. Each side becomes the stretch's composed term of the contents before it (a buffer the stretch does not
    write keeps its contents); an intermediate buffer written and read back inside the stretch drops out; the agreement
    before the stretch, given as the listed hypotheses, makes the two terms one, up to the names the two programs give to
    the same shapes. -/
macro "stretch_step" "[" hs:Lean.Parser.Tactic.simpLemma,* "]" : tactic =>
  `(tactic| (after_results_simp
             (try simp only [ofBuf_toBuf])
             (try simp only [$hs,*, and_true, true_and, and_self])
             (try (repeat' constructor))))

end Cert.TailEq
-- ==== Proof.PreFacts.lean ====
/-
  The precondition read back: when the printed predicate holds of the argument arrays, every entry of the logits array
  is a real number (its absolute value is below +∞), and every token is a word in [0, 8192) read as a signed integer.
  A conjunction of "all" reductions that is 1 has every conjunct 1, and an "all" that is 1 has every element 1.
-/
import proofs.«411483_j80101140070992_1_alg».proof.Pre_finite_inputs
import proofs.«411483_j80101140070992_1_alg».proof.Proof.Gen.Pre_finite_inputs
import Idealize.ShloMosaic.Lib.ReduceAll
import Idealize.ShloMosaic.PureOps.Ideal.Laws

noncomputable section

namespace Cert.PreFacts

open Idealize.ShloMosaic Cert.Pre_finite_inputs

/-- The rank-0 shape has one index. -/
instance : Subsingleton S_.Idx := ⟨fun a b => funext fun d => d.elim0⟩

theorem and1 : ∀ (a b : BitVec 1), IntOp.andi a b = 1#1 ↔ a = 1#1 ∧ b = 1#1 := by decide

theorem ofBool_eq_one (b : Bool) : BitVec.ofBool b = 1#1 ↔ b = true := by cases b <;> decide

/-- An extended real whose absolute value compares below +∞ is a real. -/
theorem real_of_abs_lt_top (x : EReal)
    (h : FloatOps.cmpf (F := Ideal) (φ := .f32) CmpFPredicate.olt (FloatOps.hostAbsf (F := Ideal) (φ := .f32) x)
      (FloatOps.ofBits (F := Ideal) FTy.f32 2139095040#32) = 1#1) : ∃ r : ℝ, x = (r : EReal) := by
  induction x using EReal.rec with
  | bot => exfalso; revert h; simp [Ideal.cmpf_def, Ideal.cmp, Ideal.ofBits, Ideal.ieee, Ideal.absf_def]
  | coe r => exact ⟨r, rfl⟩
  | top => exfalso; revert h; simp [Ideal.cmpf_def, Ideal.cmp, Ideal.ofBits, Ideal.ieee, Ideal.absf_def]

/-- A word that compares signed-at-least 0 and signed-below 8192 is in [0, 8192). -/
theorem range_of_cmp (w : BitVec 32) (h0 : IntOp.cmpi CmpIPredicate.sge w 0#32 = 1#1)
    (h1 : IntOp.cmpi CmpIPredicate.slt w 8192#32 = 1#1) : 0 ≤ w.toInt ∧ w.toInt < 8192 := by
  unfold IntOp.cmpi at h0 h1
  rw [ofBool_eq_one] at h0 h1
  simp only [BitVec.slt, BitVec.sle, decide_eq_true_eq] at h0 h1
  have e0 : (0#32 : BitVec 32).toInt = 0 := by decide
  have e1 : (8192#32 : BitVec 32).toInt = 8192 := by decide
  rw [e0] at h0; rw [e1] at h1
  exact ⟨h0, h1⟩

/-- THE PRECONDITION DECODED: the logits are reals and the tokens lie in [0, 8192). -/
theorem decode (a0 : FVec Ideal S4x2048x8192 .f32) (a1 : FVec Ideal S4x688x2048 .f32) (a2 : FVec Ideal S4x2048 .f32)
    (a3 a4 a5 a6 : FVec Ideal S4x688x688 .f32) (a7 : IVec S4x2048 32) (a8 : IVec S4x688 32) (a9 a10 : IVec S4x2048 1)
    (h : fn (F := Ideal) a0 a1 a2 a3 a4 a5 a6 a7 a8 a9 a10 = fun _ => 1#1) :
    (∀ i, ∃ r : ℝ, a0 i = (r : EReal)) ∧ ∀ i, 0 ≤ (a7 i).toInt ∧ (a7 i).toInt < 8192 := by
  have e := congrFun h (fun d => d.elim0)
  unfold fn fn_part1 fn_part2 at e
  dsimp only at e
  simp only [andi, and1] at e
  obtain ⟨⟨⟨⟨⟨⟨⟨⟨h0, -⟩, -⟩, -⟩, -⟩, -⟩, -⟩, hge⟩, hlt⟩ := e
  have f0 := fun i => Host.reduce_andi_all _ _ _ _ _ h0 i
  have fge := fun i => Host.reduce_andi_all _ _ _ _ _ hge i
  have flt := fun i => Host.reduce_andi_all _ _ _ _ _ hlt i
  simp only [cmpf, Host.absf, broadcastInDim, constant, cmpi, constantI] at f0 fge flt
  exact ⟨fun i => real_of_abs_lt_top _ (f0 i), fun i => range_of_cmp _ (fge i) (flt i)⟩

end Cert.PreFacts

end
-- ==== Proof.Glue.lean ====
/-
  The two programs leave the same total loss.  After the kernel's region the host forms the classification loss from the
  two per-batch accumulators; the reference forms it from the log-softmax gathered at the tokens.  On finite logits and
  tokens in [0, 8192) these are one extended real (the row-level identity and the re-indexing of the sums), the mask
  broadcast and the fill constant are formed from the same argument by the same operation, and everything after that
  point is the same chain of operations in both programs, applied to equal contents.
-/
import proofs.«411483_j80101140070992_1_alg».proof.Defs
import proofs.«411483_j80101140070992_1_alg».proof.Proof.Gen.Pre_finite_inputs
import proofs.«411483_j80101140070992_1_alg».proof.Proof.KI.Frame
import proofs.«411483_j80101140070992_1_alg».proof.Proof.KIValue
import proofs.«411483_j80101140070992_1_alg».proof.Proof.KHead
import proofs.«411483_j80101140070992_1_alg».proof.Proof.RefRun
import proofs.«411483_j80101140070992_1_alg».proof.Proof.RefCls
import proofs.«411483_j80101140070992_1_alg».proof.Proof.TailEq
import proofs.«411483_j80101140070992_1_alg».proof.Proof.ClsSpec
import proofs.«411483_j80101140070992_1_alg».proof.Proof.PreFacts

set_option maxRecDepth 8192

noncomputable section

namespace Cert.Glue

open Idealize.ShloMosaic Idealize.ShloMosaic.TcCoe Idealize.SL.Sem Idealize.ShloMosaic.StableHlo

/-- Under the precondition, from launch memories that agree on the eleven arguments, what the kernel program's host
    operations after the region leave in the result buffer is what the reference program's operations leave in its
    result buffer. -/
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    Pipeline.afterTail₀ Cert.KernelIdeal.cfgs (Cert.KernelIdeal.Hand.dats m) 0 (Cert.KernelIdeal.Hand.V0 m) Cert.KernelIdeal.Hand.tailOpss c Cert.KernelIdeal.main_v157
      = StableHlo.after (Cert.ReferenceIdeal.Hand.headOpss ++ Cert.ReferenceIdeal.Hand.restOpss).flatten (StableHlo.launchContents m' c) (Proc.devRef .tc Cert.ReferenceIdeal.main_v169) := by
  obtain ⟨hX, hT⟩ := Cert.PreFacts.decode _ _ _ _ _ _ _ _ _ _ _ (hpre c)
  obtain ⟨a0, a1, a2, a3, a4, a5, a6, a7, a8, a9, a10⟩ := hag c
  unfold Pipeline.afterTail₀
  show StableHlo.after (List.flatten (Cert.KernelIdeal.Gen.hostOps1 :: [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.KernelIdeal.Gen.hostOps1_30, Cert.KernelIdeal.Gen.hostOps1_31, Cert.KernelIdeal.Gen.hostOps1_32, Cert.KernelIdeal.Gen.hostOps1_33, Cert.KernelIdeal.Gen.hostOps1_34, Cert.KernelIdeal.Gen.hostOps1_35, Cert.KernelIdeal.Gen.hostOps1_36, Cert.KernelIdeal.Gen.hostOps1_37, Cert.KernelIdeal.Gen.hostOps1_38, Cert.KernelIdeal.Gen.hostOps1_39, Cert.KernelIdeal.Gen.hostOps1_40, Cert.KernelIdeal.Gen.hostOps1_41, Cert.KernelIdeal.Gen.hostOps1_42, Cert.KernelIdeal.Gen.hostOps1_43, Cert.KernelIdeal.Gen.hostOps1_44, Cert.KernelIdeal.Gen.hostOps1_45])) (Cert.KernelIdeal.HandValue.Wk m c) _ = _
  rw [List.flatten_cons, StableHlo.after_append, List.flatten_append, StableHlo.after_append]
  refine Cert.TailEq.tail_eq _ _ ?h1 ?h2 ?h3 ?h4 ?h5 ?h6 ?h8 ?h9 ?h10 ?hcls ?hv6 ?hc2
  case h1 =>
    rw [Cert.KernelIdeal.HandHead.arg1_eq, Cert.KernelIdeal.HandValue.Wk_arg1,
      Cert.ReferenceIdeal.HandCls.arg1_eq]
    exact a1.symm
  case h2 =>
    rw [Cert.KernelIdeal.HandHead.arg2_eq, Cert.KernelIdeal.HandValue.Wk_arg2,
      Cert.ReferenceIdeal.HandCls.arg2_eq]
    exact a2.symm
  case h3 =>
    rw [Cert.KernelIdeal.HandHead.arg3_eq, Cert.KernelIdeal.HandValue.Wk_arg3,
      Cert.ReferenceIdeal.HandCls.arg3_eq]
    exact a3.symm
  case h4 =>
    rw [Cert.KernelIdeal.HandHead.arg4_eq, Cert.KernelIdeal.HandValue.Wk_arg4,
      Cert.ReferenceIdeal.HandCls.arg4_eq]
    exact a4.symm
  case h5 =>
    rw [Cert.KernelIdeal.HandHead.arg5_eq, Cert.KernelIdeal.HandValue.Wk_arg5,
      Cert.ReferenceIdeal.HandCls.arg5_eq]
    exact a5.symm
  case h6 =>
    rw [Cert.KernelIdeal.HandHead.arg6_eq, Cert.KernelIdeal.HandValue.Wk_arg6,
      Cert.ReferenceIdeal.HandCls.arg6_eq]
    exact a6.symm
  case h8 =>
    rw [Cert.KernelIdeal.HandHead.arg8_eq, Cert.KernelIdeal.HandValue.Wk_arg8,
      Cert.ReferenceIdeal.HandCls.arg8_eq]
    exact a8.symm
  case h9 =>
    rw [Cert.KernelIdeal.HandHead.arg9_eq, Cert.KernelIdeal.HandValue.Wk_arg9,
      Cert.ReferenceIdeal.HandCls.arg9_eq]
    exact a9.symm
  case h10 =>
    rw [Cert.KernelIdeal.HandHead.arg10_eq, Cert.KernelIdeal.HandValue.Wk_arg10,
      Cert.ReferenceIdeal.HandCls.arg10_eq]
    exact a10.symm
  case hcls =>
    refine (Cert.KernelIdeal.HandValue.cls_kernel m c).trans ?_
    refine Eq.trans ?_ (Cert.ReferenceIdeal.HandCls.cls_ref _).symm
    funext _
    refine (Cert.ClsSpec.cls_eq (Cert.KernelIdeal.HandValue.Xk m c) (Cert.KernelIdeal.HandValue.Tk m c)
      (fun b l v => hX _) (fun b l => (hT _).1) (fun b l => (hT _).2)).trans ?_
    have e0 : StableHlo.launchContents m' c (Proc.devRef .tc Cert.ReferenceIdeal.main_arg0)
        = m ((c.tc : Thread Cert.KernelIdeal.nD Cert.KernelIdeal.τ).loc Cert.KernelIdeal.main_arg0) := a0
    have e7 : StableHlo.launchContents m' c (Proc.devRef .tc Cert.ReferenceIdeal.main_arg7)
        = m ((c.tc : Thread Cert.KernelIdeal.nD Cert.KernelIdeal.τ).loc Cert.KernelIdeal.main_arg7) := a7
    rw [e0, e7]
    rfl
  case hv6 =>
    rw [Cert.KernelIdeal.HandHead.v6_eq, Cert.KernelIdeal.HandValue.Wk_arg9, Cert.ReferenceIdeal.HandCls.v18_eq]
    exact congrArg _ a9.symm
  case hc2 =>
    rw [Cert.KernelIdeal.HandHead.cst2_eq, Cert.ReferenceIdeal.HandCls.cst3_eq]

end Cert.Glue

end
-- ==== Proof.lean ====
/-
  The certificate of a five-part training loss whose dominant part, the masked cross-entropy of 4 × 2048 positions over
  8192 classes, the kernel program computes tile by tile in a pipelined region, against the reference that computes it
  with a log-softmax over the whole array gathered at the tokens.

  Per batch row the region keeps a running sum of (log Σ exp − x[token]) · [token ≥ 4] over 16 tiles of 128 positions
  and a running count of the counted positions; the host sums the four rows and divides, the denominator raised to at
  least one.  The reference masks the four special tokens and divides the weighted sum by the count.  On finite logits
  and tokens in [0, 8192) the two quotients are the same extended real: row by row (log S + M) − x = −((x − M) − log S)
  for a real maximum M and a positive real sum S, the masked sum of a row is its entry at the token, a token ≥ 0 is not
  special exactly when it is at least 4, and the tile-by-tile sums re-index to the sums over all positions.  The four
  other parts (pointer, empty-span and two span-contrastive losses) and the final weighted sum are the same array
  operations in both programs, applied to equal contents.  The three frames: the kernel programs run their region to
  the end at every grid point and the host operations write no argument; the reference is a straight line of host
  operations that writes no argument.
-/
import proofs.«411483_j80101140070992_1_alg».proof.Defs
import proofs.«411483_j80101140070992_1_alg».proof.Proof.Gen.Kernel
import proofs.«411483_j80101140070992_1_alg».proof.Proof.Gen.KernelIdeal
import proofs.«411483_j80101140070992_1_alg».proof.Proof.Gen.ReferenceIdeal
import proofs.«411483_j80101140070992_1_alg».proof.Proof.Gen.Pre_finite_inputs
import proofs.«411483_j80101140070992_1_alg».proof.Proof.K.Frame
import proofs.«411483_j80101140070992_1_alg».proof.Proof.KI.Frame
import proofs.«411483_j80101140070992_1_alg».proof.Proof.RefRun
import proofs.«411483_j80101140070992_1_alg».proof.Proof.Glue
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs to the end, and no operation of it writes an argument. -/
theorem frame_ri : Cert.frame_ReferenceIdeal := fun m ρ _ =>
  (θ_run Cert.ReferenceIdeal.defs _ _).mono
    (fun r h c =>
      ⟨(h c _).trans (Cert.ReferenceIdeal.Hand.kept _ Cert.ReferenceIdeal.main_arg0 (by decide)),
       (h c _).trans (Cert.ReferenceIdeal.Hand.kept _ Cert.ReferenceIdeal.main_arg1 (by decide)),
       (h c _).trans (Cert.ReferenceIdeal.Hand.kept _ Cert.ReferenceIdeal.main_arg2 (by decide)),
       (h c _).trans (Cert.ReferenceIdeal.Hand.kept _ Cert.ReferenceIdeal.main_arg3 (by decide)),
       (h c _).trans (Cert.ReferenceIdeal.Hand.kept _ Cert.ReferenceIdeal.main_arg4 (by decide)),
       (h c _).trans (Cert.ReferenceIdeal.Hand.kept _ Cert.ReferenceIdeal.main_arg5 (by decide)),
       (h c _).trans (Cert.ReferenceIdeal.Hand.kept _ Cert.ReferenceIdeal.main_arg6 (by decide)),
       (h c _).trans (Cert.ReferenceIdeal.Hand.kept _ Cert.ReferenceIdeal.main_arg7 (by decide)),
       (h c _).trans (Cert.ReferenceIdeal.Hand.kept _ Cert.ReferenceIdeal.main_arg8 (by decide)),
       (h c _).trans (Cert.ReferenceIdeal.Hand.kept _ Cert.ReferenceIdeal.main_arg9 (by decide)),
       (h c _).trans (Cert.ReferenceIdeal.Hand.kept _ Cert.ReferenceIdeal.main_arg10 (by decide))⟩)
    (Cert.ReferenceIdeal.Hand.run (F := Ideal) m ρ)

/-- The ideal pass rewrote nothing. -/
theorem preserves : Cert.preserves_Kernel_KernelIdeal := trivial

/-- From memories agreeing on the arguments both idealized programs run to the end with the same total loss. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m)
      Cert.KernelIdeal.Hand.tailOpss c Cert.KernelIdeal.main_v157, ?_, ?_⟩
  · exact (θ_run Cert.KernelIdeal.defs _ _).mono (fun r h c => Cert.KernelIdeal.Hand.post_of m r h c)
      (Cert.KernelIdeal.Hand.run_main (F := Ideal) m ρ)
  · refine (θ_run Cert.ReferenceIdeal.defs _ _).mono (fun r h c => ?_) (Cert.ReferenceIdeal.Hand.run (F := Ideal) m' ρ')
    exact
      ⟨(h c _).trans (Cert.Glue.value_eq m m' hpre hagree c).symm,
       (h c _).trans (Cert.ReferenceIdeal.Hand.kept _ Cert.ReferenceIdeal.main_arg0 (by decide)),
       (h c _).trans (Cert.ReferenceIdeal.Hand.kept _ Cert.ReferenceIdeal.main_arg1 (by decide)),
       (h c _).trans (Cert.ReferenceIdeal.Hand.kept _ Cert.ReferenceIdeal.main_arg2 (by decide)),
       (h c _).trans (Cert.ReferenceIdeal.Hand.kept _ Cert.ReferenceIdeal.main_arg3 (by decide)),
       (h c _).trans (Cert.ReferenceIdeal.Hand.kept _ Cert.ReferenceIdeal.main_arg4 (by decide)),
       (h c _).trans (Cert.ReferenceIdeal.Hand.kept _ Cert.ReferenceIdeal.main_arg5 (by decide)),
       (h c _).trans (Cert.ReferenceIdeal.Hand.kept _ Cert.ReferenceIdeal.main_arg6 (by decide)),
       (h c _).trans (Cert.ReferenceIdeal.Hand.kept _ Cert.ReferenceIdeal.main_arg7 (by decide)),
       (h c _).trans (Cert.ReferenceIdeal.Hand.kept _ Cert.ReferenceIdeal.main_arg8 (by decide)),
       (h c _).trans (Cert.ReferenceIdeal.Hand.kept _ Cert.ReferenceIdeal.main_arg9 (by decide)),
       (h c _).trans (Cert.ReferenceIdeal.Hand.kept _ Cert.ReferenceIdeal.main_arg10 (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
